-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_tau" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x128 .f32) (main_arg1 : IVec S262144 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 512#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x128 : Shape := ⟨2, ![262144, 128]⟩
abbrev S262144 : Shape := ⟨1, ![262144]⟩
abbrev S262144x1 : Shape := ⟨2, ![262144, 1]⟩
abbrev S2x512x128 : Shape := ⟨3, ![2, 512, 128]⟩
abbrev S2x1x512 : Shape := ⟨3, ![2, 1, 512]⟩
abbrev S2048x128 : Shape := ⟨2, ![2048, 128]⟩
abbrev S2048x1 : Shape := ⟨2, ![2048, 1]⟩
abbrev S1x512x128 : Shape := ⟨3, ![1, 512, 128]⟩
abbrev S1x1x512 : Shape := ⟨3, ![1, 1, 512]⟩
abbrev S512x128 : Shape := ⟨2, ![512, 128]⟩
abbrev S1x512 : Shape := ⟨2, ![1, 512]⟩
abbrev S2048 : Shape := ⟨1, ![2048]⟩
abbrev S2048x512 : Shape := ⟨2, ![2048, 512]⟩
abbrev S512 : Shape := ⟨1, ![512]⟩
abbrev S_ : Shape := ⟨0, ![]⟩
abbrev S512x1 : Shape := ⟨2, ![512, 1]⟩
abbrev S2x1x1 : Shape := ⟨3, ![2, 1, 1]⟩
abbrev S1x1x1 : Shape := ⟨3, ![1, 1, 1]⟩
abbrev S1x1 : Shape := ⟨2, ![1, 1]⟩
abbrev S1 : Shape := ⟨1, ![1]⟩

abbrev nBuf : Space → Nat
  | .hbm => 30
  | .vmem => 15
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S262144x1, .i32⟩
  | .hbm, ⟨3, _⟩ => ⟨S2x512x128, .f32⟩
  | .hbm, ⟨4, _⟩ => ⟨S2x1x512, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S1x512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x128, .f32⟩
  | .hbm, ⟨14, _⟩ => ⟨S512x128, .f32⟩
  | .hbm, ⟨15, _⟩ => ⟨S512x128, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x128, .f32⟩
  | .hbm, ⟨24, _⟩ => ⟨S512x128, .f32⟩
  | .hbm, ⟨25, _⟩ => ⟨S2x1x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x1, .i32⟩
  | .local _ .vmem, ⟨3, _⟩ => ⟨S2048x1, .i32⟩
  | .local _ .vmem, ⟨4, _⟩ => ⟨S1x512x128, .f32⟩
  | .local _ .vmem, ⟨5, _⟩ => ⟨S1x512x128, .f32⟩
  | .local _ .vmem, ⟨6, _⟩ => ⟨S1x1x512, .f32⟩
  | .local _ .vmem, ⟨7, _⟩ => ⟨S1x1x512, .f32⟩
  | .local _ .vmem, ⟨8, _⟩ => ⟨S2048x128, .f32⟩
  | .local _ .vmem, ⟨9, _⟩ => ⟨S2048x128, .f32⟩
  | .local _ .vmem, ⟨10, _⟩ => ⟨S2048x1, .i32⟩
  | .local _ .vmem, ⟨11, _⟩ => ⟨S2048x1, .i32⟩
  | .local _ .vmem, ⟨12, _⟩ => ⟨S512x128, .f32⟩
  | .local _ .vmem, ⟨13, _⟩ => ⟨S1x1x1, .f32⟩
  | .local _ .vmem, ⟨14, _⟩ => ⟨S1x1x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S262144_S262144x1 : S262144.ShapeCasts S262144x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x128 : S2048x1.Broadcasts S2048x128
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  broadcasts_S2048x1_S2048x512 : S2048x1.Broadcasts S2048x512
  natLt_1_32 : 1 < 32
  reduces_S2048x512_S512 : S2048x512.Reduces [0] S512
  shapeCasts_S512_S1x512 : S512.ShapeCasts S1x512
  reducesTo_S2x512x128_S512x128_d0 : S2x512x128.ReducesTo [0] S512x128
  h_S_ : 0 < S_.numel
  reducesTo_S2x1x512_S1x512_d0 : S2x1x512.ReducesTo [0] S1x512
  transposes_S1x512_S512x1_1_0 : S1x512.Transposes [1, 0] S512x1
  bcast_S_S512x1 : S_.BroadcastsInDim S512x1 (![] : Fin 0 → Fin S512x1.rank)
  bcast_S512x1_S512x128_0_1 : S512x1.BroadcastsInDim S512x128 (![0, 1] : Fin 2 → Fin S512x128.rank)
  reducesTo_S512x128_S512_d1 : S512x128.ReducesTo [1] S512
  bcast_S512_S512x1_0 : S512.BroadcastsInDim S512x1 (![0] : Fin 1 → Fin S512x1.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S2048x512_S2048 : S2048x512.Reduces [1] S2048
  reduces_S2048x1_S1 : S2048x1.Reduces [0] S1
  shapeCasts_S1_S1x1 : S1.ShapeCasts S1x1
  reducesTo_S2x1x1_S_d0_1_2 : S2x1x1.ReducesTo [0, 1, 2] S_
  dot_S2048x512_S2048x128_S512x128_0_0_1_1_n_n_wf : DotDims.WF S2048x512 S2048x128 S512x128 [0] [0] [1] [1] [] []
  dot_S2048x128_S512x128_S2048x512_1_1_0_0_n_n_wf : DotDims.WF S2048x128 S512x128 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S2x512x128.size a
  hwx0_2 : ∀ i : grid0.Coords, EltTy.bits .f32 = 32 ∨ (Rect.block (s := S2x512x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x512.size a
  hwx0_3 : ∀ i : grid0.Coords, EltTy.bits .f32 = 32 ∨ (Rect.block (s := S2x1x512) S1x1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S262144x128.size a
  hwx1_0 : ∀ i : grid1.Coords, EltTy.bits .f32 = 32 ∨ (Rect.block (s := S262144x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S262144x1.size a
  hwx1_1 : ∀ i : grid1.Coords, EltTy.bits .i32 = 32 ∨ (Rect.block (s := S262144x1) S2048x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)

variable [Facts₀]

def dot_S2048x512_S2048x128_S512x128_0_0_1_1_n_n : DotDims S2048x512 S2048x128 S512x128 where
  lhsContracting := [0]
  rhsContracting := [0]
  lhsNonContracting := [1]
  rhsNonContracting := [1]
  lhsBatch := []
  rhsBatch := []
  wf := dot_S2048x512_S2048x128_S512x128_0_0_1_1_n_n_wf
def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x128 : Shape := ⟨2, ![262144, 128]⟩
abbrev S262144 : Shape := ⟨1, ![262144]⟩
abbrev S_ : Shape := ⟨0, ![]⟩
abbrev S262144x1 : Shape := ⟨2, ![262144, 1]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S262144x512 : Shape := ⟨2, ![262144, 512]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S262144x128, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S262144x1, .f32⟩
  | .hbm, ⟨7, _⟩ => ⟨S_, .f32⟩
  | .hbm, ⟨8, _⟩ => ⟨S262144x1, .f32⟩
  | .hbm, ⟨9, _⟩ => ⟨S262144x1, .f32⟩
  | .hbm, ⟨10, _⟩ => ⟨S262144x128, .f32⟩
  | .hbm, ⟨11, _⟩ => ⟨S262144x128, .f32⟩
  | .hbm, ⟨12, _⟩ => ⟨S_, .f32⟩
  | .hbm, ⟨13, _⟩ => ⟨S512x128, .f32⟩
  | .hbm, ⟨14, _⟩ => ⟨S262144x1, .i32⟩
  | .hbm, ⟨15, _⟩ => ⟨S512x128, .f32⟩
  | .hbm, ⟨16, _⟩ => ⟨S_, .f32⟩
  | .hbm, ⟨17, _⟩ => ⟨S262144, .f32⟩
  | .hbm, ⟨18, _⟩ => ⟨S_, .f32⟩
  | .hbm, ⟨19, _⟩ => ⟨S512, .f32⟩
  | .hbm, ⟨20, _⟩ => ⟨S262144x1, .i32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S512x1, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512, .f32⟩
  | .hbm, ⟨31, _⟩ => ⟨S512x1, .f32⟩
  | .hbm, ⟨32, _⟩ => ⟨S512x1, .f32⟩
  | .hbm, ⟨33, _⟩ => ⟨S_, .f32⟩
  | .hbm, ⟨34, _⟩ => ⟨S512x1, .f32⟩
  | .hbm, ⟨35, _⟩ => ⟨S512x1, .f32⟩
  | .hbm, ⟨36, _⟩ => ⟨S512x128, .f32⟩
  | .hbm, ⟨37, _⟩ => ⟨S512x128, .f32⟩
  | .hbm, ⟨38, _⟩ => ⟨S128x512, .f32⟩
  | .hbm, ⟨39, _⟩ => ⟨S262144x512, .f32⟩
  | .hbm, ⟨40, _⟩ => ⟨S_, .f32⟩
  | .hbm, ⟨41, _⟩ => ⟨S262144x512, .f32⟩
  | .hbm, ⟨42, _⟩ => ⟨S262144x512, .f32⟩
  | .hbm, ⟨43, _⟩ => ⟨S_, .f32⟩
  | .hbm, ⟨44, _⟩ => ⟨S262144, .f32⟩
  | .hbm, ⟨45, _⟩ => ⟨S_, .f32⟩
  | .hbm, ⟨46, _⟩ => ⟨S262144, .f32⟩
  | .hbm, ⟨47, _⟩ => ⟨S262144, .f32⟩
  | .hbm, ⟨48, _⟩ => ⟨S262144x1, .f32⟩
  | .hbm, ⟨49, _⟩ => ⟨S262144x512, .f32⟩
  | .hbm, ⟨50, _⟩ => ⟨S262144x512, .f32⟩
  | .hbm, ⟨51, _⟩ => ⟨S262144x512, .f32⟩
  | .hbm, ⟨52, _⟩ => ⟨S_, .f32⟩
  | .hbm, ⟨53, _⟩ => ⟨S262144, .f32⟩
  | .hbm, ⟨54, _⟩ => ⟨S262144x1, .f32⟩
  | .hbm, ⟨55, _⟩ => ⟨S262144x1, .f32⟩
  | .hbm, ⟨56, _⟩ => ⟨S262144x512, .f32⟩
  | .hbm, ⟨57, _⟩ => ⟨S262144x512, .f32⟩
  | .hbm, ⟨58, _⟩ => ⟨S262144x1, .i32⟩
  | .hbm, ⟨59, _⟩ => ⟨S_, .i32⟩
  | .hbm, ⟨60, _⟩ => ⟨S262144x1, .i32⟩
  | .hbm, ⟨61, _⟩ => ⟨S262144x1, .i1⟩
  | .hbm, ⟨62, _⟩ => ⟨S_, .i32⟩
  | .hbm, ⟨63, _⟩ => ⟨S262144x1, .i32⟩
  | .hbm, ⟨64, _⟩ => ⟨S262144x1, .i32⟩
  | .hbm, ⟨65, _⟩ => ⟨S262144x1, .i32⟩
  | .hbm, ⟨66, _⟩ => ⟨S262144x1x1, .i32⟩
  | .hbm, ⟨67, _⟩ => ⟨S1, .i32⟩
  | .hbm, ⟨68, _⟩ => ⟨S_, .i32⟩
  | .hbm, ⟨69, _⟩ => ⟨S262144x1x1, .i32⟩
  | .hbm, ⟨70, _⟩ => ⟨S262144x1x1, .i1⟩
  | .hbm, ⟨71, _⟩ => ⟨S1x1x1, .i32⟩
  | .hbm, ⟨72, _⟩ => ⟨S262144x1x1, .i32⟩
  | .hbm, ⟨73, _⟩ => ⟨S262144x1x1, .i1⟩
  | .hbm, ⟨74, _⟩ => ⟨S262144x1x1, .i1⟩
  | .hbm, ⟨75, _⟩ => ⟨S_, .i1⟩
  | .hbm, ⟨76, _⟩ => ⟨S262144x1, .i1⟩
  | .hbm, ⟨77, _⟩ => ⟨S262144x1, .f32⟩
  | .hbm, ⟨78, _⟩ => ⟨S_, .f32⟩
  | .hbm, ⟨79, _⟩ => ⟨S262144x1, .f32⟩
  | .hbm, ⟨80, _⟩ => ⟨S262144x1, .f32⟩
  | .hbm, ⟨81, _⟩ => ⟨S262144, .f32⟩
  | .hbm, ⟨82, _⟩ => ⟨S262144, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_call2_cst : Ref sig .tc := ⟨.hbm, 43, rfl⟩
abbrev main_call2_v0 : Ref sig .tc := ⟨.hbm, 44, rfl⟩
abbrev main_call2_cst_0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_cst_1 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_v26 : Ref sig .tc := ⟨.hbm, 57, rfl⟩
abbrev main_v27 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_c_1 : Ref sig .tc := ⟨.hbm, 67, rfl⟩
abbrev main_call3_c_2 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_3 : Ref sig .tc := ⟨.hbm, 75, rfl⟩
abbrev main_call3_v12 : Ref sig .tc := ⟨.hbm, 76, rfl⟩
abbrev main_call3_v13 : Ref sig .tc := ⟨.hbm, 77, rfl⟩
abbrev main_call3_cst : Ref sig .tc := ⟨.hbm, 78, rfl⟩
abbrev main_call3_v14 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_6 : Ref sig .tc := ⟨.hbm, 83, rfl⟩
abbrev main_v31 : Ref sig .tc := ⟨.hbm, 84, rfl⟩
abbrev main_cst_7 : Ref sig .tc := ⟨.hbm, 85, rfl⟩
abbrev main_v32 : Ref sig .tc := ⟨.hbm, 86, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x128_0_1 : S262144x1.BroadcastsInDim S262144x128 (![0, 1] : Fin 2 → Fin S262144x128.rank)
  bcast_S_S512x128 : S_.BroadcastsInDim S512x128 (![] : Fin 0 → Fin S512x128.rank)
  bcast_S_S262144 : S_.BroadcastsInDim S262144 (![] : Fin 0 → Fin S262144.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  reducesTo_S512x128_S512_d1 : S512x128.ReducesTo [1] S512
  bcast_S_S512x1 : S_.BroadcastsInDim S512x1 (![] : Fin 0 → Fin S512x1.rank)
  transposes_S512x128_S128x512_1_0 : S512x128.Transposes [1, 0] S128x512
  bcast_S_S262144x512 : S_.BroadcastsInDim S262144x512 (![] : Fin 0 → Fin S262144x512.rank)
  reducesTo_S262144x512_S262144_d1 : S262144x512.ReducesTo [1] S262144
  bcast_S262144x1_S262144x512_0_1 : S262144x1.BroadcastsInDim S262144x512 (![0, 1] : Fin 2 → Fin S262144x512.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  reducesTo_S262144_S_d0 : S262144.ReducesTo [0] S_
  scatter_S512x128_S262144x1_S262144x128_1_0_0_1_wf : ScatterDims.WF S512x128 S262144x1 S262144x128 [1] [0] [0] 1
  scatter_S512_S262144x1_S262144_n_0_0_1_wf : ScatterDims.WF S512 S262144x1 S262144 [] [0] [0] 1
  dot_S262144x128_S128x512_S262144x512_1_0_0_1_n_n_wf : DotDims.WF S262144x128 S128x512 S262144x512 [1] [0] [0] [1] [] []
  gather_S262144x512_S262144x1x1_S262144x1_n_1_0_0_1_2_11_wf : GatherDims.WF S262144x512 S262144x1x1 S262144x1 [] [1] [0] [1] [0] 2 ![1, 1]

variable [Facts₀]

def scatter_S512x128_S262144x1_S262144x128_1_0_0_1 : ScatterDims S512x128 S262144x1 S262144x128 where
  updateWindowDims := [1]
  insertedWindowDims := [0]
  scatterDimsToOperandDims := [0]
  indexVectorDim := 1
  wf := scatter_S512x128_S262144x1_S262144x128_1_0_0_1_wf
def scatter_S512_S262144x1_S262144_n_0_0_1 : ScatterDims S512 S262144x1 S262144 where
  updateWindowDims := []
  insertedWindowDims := [0]
  scatterDimsToOperandDims := [0]
  indexVectorDim := 1
  wf := scatter_S512_S262144x1_S262144_n_0_0_1_wf
def dot_S262144x128_S128x512_S262144x512_1_0_0_1_n_n : DotDims S262144x128 S128x512 S262144x512 where
  lhsContracting := [1]
  rhsContracting := [0]
  lhsNonContracting := [0]
  rhsNonContracting := [1]
  lhsBatch := []
  rhsBatch := []
  wf := dot_S262144x128_S128x512_S262144x512_1_0_0_1_n_n_wf
def gather_S262144x512_S262144x1x1_S262144x1_n_1_0_0_1_2_11 : GatherDims S262144x512 S262144x1x1 S262144x1 where
  offsetDims := []
  collapsedSliceDims := [1]
  operandBatchingDims := [0]
  startIndicesBatchingDims := [0]
  startIndexMap := [1]
  indexVectorDim := 2
  sliceSizes := ![1, 1]
  wf := gather_S262144x512_S262144x1x1_S262144x1_n_1_0_0_1_2_11_wf

class Facts : Prop extends Facts₀ where

variable [Facts]
-- ==== Proof.Spec.lean ====
/-
  The mathematics of the claim, stated once, over the extended reals, on the literal shapes.

  The input is an array `h` of 262144 rows of 128 numbers and a label in [0, 512) for every row.
    * A row is normalised: divided by the larger of its Euclidean norm and a tiny constant.
    * A class's prototype is the mean of the normalised rows carrying its label (the class's size floored at one),
      normalised again in the same way.
    * A row's logits are its inner products with the 512 prototypes, scaled by the reciprocal of the temperature.
    * A row's loss is the negative log-softmax of its logits at its own label; the result is the mean over rows.
  Two spellings of the row's loss are given: `(max + log(sum of exp)) - own` and `-((own - max) - log(sum of exp))`.
  They agree on real numbers and need not on the infinities.
  No program is imported here: every other module speaks about these functions.
-/
import Idealize.ShloMosaic.PureOps.Ideal
import Idealize.ShloMosaic.Lib.ValueIdx

noncomputable section

namespace Cert.Spec

open Idealize.ShloMosaic Idealize.ShloMosaic.ValueIdx

/-- The embeddings: 262144 rows of 128. -/
abbrev SH : Shape := ⟨2, ![262144, 128]⟩
/-- One label per row. -/
abbrev SL : Shape := ⟨1, ![262144]⟩
/-- One vector of 128 per class. -/
abbrev SP : Shape := ⟨2, ![512, 128]⟩

/-- The floor under a norm: the f32 nearest to 1e-12, a positive real. -/
def eps : EReal := Ideal.ofBits .f32 0x2B8CBCCC#32
/-- The reciprocal of the temperature: the reciprocal of the f32 nearest to 0.1, which is 13421773/134217728. -/
def invTau : EReal := ((134217728 / 13421773 : ℝ) : EReal)
/-- One over the number of rows, 2⁻¹⁸, an f32. -/
def invN : EReal := Ideal.ofBits .f32 0x36800000#32

/-- Row `i` carries label `c`. -/
def IsClass (lab : SL.Idx → BitVec 32) (i : Fin 262144) (c : Fin 512) : Prop := lab (ix1 i) = BitVec.ofNat 32 c.val
instance (lab : SL.Idx → BitVec 32) (i : Fin 262144) (c : Fin 512) : Decidable (IsClass lab i c) := by
  unfold IsClass; infer_instance

/-- The sum of squares of row `i`. -/
def rowSq (h : SH.Idx → EReal) (i : Fin 262144) : EReal := ∑ d : Fin 128, h (ix2 i d) * h (ix2 i d)
/-- Row `i`'s norm, floored. -/
def rowNorm (h : SH.Idx → EReal) (i : Fin 262144) : EReal := max (Ideal.sqrt (rowSq h i)) eps
/-- The normalised row. -/
def hn (h : SH.Idx → EReal) (i : Fin 262144) (d : Fin 128) : EReal := Ideal.div (h (ix2 i d)) (rowNorm h i)

/-- The sum of the normalised rows of class `c`. -/
def classSum (h : SH.Idx → EReal) (lab : SL.Idx → BitVec 32) (c : Fin 512) (d : Fin 128) : EReal :=
  ∑ i : Fin 262144, if IsClass lab i c then hn h i d else 0
/-- The number of rows of class `c`. -/
def classCnt (lab : SL.Idx → BitVec 32) (c : Fin 512) : EReal :=
  ∑ i : Fin 262144, if IsClass lab i c then (1 : EReal) else 0
/-- The class mean, the class's size floored at one. -/
def protoRaw (h : SH.Idx → EReal) (lab : SL.Idx → BitVec 32) (c : Fin 512) (d : Fin 128) : EReal :=
  Ideal.div (classSum h lab c d) (max (classCnt lab c) 1)
/-- The class mean's norm, floored. -/
def protoNorm (h : SH.Idx → EReal) (lab : SL.Idx → BitVec 32) (c : Fin 512) : EReal :=
  max (Ideal.sqrt (∑ d : Fin 128, protoRaw h lab c d * protoRaw h lab c d)) eps
/-- The prototype of class `c`. -/
def proto (h : SH.Idx → EReal) (lab : SL.Idx → BitVec 32) : SP.Idx → EReal :=
  fun j => Ideal.div (protoRaw h lab (j 0) (j 1)) (protoNorm h lab (j 0))

/-- Row `i`'s scaled inner product with class `c`'s vector of a table `P`. -/
def logit (P : SP.Idx → EReal) (h : SH.Idx → EReal) (i : Fin 262144) (c : Fin 512) : EReal :=
  (∑ d : Fin 128, hn h i d * P (ix2 c d)) * invTau
/-- The largest of row `i`'s logits (a fold of `max` from `⊥`). -/
def rowMax (P : SP.Idx → EReal) (h : SH.Idx → EReal) (i : Fin 262144) : EReal :=
  (Finset.univ : Finset (Fin 512)).fold max ⊥ (fun c => logit P h i c)
/-- The softmax denominator of row `i`, shifted by the row's maximum. -/
def rowDen (P : SP.Idx → EReal) (h : SH.Idx → EReal) (i : Fin 262144) : EReal :=
  ∑ c : Fin 512, Ideal.exp (logit P h i c - rowMax P h i)
/-- Row `i`'s logit at its own label, as a masked sum over the classes. -/
def ownLogit (P : SP.Idx → EReal) (h : SH.Idx → EReal) (lab : SL.Idx → BitVec 32) (i : Fin 262144) : EReal :=
  ∑ c : Fin 512, if IsClass lab i c then logit P h i c else 0

/-- Row `i`'s loss, spelt `(max + log den) - own`. -/
def rowNll (P : SP.Idx → EReal) (h : SH.Idx → EReal) (lab : SL.Idx → BitVec 32) (i : Fin 262144) : EReal :=
  (rowMax P h i + Ideal.log (rowDen P h i)) - ownLogit P h lab i
/-- The mean loss, spelt as the sum times 2⁻¹⁸. -/
def loss (h : SH.Idx → EReal) (lab : SL.Idx → BitVec 32) : EReal :=
  (∑ i : Fin 262144, rowNll (proto h lab) h lab i) * invN

/-- Row `i`'s label as a class, when it is one (class 0 otherwise: never used off the label range). -/
def labOf (lab : SL.Idx → BitVec 32) (i : Fin 262144) : Fin 512 :=
  if hlt : (lab (ix1 i)).toNat < 512 then ⟨(lab (ix1 i)).toNat, hlt⟩ else ⟨0, by decide⟩
/-- Row `i`'s loss, spelt `-((own - max) - log den)` with the own logit read at the label. -/
def rowNll' (P : SP.Idx → EReal) (h : SH.Idx → EReal) (lab : SL.Idx → BitVec 32) (i : Fin 262144) : EReal :=
  -((logit P h i (labOf lab i) - rowMax P h i) - Ideal.log (rowDen P h i))
/-- The mean loss, spelt as the sum (from zero) divided by the number of rows, an f32. -/
def loss' (h : SH.Idx → EReal) (lab : SL.Idx → BitVec 32) : EReal :=
  Ideal.div (0 + ∑ i : Fin 262144, rowNll' (proto h lab) h lab i) (Ideal.ofBits .f32 0x48800000#32)

/-! ## The same sums as a grid of tiles computes them

The rows are dealt to two cores, each core's rows to 64 tiles of 2048: row `(p·64 + j)·2048 + r` is row `r` of tile
`j` of core `p`. A core accumulates its tiles' partial sums; the host adds the two cores'. -/

/-- Row `r` of tile `j` of core `p`. -/
def rowOf (p : Fin 2) (j : Fin 64) (r : Fin 2048) : Fin 262144 :=
  ⟨(p.val * 64 + j.val) * 2048 + r.val, by have := p.isLt; have := j.isLt; have := r.isLt; omega⟩

/-- A column of labels read as a vector of labels. -/
def colLab (L : (⟨2, ![262144, 1]⟩ : Shape).Idx → BitVec 32) : SL.Idx → BitVec 32 := fun j => L (ix2 (j 0) (0 : Fin 1))

/-- Core `p`'s share of a class's sum. -/
def coreSum (h : SH.Idx → EReal) (lab : SL.Idx → BitVec 32) (p : Fin 2) (c : Fin 512) (d : Fin 128) : EReal :=
  ∑ j : Fin 64, ∑ r : Fin 2048, if IsClass lab (rowOf p j r) c then hn h (rowOf p j r) d else 0
/-- Core `p`'s share of a class's size. -/
def coreCnt (lab : SL.Idx → BitVec 32) (p : Fin 2) (c : Fin 512) : EReal :=
  ∑ j : Fin 64, ∑ r : Fin 2048, if IsClass lab (rowOf p j r) c then (1 : EReal) else 0
/-- Core `p`'s share of the total loss, against a table `P`. -/
def coreNll (P : SP.Idx → EReal) (h : SH.Idx → EReal) (lab : SL.Idx → BitVec 32) (p : Fin 2) : EReal :=
  ∑ j : Fin 64, ∑ r : Fin 2048, rowNll P h lab (rowOf p j r)

/-- The prototypes from the two cores' partial sums `S` and partial sizes `C`, as the host computes them: each
    added over the cores from zero, then the mean and its normalisation as in `proto`. -/
def protoOf (S : (⟨3, ![2, 512, 128]⟩ : Shape).Idx → EReal) (C : (⟨3, ![2, 1, 512]⟩ : Shape).Idx → EReal) : SP.Idx → EReal :=
  fun j =>
    let raw : Fin 128 → EReal := fun d =>
      Ideal.div (0 + ∑ p : Fin 2, S (ix3 p (j 0) d)) (max (0 + ∑ p : Fin 2, C (ix3 p (0 : Fin 1) (j 0))) 1)
    Ideal.div (raw (j 1)) (max (Ideal.sqrt (0 + ∑ d : Fin 128, raw d * raw d)) eps)

/-- The mean loss from the two cores' totals `T`, as the host computes it. -/
def lossOf (T : (⟨3, ![2, 1, 1]⟩ : Shape).Idx → EReal) : EReal :=
  (0 + ∑ p : Fin 2, T (ix3 p (0 : Fin 1) (0 : Fin 1))) * invN

/-! ## One tile

What one grid point sees: a block `x` of 2048 rows and the column `l` of their labels. The functions above, read on
the rows of a tile. -/

/-- A tile of embeddings: 2048 rows of 128. -/
abbrev ST : Shape := ⟨2, ![2048, 128]⟩
/-- A tile's label column. -/
abbrev STL : Shape := ⟨2, ![2048, 1]⟩

/-- Row `r` of the tile carries label `c`. -/
def TIsClass (l : STL.Idx → BitVec 32) (r : Fin 2048) (c : Fin 512) : Prop := l (ix2 r (0 : Fin 1)) = BitVec.ofNat 32 c.val
instance (l : STL.Idx → BitVec 32) (r : Fin 2048) (c : Fin 512) : Decidable (TIsClass l r c) := by
  unfold TIsClass; infer_instance

/-- Row `r`'s norm, floored. -/
def tRowNorm (x : ST.Idx → EReal) (r : Fin 2048) : EReal :=
  max (Ideal.sqrt (∑ d : Fin 128, x (ix2 r d) * x (ix2 r d))) eps
/-- The tile's normalised row. -/
def tHn (x : ST.Idx → EReal) (r : Fin 2048) (d : Fin 128) : EReal := Ideal.div (x (ix2 r d)) (tRowNorm x r)
/-- The tile's contribution to a class's sum. -/
def tSum (x : ST.Idx → EReal) (l : STL.Idx → BitVec 32) (c : Fin 512) (d : Fin 128) : EReal :=
  ∑ r : Fin 2048, if TIsClass l r c then tHn x r d else 0
/-- The tile's contribution to a class's size. -/
def tCnt (l : STL.Idx → BitVec 32) (c : Fin 512) : EReal :=
  ∑ r : Fin 2048, if TIsClass l r c then (1 : EReal) else 0
/-- Row `r`'s logit against class `c` of a table `P`. -/
def tLogit (P : SP.Idx → EReal) (x : ST.Idx → EReal) (r : Fin 2048) (c : Fin 512) : EReal :=
  (∑ d : Fin 128, tHn x r d * P (ix2 c d)) * invTau
/-- Row `r`'s largest logit. -/
def tRowMax (P : SP.Idx → EReal) (x : ST.Idx → EReal) (r : Fin 2048) : EReal :=
  (Finset.univ : Finset (Fin 512)).fold max ⊥ (fun c => tLogit P x r c)
/-- Row `r`'s loss. -/
def tRowNll (P : SP.Idx → EReal) (x : ST.Idx → EReal) (l : STL.Idx → BitVec 32) (r : Fin 2048) : EReal :=
  (tRowMax P x r + Ideal.log (∑ c : Fin 512, Ideal.exp (tLogit P x r c - tRowMax P x r)))
    - ∑ c : Fin 512, if TIsClass l r c then tLogit P x r c else 0
/-- The tile's total loss. -/
def tNll (P : SP.Idx → EReal) (x : ST.Idx → EReal) (l : STL.Idx → BitVec 32) : EReal :=
  ∑ r : Fin 2048, tRowNll P x l r

/-- Every entry of the input is a real number. -/
def Finite (h : SH.Idx → EReal) : Prop := ∀ j, ∃ r : ℝ, h j = (r : EReal)
/-- Every label is a class. -/
def InRange (lab : SL.Idx → BitVec 32) : Prop := ∀ j, (lab j).toNat < 512

end Cert.Spec

end
-- ==== Proof.Payloads0.lean ====
/-
  The first kernel's arithmetic, read at an index at the extended reals. On a tile `x` of 2048 rows with label column
  `l`: the stored sums block is the loaded one plus, at (c, d), the sum over the tile's rows carrying label c of the
  normalised row's entry d (the one-hot matrix is 0 or 1 exactly, its transpose times the normalised rows a sum over
  the rows; a change of float format is the identity); the stored sizes block is the loaded one plus, at c, the number
  of such rows (a column sum of the one-hot matrix); the blocks stored at a core's first tile are zero.
-/
import proofs.«425387_j45749991637604_3_alg».proof.Proof.Gen.KernelIdeal.Skeleton
import proofs.«425387_j45749991637604_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Payloads

open Cert.KernelIdeal Cert.KernelIdeal.Gen
open Idealize.ShloMosaic Idealize.ShloMosaic.ValueIdx

/-- A column (one entry per row) spread over the lanes reads, at (r, c), the column's entry of row r. -/
theorem broadcastTo_a1_ab_apply {α : Type} {a b : ℕ} (v : (⟨2, ![a, 1]⟩ : Shape).Idx → α)
    (h : (⟨2, ![a, 1]⟩ : Shape).Broadcasts ⟨2, ![a, b]⟩) (ha : a ≠ 1)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    rw [if_neg ha]
  | ⟨1, _⟩ => rfl

/-- A vector of length a viewed as a column reads, at (r, 0), the vector's entry r. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The comparison of the label column with the class numbers: at (r, c), whether row r's label is c as a word. -/
theorem k0_pay4_apply (l : Vec Ideal S2048x1 .i32) (r : Fin 2048) (c : Fin 512) :
    k0_pay4 (F := Ideal) l (ix2 r c) = BitVec.ofBool (l (ix2 r (0 : Fin 1)) == BitVec.ofNat 32 c.val) := by
  unfold k0_pay4
  show IntOp.cmpi .eq (broadcastTo S2048x512 (shapeCast S2048x1 l shapeCasts_S2048x1_S2048x1) broadcasts_S2048x1_S2048x512 (ix2 r c))
      (iota .tc S2048x512 32 [1] iota_S2048x512_d1_w32 (ix2 r c)) = _
  rw [shapeCast_self, iota_single_apply,
    broadcastTo_a1_ab_apply l broadcasts_S2048x1_S2048x512 (by decide) r c]
  rfl

/-- The one-hot matrix: at (r, c) it is 1 when row r carries label c and 0 otherwise, exactly. -/
theorem oneHot_apply (l : Vec Ideal S2048x1 .i32) (r : Fin 2048) (c : Fin 512) :
    (sitofp .f32 (extui 32 (k0_pay4 (F := Ideal) l) natLt_1_32) : FVec Ideal S2048x512 .f32) (ix2 r c)
      = if Cert.Spec.TIsClass l r c then (1 : EReal) else 0 := by
  show ((((k0_pay4 (F := Ideal) l (ix2 r c)).setWidth 32).toInt : ℝ) : EReal) = _
  rw [k0_pay4_apply]
  by_cases h : Cert.Spec.TIsClass l r c
  · rw [if_pos h]
    have h' : l (ix2 r (0 : Fin 1)) = BitVec.ofNat 32 c.val := h
    rw [h']
    simp
  · rw [if_neg h]
    have h' : ¬ l (ix2 r (0 : Fin 1)) = BitVec.ofNat 32 c.val := h
    have hf : (l (ix2 r (0 : Fin 1)) == BitVec.ofNat 32 c.val) = false := by simpa using h'
    rw [hf]
    simp

/-- The sum of squares along the lanes: at row r, the sum over d of the square of the tile's entry (r, d). -/
theorem rowSq_apply (x : Vec Ideal S2048x128 .f32) (r : Fin 2048) :
    (multiReduction (F := Ideal) .add [1] S2048 (mulf x x) 0x00000000#32 reduces_S2048x128_S2048 (.inl rfl) rfl : FVec Ideal S2048 .f32) (ix1 r)
      = ∑ d : Fin 128, x (ix2 r d) * x (ix2 r d) := by
  refine (Ideal.multiReduction_add_single (mulf x x) _ reduces_S2048x128_S2048 _ _ (ix1 r)).trans ?_
  refine Finset.sum_congr rfl fun d _ => ?_
  have e : reduces_S2048x128_S2048.lift (ix1 r) d = ix2 r d := funext fun a => Fin.ext (by
    match a with
    | ⟨0, _⟩ => rfl
    | ⟨1, _⟩ => rfl)
  rw [e]
  rfl

/-- The normalised rows the tile feeds the product: at (r, d), row r's entry d over the row's floored norm. -/
theorem hnVec_apply (x : Vec Ideal S2048x128 .f32) (r : Fin 2048) (d : Fin 128) :
    (divf x (broadcastTo S2048x128
        (maximumf (sqrt (shapeCast S2048x1
            (multiReduction (F := Ideal) .add [1] S2048 (mulf x x) 0x00000000#32 reduces_S2048x128_S2048 (.inl rfl) rfl : FVec Ideal S2048 .f32)
            shapeCasts_S2048_S2048x1))
          (broadcast S2048x1 (Scalar.ofBits (F := Ideal) .f32 0x2B8CBCCC#32)))
        broadcasts_S2048x1_S2048x128) : FVec Ideal S2048x128 .f32) (ix2 r d)
      = Cert.Spec.tHn x r d := by
  rw [divf_apply, broadcastTo_a1_ab_apply _ broadcasts_S2048x1_S2048x128 (by decide) r d, maximumf_apply]
  show Ideal.div (x (ix2 r d)) (max (Ideal.sqrt (shapeCast S2048x1 _ shapeCasts_S2048_S2048x1 (ix2 r (0 : Fin 1)))) (Ideal.ofBits .f32 0x2B8CBCCC#32)) = _
  rw [shapeCast_a_a1_apply, rowSq_apply]
  rfl

/-- The product's left index at contraction position q: the contracted axis reads q … -/
theorem lhs_k0_0 (i : S512x128.Idx) (q : dot_S2048x512_S2048x128_S512x128_0_0_1_1_n_n.contr.Idx) :
    (dot_S2048x512_S2048x128_S512x128_0_0_1_1_n_n.lhsIdx i q 0).val = (q ⟨0, by decide⟩).val :=
  dot_S2048x512_S2048x128_S512x128_0_0_1_1_n_n.lhsIdx_val_of_single rfl i q
/-- … and the kept axis reads the result's first coordinate. -/
theorem lhs_k0_1 (i : S512x128.Idx) (q : dot_S2048x512_S2048x128_S512x128_0_0_1_1_n_n.contr.Idx) :
    (dot_S2048x512_S2048x128_S512x128_0_0_1_1_n_n.lhsIdx i q 1).val = (i 0).val := by
  unfold DotDims.lhsIdx
  rw [dif_neg (show ¬(1 : Fin S2048x512.rank) ∈ dot_S2048x512_S2048x128_S512x128_0_0_1_1_n_n.lhsBatch by decide), dif_pos (show (1 : Fin S2048x512.rank) ∈ dot_S2048x512_S2048x128_S512x128_0_0_1_1_n_n.lhsNonContracting by decide)]
  rfl
/-- The product's right index at contraction position q: the contracted axis reads q … -/
theorem rhs_k0_0 (i : S512x128.Idx) (q : dot_S2048x512_S2048x128_S512x128_0_0_1_1_n_n.contr.Idx) :
    (dot_S2048x512_S2048x128_S512x128_0_0_1_1_n_n.rhsIdx i q 0).val = (q ⟨0, by decide⟩).val :=
  dot_S2048x512_S2048x128_S512x128_0_0_1_1_n_n.rhsIdx_val_of_single rfl i q
/-- … and the kept axis reads the result's second coordinate. -/
theorem rhs_k0_1 (i : S512x128.Idx) (q : dot_S2048x512_S2048x128_S512x128_0_0_1_1_n_n.contr.Idx) :
    (dot_S2048x512_S2048x128_S512x128_0_0_1_1_n_n.rhsIdx i q 1).val = (i 1).val := by
  unfold DotDims.rhsIdx
  rw [dif_neg (show ¬(1 : Fin S2048x128.rank) ∈ dot_S2048x512_S2048x128_S512x128_0_0_1_1_n_n.rhsBatch by decide), dif_pos (show (1 : Fin S2048x128.rank) ∈ dot_S2048x512_S2048x128_S512x128_0_0_1_1_n_n.rhsNonContracting by decide)]
  rfl

/-- The transposed-left product into a zero accumulator: at (c, d), the sum over the rows r of the left operand at
    (r, c) times the right operand at (r, d). -/
theorem matmul_k0_apply (A : FVec Ideal S2048x512 .bf16) (B : FVec Ideal S2048x128 .bf16) (c : Fin 512) (d : Fin 128) :
    (matmul dot_S2048x512_S2048x128_S512x128_0_0_1_1_n_n none A B (constant S512x128 .f32 0x00000000#32) : FVec Ideal S512x128 .f32) (ix2 c d)
      = ∑ r : Fin 2048, A (ix2 r c) * B (ix2 r d) := by
  show FloatOps.matmul dot_S2048x512_S2048x128_S512x128_0_0_1_1_n_n none A B (constant S512x128 .f32 0x00000000#32) (ix2 c d) = _
  rw [Ideal.matmul_constant_zero_apply, ← Equiv.sum_comp (contrEquiv1 dot_S2048x512_S2048x128_S512x128_0_0_1_1_n_n 2048 rfl rfl).symm]
  refine Finset.sum_congr rfl fun r _ => ?_
  have hk := contrEquiv1_symm_val dot_S2048x512_S2048x128_S512x128_0_0_1_1_n_n 2048 rfl rfl r
  have el : dot_S2048x512_S2048x128_S512x128_0_0_1_1_n_n.lhsIdx (ix2 c d) ((contrEquiv1 dot_S2048x512_S2048x128_S512x128_0_0_1_1_n_n 2048 rfl rfl).symm r) = ix2 r c := funext fun a => Fin.ext (by
    match a with
    | ⟨0, _⟩ => exact (lhs_k0_0 _ _).trans hk
    | ⟨1, _⟩ => exact lhs_k0_1 _ _)
  have er : dot_S2048x512_S2048x128_S512x128_0_0_1_1_n_n.rhsIdx (ix2 c d) ((contrEquiv1 dot_S2048x512_S2048x128_S512x128_0_0_1_1_n_n 2048 rfl rfl).symm r) = ix2 r d := funext fun a => Fin.ext (by
    match a with
    | ⟨0, _⟩ => exact (rhs_k0_0 _ _).trans hk
    | ⟨1, _⟩ => exact rhs_k0_1 _ _)
  rw [el, er]

/-- The sums block a tile stores: what it loaded plus the tile's contribution. -/
theorem k0_pay5_apply (x : Vec Ideal S2048x128 .f32) (l : Vec Ideal S2048x1 .i32) (acc : Vec Ideal S1x512x128 .f32)
    (c : Fin 512) (d : Fin 128) :
    k0_pay5 (F := Ideal) x l acc (ix3 (0 : Fin 1) c d) = acc (ix3 (0 : Fin 1) c d) + Cert.Spec.tSum x l c d := by
  unfold k0_pay5
  refine (shapeCast_ab_1ab_apply _ shapeCasts_S512x128_S1x512x128 (0 : Fin 1) c d).trans ?_
  refine (addf_apply _ _ _).trans ?_
  rw [shapeCast_1ab_ab_apply acc shapeCasts_S1x512x128_S512x128 c d]
  congr 1
  refine (matmul_k0_apply _ _ c d).trans ?_
  unfold Cert.Spec.tSum
  refine Finset.sum_congr rfl fun r _ => ?_
  rw [truncf_apply, truncf_apply, oneHot_apply, hnVec_apply]
  by_cases h : Cert.Spec.TIsClass l r c
  · rw [if_pos h, if_pos h, one_mul]
  · rw [if_neg h, if_neg h, zero_mul]

/-- The sizes row a tile computes: what it loaded plus the tile's contribution. -/
theorem k0_pay6_apply (l : Vec Ideal S2048x1 .i32) (acc : Vec Ideal S1x1x512 .f32) (c : Fin 512) :
    k0_pay6 (F := Ideal) l acc (ix2 (0 : Fin 1) c) = acc (ix3 (0 : Fin 1) (0 : Fin 1) c) + Cert.Spec.tCnt l c := by
  unfold k0_pay6
  refine (addf_apply _ _ _).trans ?_
  rw [shapeCast_1ab_ab_apply acc shapeCasts_S1x1x512_S1x512 (0 : Fin 1) c, shapeCast_a_1a_apply _ shapeCasts_S512_S1x512 (0 : Fin 1) c]
  congr 1
  refine (Ideal.multiReduction_add_single _ _ reduces_S2048x512_S512 _ _ (ix1 c)).trans ?_
  unfold Cert.Spec.tCnt
  refine Finset.sum_congr rfl fun r _ => ?_
  have e : reduces_S2048x512_S512.lift (ix1 c) r = ix2 r c := funext fun a => Fin.ext (by
    match a with
    | ⟨0, _⟩ => rfl
    | ⟨1, _⟩ => rfl)
  rw [e]
  exact oneHot_apply l r c

/-- The sizes block stored is that row, reshaped. -/
theorem k0_pay1_apply (v : FVec Ideal S1x512 .f32) (c : Fin 512) :
    k0_pay1 (F := Ideal) v (ix3 (0 : Fin 1) (0 : Fin 1) c) = v (ix2 (0 : Fin 1) c) := by
  unfold k0_pay1
  exact shapeCast_ab_1ab_apply v shapeCasts_S1x512_S1x1x512 (0 : Fin 1) (0 : Fin 1) c

/-- A core's first tile stores zero sums … -/
theorem k0_pay2_apply (j : S1x512x128.Idx) : k0_pay2 (F := Ideal) j = 0 := by
  unfold k0_pay2
  show Ideal.ofBits .f32 0x00000000#32 = 0
  exact Ideal.ofBits_zero_f32

/-- … and zero sizes. -/
theorem k0_pay3_apply (j : S1x1x512.Idx) : k0_pay3 (F := Ideal) j = 0 := by
  unfold k0_pay3
  show Ideal.ofBits .f32 0x00000000#32 = 0
  exact Ideal.ofBits_zero_f32

end Cert.KernelIdeal.Payloads

end
-- ==== Proof.Region0Value.lean ====
/-
  What the first kernel region leaves in its two output arrays, at the extended reals, from any entry contents.
  Core p visits its 64 tiles in order. At its first tile it clears both accumulators; at every tile it adds, for each
  class c, the normalised rows of the tile whose label is c (a product of the tile's one-hot matrix, transposed, with
  its normalised rows) to the sums, and the number of such rows (a column sum of the one-hot matrix) to the sizes.
  After the core's last tile slab p of each output array holds the core's accumulators: its share of every class's
  sum and size.
-/
import proofs.«425387_j45749991637604_3_alg».proof.Proof.Gen.KernelIdeal.Frame
import proofs.«425387_j45749991637604_3_alg».proof.Proof.Spec
import proofs.«425387_j45749991637604_3_alg».proof.Proof.Payloads0
import Idealize.ShloMosaic.Lib.Pipeline.Value
import Idealize.ShloMosaic.Lib.ValueIdx
import Idealize.ShloMosaic.Lib.Tactic
import Mathlib.Algebra.BigOperators.Fin
import Mathlib.Algebra.BigOperators.Group.Finset.Basic

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

open Idealize.ShloMosaic.Tactic

/-! ## What one tile leaves in the two accumulators -/

section Pieces

variable {F : FTy → Type} [FloatOps F] [Named F]

theorem zero3 : (![0, 0, 0] : Fin 3 → Nat) = fun _ => 0 := funext fun a => by fin_cases a <;> rfl
theorem zero2 : (![0, 0] : Fin 2 → Nat) = fun _ => 0 := funext fun a => by fin_cases a <;> rfl

/-- At a core's first tile the sums block is the tile's update of the zero block. -/
theorem firstSums (c : Dev nD) (i : grid0.Coords) (a2 : Memref sig .tc .vmem S2048x128 .f32) (h2 : a2.IsWhole) (a3 : Memref sig .tc .vmem S2048x1 .i32) (h3 : a3.IsWhole) (a4 : Memref sig .tc .vmem S1x512x128 .f32) (h4 : a4.IsWhole) (a5 : Memref sig .tc .vmem S1x1x512 .f32) (h5 : a5.IsWhole) (hc : cond0_0 i)
    (x : Vec F S2048x128 .f32) (l : Vec F S2048x1 .i32) :
    out0_A_2 c i a2 h2 a3 h3 a4 h4 a5 h5 hc x l = k0_pay5 x l k0_pay2 := by
  unfold out0_A_2
  rw [View.read_writes_eq_canon _ _ _ (cover0_A_2 c i a2 h2 a3 h3 a4 h4 a5 h5 hc x l)]
  unfold kernelRun0_A
  dsimp only
  sl_unfold_words
  rw [View.canon_cons_unit_zero (S := S1x512x128) zero3]
  simp only [View.readAt_eq_ld, h2.read_unread, h3.read_unread, View.ld_unit_zero (S := S2048x128) zero2,
    View.ld_unit_zero (S := S2048x1) zero2, View.readCov_unit_zero (S := S1x512x128) _ zero3]

/-- At a core's first tile the sizes block is the tile's update of the zero block. -/
theorem firstCnts (c : Dev nD) (i : grid0.Coords) (a2 : Memref sig .tc .vmem S2048x128 .f32) (h2 : a2.IsWhole) (a3 : Memref sig .tc .vmem S2048x1 .i32) (h3 : a3.IsWhole) (a4 : Memref sig .tc .vmem S1x512x128 .f32) (h4 : a4.IsWhole) (a5 : Memref sig .tc .vmem S1x1x512 .f32) (h5 : a5.IsWhole) (hc : cond0_0 i)
    (x : Vec F S2048x128 .f32) (l : Vec F S2048x1 .i32) :
    out0_A_3 c i a2 h2 a3 h3 a4 h4 a5 h5 hc x l = k0_pay1 (k0_pay6 l k0_pay3) := by
  unfold out0_A_3
  rw [View.read_writes_eq_canon _ _ _ (cover0_A_3 c i a2 h2 a3 h3 a4 h4 a5 h5 hc x l)]
  unfold kernelRun0_A
  dsimp only
  sl_unfold_words
  rw [View.canon_cons_unit_zero (S := S1x1x512) zero3]
  simp only [View.readAt_eq_ld, h2.read_unread, h3.read_unread, View.ld_unit_zero (S := S2048x128) zero2,
    View.ld_unit_zero (S := S2048x1) zero2, View.readCov_unit_zero (S := S1x1x512) _ zero3]

/-- At a later tile the sums block is the tile's update of what the tile before left. -/
theorem nextSums (c : Dev nD) (i : grid0.Coords) (a2 : Memref sig .tc .vmem S2048x128 .f32) (h2 : a2.IsWhole) (a3 : Memref sig .tc .vmem S2048x1 .i32) (h3 : a3.IsWhole) (a4 : Memref sig .tc .vmem S1x512x128 .f32) (h4 : a4.IsWhole) (a5 : Memref sig .tc .vmem S1x1x512 .f32) (h5 : a5.IsWhole) (hc : ¬cond0_0 i)
    (x : Vec F S2048x128 .f32) (l : Vec F S2048x1 .i32) (s : Vec F S1x512x128 .f32) (n : Vec F S1x1x512 .f32) :
    out0_B_2 c i a2 h2 a3 h3 a4 h4 a5 h5 hc x l s n = k0_pay5 x l s := by
  unfold out0_B_2
  rw [View.read_writes_eq_canon _ _ _ (cover0_B_2 c i a2 h2 a3 h3 a4 h4 a5 h5 hc x l s n)]
  unfold kernelRun0_B
  dsimp only
  sl_unfold_words
  rw [View.canon_unit_zero (S := S1x512x128) zero3]
  simp only [View.readAt_eq_ld, h2.read_unread, h3.read_unread, h4.read_unread, View.ld_unit_zero (S := S2048x128) zero2,
    View.ld_unit_zero (S := S2048x1) zero2, View.ld_unit_zero (S := S1x512x128) zero3]

/-- At a later tile the sizes block is the tile's update of what the tile before left. -/
theorem nextCnts (c : Dev nD) (i : grid0.Coords) (a2 : Memref sig .tc .vmem S2048x128 .f32) (h2 : a2.IsWhole) (a3 : Memref sig .tc .vmem S2048x1 .i32) (h3 : a3.IsWhole) (a4 : Memref sig .tc .vmem S1x512x128 .f32) (h4 : a4.IsWhole) (a5 : Memref sig .tc .vmem S1x1x512 .f32) (h5 : a5.IsWhole) (hc : ¬cond0_0 i)
    (x : Vec F S2048x128 .f32) (l : Vec F S2048x1 .i32) (s : Vec F S1x512x128 .f32) (n : Vec F S1x1x512 .f32) :
    out0_B_3 c i a2 h2 a3 h3 a4 h4 a5 h5 hc x l s n = k0_pay1 (k0_pay6 l n) := by
  unfold out0_B_3
  rw [View.read_writes_eq_canon _ _ _ (cover0_B_3 c i a2 h2 a3 h3 a4 h4 a5 h5 hc x l s n)]
  unfold kernelRun0_B
  dsimp only
  sl_unfold_words
  rw [View.canon_unit_zero (S := S1x1x512) zero3]
  simp only [View.readAt_eq_ld, h2.read_unread, h3.read_unread, h5.read_unread, View.ld_unit_zero (S := S2048x128) zero2,
    View.ld_unit_zero (S := S2048x1) zero2, View.ld_unit_zero (S := S1x1x512) zero3]

end Pieces

variable (V : (c : Dev nD) → (b : Ref sig .tc) → Buf (Elt Ideal) ((c : Thread nD τ).loc b))

/-! ## The tiles, read off the arrays -/

/-- The rows of tile `t` … -/
abbrev xblk (c : Dev nD) (t : Fin cfg0.N) : Vec Ideal S2048x128 .f32 := iblk0 (F := Ideal) V c 0 t
/-- … and their labels. -/
abbrev lblk (c : Dev nD) (t : Fin cfg0.N) : Vec Ideal S2048x1 .i32 := iblk0 (F := Ideal) V c 1 t
/-- The whole array of rows … -/
abbrev harr (c : Dev nD) : S262144x128.Idx → EReal := V c main_arg0
/-- … and the whole column of labels. -/
abbrev larr (c : Dev nD) : S262144x1.Idx → BitVec 32 := V c main_v0

/-- Where each window's block sits at grid point `t`: the inputs' at block `t` of the rows, the outputs' at slab
    `t / 64`. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0 :=
  (by decide +kernel : ∀ t : Fin grid0.N, _)

/-- Row `r` of tile `t` in the whole array. -/
def rowAt (t : Fin cfg0.N) (r : Fin 2048) : Fin 262144 :=
  ⟨t.val * 2048 + r.val, by have := lt_of_lt_of_eq t.isLt N_0; have := r.isLt; omega⟩

theorem xblk_apply (c : Dev nD) (t : Fin cfg0.N) (r : Fin 2048) (d : Fin 128) :
    xblk V c t (ix2 r d) = harr V c (ix2 (rowAt t r) d) := by
  show V c main_arg0 (((cfg0.win 0).blk t).view.emb (ix2 r d)) = V c main_arg0 (ix2 (rowAt t r) d)
  refine congrArg _ ?_
  funext a
  apply Fin.ext
  obtain ⟨e0, e1, -⟩ := blockIndex t
  match a with
  | ⟨0, _⟩ => show win0_0.index t (0 : Fin 2) * 2048 + 1 * r.val = t.val * 2048 + r.val; rw [e0]; omega
  | ⟨1, _⟩ => show win0_0.index t (1 : Fin 2) * 128 + 1 * d.val = d.val; rw [e1]; omega

theorem lblk_apply (c : Dev nD) (t : Fin cfg0.N) (r : Fin 2048) :
    lblk V c t (ix2 r (0 : Fin 1)) = larr V c (ix2 (rowAt t r) (0 : Fin 1)) := by
  show V c main_v0 (((cfg0.win 1).blk t).view.emb (ix2 r (0 : Fin 1))) = V c main_v0 (ix2 (rowAt t r) (0 : Fin 1))
  refine congrArg _ ?_
  funext a
  apply Fin.ext
  obtain ⟨-, -, e0, e1, -⟩ := blockIndex t
  match a with
  | ⟨0, _⟩ => show win0_1.index t (0 : Fin 2) * 2048 + 1 * r.val = t.val * 2048 + r.val; rw [e0]; omega
  | ⟨1, _⟩ => show win0_1.index t (1 : Fin 2) * 1 + 1 * 0 = 0; rw [e1]

/-- A tile's normalised row is the array's. -/
theorem tHn_eq (c : Dev nD) (t : Fin cfg0.N) (r : Fin 2048) (d : Fin 128) :
    Cert.Spec.tHn (xblk V c t) r d = Cert.Spec.hn (harr V c) (rowAt t r) d := by
  unfold Cert.Spec.tHn Cert.Spec.tRowNorm Cert.Spec.hn Cert.Spec.rowNorm Cert.Spec.rowSq
  simp only [xblk_apply]

/-- A tile's row carries a label exactly when the array's row does. -/
theorem tIsClass_iff (c : Dev nD) (t : Fin cfg0.N) (r : Fin 2048) (cl : Fin 512) :
    Cert.Spec.TIsClass (lblk V c t) r cl ↔ Cert.Spec.IsClass (Cert.Spec.colLab (larr V c)) (rowAt t r) cl := by
  unfold Cert.Spec.TIsClass Cert.Spec.IsClass Cert.Spec.colLab
  rw [lblk_apply]

/-- A tile's contribution to a class's sum, over the array's rows. -/
theorem tSum_eq (c : Dev nD) (t : Fin cfg0.N) (cl : Fin 512) (d : Fin 128) :
    Cert.Spec.tSum (xblk V c t) (lblk V c t) cl d
      = ∑ r : Fin 2048, if Cert.Spec.IsClass (Cert.Spec.colLab (larr V c)) (rowAt t r) cl then Cert.Spec.hn (harr V c) (rowAt t r) d else 0 := by
  unfold Cert.Spec.tSum
  refine Finset.sum_congr rfl fun r _ => ?_
  rw [tHn_eq]
  exact if_congr (tIsClass_iff V c t r cl) rfl rfl

/-- A tile's contribution to a class's size, over the array's rows. -/
theorem tCnt_eq (c : Dev nD) (t : Fin cfg0.N) (cl : Fin 512) :
    Cert.Spec.tCnt (lblk V c t) cl
      = ∑ r : Fin 2048, if Cert.Spec.IsClass (Cert.Spec.colLab (larr V c)) (rowAt t r) cl then (1 : EReal) else 0 := by
  unfold Cert.Spec.tCnt
  refine Finset.sum_congr rfl fun r _ => ?_
  exact if_congr (tIsClass_iff V c t r cl) rfl rfl

/-! ## The accumulators after each tile -/

/-- Grid point `n`'s contribution to a class's sum (nothing past the grid). -/
def ptSum (c : Dev nD) (cl : Fin 512) (d : Fin 128) (n : ℕ) : EReal :=
  if h : n < cfg0.N then Cert.Spec.tSum (xblk V c ⟨n, h⟩) (lblk V c ⟨n, h⟩) cl d else 0
/-- Grid point `n`'s contribution to a class's size (nothing past the grid). -/
def ptCnt (c : Dev nD) (cl : Fin 512) (n : ℕ) : EReal :=
  if h : n < cfg0.N then Cert.Spec.tCnt (lblk V c ⟨n, h⟩) cl else 0

theorem firstSums_at (c : Dev nD) (t : Fin cfg0.N) (h0 : t.val % 64 = 0) (cl : Fin 512) (d : Fin 128) :
    (outsAt0 V c t.val t.isLt).1 (ix3 (0 : Fin 1) cl d) = ptSum V c cl d t.val := by
  rw [outsAt0_A V c t h0]
  dsimp only
  refine (congrFun (firstSums (F := Ideal) c (grid0.coords t) (ms0_0 t) (hs0_0 t) (ms0_1 t) (hs0_1 t) (ms0_2 t) (hs0_2 t) (ms0_3 t) (hs0_3 t) ((hcond0_0 t).mpr h0) (xblk V c t) (lblk V c t)) (ix3 (0 : Fin 1) cl d)).trans ?_
  rw [Payloads.k0_pay5_apply, Payloads.k0_pay2_apply, zero_add]
  unfold ptSum
  rw [dif_pos t.isLt]

theorem firstCnts_at (c : Dev nD) (t : Fin cfg0.N) (h0 : t.val % 64 = 0) (cl : Fin 512) :
    (outsAt0 V c t.val t.isLt).2 (ix3 (0 : Fin 1) (0 : Fin 1) cl) = ptCnt V c cl t.val := by
  rw [outsAt0_A V c t h0]
  dsimp only
  refine (congrFun (firstCnts (F := Ideal) c (grid0.coords t) (ms0_0 t) (hs0_0 t) (ms0_1 t) (hs0_1 t) (ms0_2 t) (hs0_2 t) (ms0_3 t) (hs0_3 t) ((hcond0_0 t).mpr h0) (xblk V c t) (lblk V c t)) (ix3 (0 : Fin 1) (0 : Fin 1) cl)).trans ?_
  rw [Payloads.k0_pay1_apply, Payloads.k0_pay6_apply, Payloads.k0_pay3_apply, zero_add]
  unfold ptCnt
  rw [dif_pos t.isLt]

theorem nextSums_at (c : Dev nD) (t : Fin cfg0.N) (h0 : ¬t.val % 64 = 0) (cl : Fin 512) (d : Fin 128) :
    (outsAt0 V c t.val t.isLt).1 (ix3 (0 : Fin 1) cl d)
      = (outsAt0 V c (t.val - 1) (Nat.lt_of_le_of_lt (Nat.sub_le _ _) t.isLt)).1 (ix3 (0 : Fin 1) cl d) + ptSum V c cl d t.val := by
  rw [outsAt0_B V c t h0]
  dsimp only
  refine (congrFun (nextSums (F := Ideal) c (grid0.coords t) (ms0_0 t) (hs0_0 t) (ms0_1 t) (hs0_1 t) (ms0_2 t) (hs0_2 t) (ms0_3 t) (hs0_3 t) (fun h => h0 ((hcond0_0 t).mp h)) (xblk V c t) (lblk V c t)
    (outsAt0 V c (t.val - 1) (Nat.lt_of_le_of_lt (Nat.sub_le _ _) t.isLt)).1 (outsAt0 V c (t.val - 1) (Nat.lt_of_le_of_lt (Nat.sub_le _ _) t.isLt)).2) (ix3 (0 : Fin 1) cl d)).trans ?_
  rw [Payloads.k0_pay5_apply]
  unfold ptSum
  rw [dif_pos t.isLt]

theorem nextCnts_at (c : Dev nD) (t : Fin cfg0.N) (h0 : ¬t.val % 64 = 0) (cl : Fin 512) :
    (outsAt0 V c t.val t.isLt).2 (ix3 (0 : Fin 1) (0 : Fin 1) cl)
      = (outsAt0 V c (t.val - 1) (Nat.lt_of_le_of_lt (Nat.sub_le _ _) t.isLt)).2 (ix3 (0 : Fin 1) (0 : Fin 1) cl) + ptCnt V c cl t.val := by
  rw [outsAt0_B V c t h0]
  dsimp only
  refine (congrFun (nextCnts (F := Ideal) c (grid0.coords t) (ms0_0 t) (hs0_0 t) (ms0_1 t) (hs0_1 t) (ms0_2 t) (hs0_2 t) (ms0_3 t) (hs0_3 t) (fun h => h0 ((hcond0_0 t).mp h)) (xblk V c t) (lblk V c t)
    (outsAt0 V c (t.val - 1) (Nat.lt_of_le_of_lt (Nat.sub_le _ _) t.isLt)).1 (outsAt0 V c (t.val - 1) (Nat.lt_of_le_of_lt (Nat.sub_le _ _) t.isLt)).2) (ix3 (0 : Fin 1) (0 : Fin 1) cl)).trans ?_
  rw [Payloads.k0_pay1_apply, Payloads.k0_pay6_apply]
  unfold ptCnt
  rw [dif_pos t.isLt]

/-- The sum over a core's tiles up to point `n`, at the core's first tile: that tile alone. -/
theorem sum_first (f : ℕ → EReal) (n : ℕ) (h0 : n % 64 = 0) :
    ∑ s ∈ Finset.range (n % 64 + 1), f (64 * (n / 64) + s) = f n := by
  rw [h0, Finset.sum_range_one, Nat.add_zero]
  congr 1
  omega

/-- … and at a later tile: the sum up to the tile before, plus this tile. -/
theorem sum_next (f : ℕ → EReal) (n : ℕ) (h0 : ¬(n + 1) % 64 = 0) :
    ∑ s ∈ Finset.range ((n + 1) % 64 + 1), f (64 * ((n + 1) / 64) + s)
      = ∑ s ∈ Finset.range (n % 64 + 1), f (64 * (n / 64) + s) + f (n + 1) := by
  have e1 : (n + 1) % 64 = n % 64 + 1 := by omega
  have e2 : (n + 1) / 64 = n / 64 := by omega
  rw [e1, e2, Finset.sum_range_succ _ (n % 64 + 1)]
  congr 2
  omega

/-- After grid point `n` the accumulators hold the contributions of the core's tiles visited so far. -/
theorem acc_after (c : Dev nD) : ∀ (n : ℕ) (hn : n < cfg0.N),
    (∀ (cl : Fin 512) (d : Fin 128), (outsAt0 V c n hn).1 (ix3 (0 : Fin 1) cl d)
        = ∑ s ∈ Finset.range (n % 64 + 1), ptSum V c cl d (64 * (n / 64) + s))
    ∧ (∀ cl : Fin 512, (outsAt0 V c n hn).2 (ix3 (0 : Fin 1) (0 : Fin 1) cl)
        = ∑ s ∈ Finset.range (n % 64 + 1), ptCnt V c cl (64 * (n / 64) + s))
  | 0, hn => ⟨fun cl d => (firstSums_at V c ⟨0, hn⟩ rfl cl d).trans (sum_first _ 0 rfl).symm,
      fun cl => (firstCnts_at V c ⟨0, hn⟩ rfl cl).trans (sum_first _ 0 rfl).symm⟩
  | n + 1, hn => by
    by_cases h0 : (n + 1) % 64 = 0
    · exact ⟨fun cl d => (firstSums_at V c ⟨n + 1, hn⟩ h0 cl d).trans (sum_first _ (n + 1) h0).symm,
        fun cl => (firstCnts_at V c ⟨n + 1, hn⟩ h0 cl).trans (sum_first _ (n + 1) h0).symm⟩
    · obtain ⟨ih2, ih3⟩ := acc_after c n (Nat.lt_of_succ_lt hn)
      refine ⟨fun cl d => ?_, fun cl => ?_⟩
      · rw [sum_next _ n h0, ← ih2 cl d]
        exact nextSums_at V c ⟨n + 1, hn⟩ h0 cl d
      · rw [sum_next _ n h0, ← ih3 cl]
        exact nextCnts_at V c ⟨n + 1, hn⟩ h0 cl

/-! ## What is written back, and the arrays after the region -/

/-- Grid point `64 p + j` is tile `j` of core `p`. -/
theorem rowAt_eq (p : Fin 2) (j : Fin 64) (h : 64 * p.val + j.val < cfg0.N) (r : Fin 2048) :
    rowAt ⟨64 * p.val + j.val, h⟩ r = Cert.Spec.rowOf p j r := by
  apply Fin.ext
  show (64 * p.val + j.val) * 2048 + r.val = (p.val * 64 + j.val) * 2048 + r.val
  omega

theorem point_lt (p : Fin 2) (j : Fin 64) : 64 * p.val + j.val < cfg0.N := by
  have := p.isLt; have := j.isLt; rw [show cfg0.N = 128 from N_0]; omega

/-- The contributions of core `p`'s 64 grid points add up to the core's share of a class's sum … -/
theorem ptSum_core (c : Dev nD) (p : Fin 2) (cl : Fin 512) (d : Fin 128) :
    ∑ s ∈ Finset.range 64, ptSum V c cl d (64 * p.val + s)
      = Cert.Spec.coreSum (harr V c) (Cert.Spec.colLab (larr V c)) p cl d := by
  rw [Finset.sum_range]
  unfold Cert.Spec.coreSum
  refine Finset.sum_congr rfl fun j _ => ?_
  unfold ptSum
  rw [dif_pos (point_lt p j), tSum_eq]
  refine Finset.sum_congr rfl fun r _ => ?_
  rw [rowAt_eq p j (point_lt p j) r]

/-- … and of a class's size. -/
theorem ptCnt_core (c : Dev nD) (p : Fin 2) (cl : Fin 512) :
    ∑ s ∈ Finset.range 64, ptCnt V c cl (64 * p.val + s)
      = Cert.Spec.coreCnt (Cert.Spec.colLab (larr V c)) p cl := by
  rw [Finset.sum_range]
  unfold Cert.Spec.coreCnt
  refine Finset.sum_congr rfl fun j _ => ?_
  unfold ptCnt
  rw [dif_pos (point_lt p j), tCnt_eq]
  refine Finset.sum_congr rfl fun r _ => ?_
  rw [rowAt_eq p j (point_lt p j) r]

/-- The sums array the region should leave. -/
abbrev sumsArr (c : Dev nD) : S2x512x128.Idx → EReal :=
  fun j => Cert.Spec.coreSum (harr V c) (Cert.Spec.colLab (larr V c)) (j 0) (j 1) (j 2)
/-- The sizes array the region should leave. -/
abbrev cntsArr (c : Dev nD) : S2x1x512.Idx → EReal :=
  fun j => Cert.Spec.coreCnt (Cert.Spec.colLab (larr V c)) (j 0) (j 2)

/-- After a core's last tile the sums block is the core's slab of that array. -/
theorem sums_last (c : Dev nD) (t : Fin cfg0.N) (h63 : t.val % 64 = 63) (y : S1x512x128.Idx) :
    (outsAt0 V c t.val t.isLt).1 y = sumsArr V c (((cfg0.win 2).blk t).view.emb y) := by
  have hN := lt_of_lt_of_eq t.isLt N_0
  obtain ⟨-, -, -, -, e0, e1, e2, -⟩ := blockIndex t
  have hp : t.val / 64 < 2 := by omega
  obtain ⟨a, cl, d, rfl⟩ : ∃ (a : Fin 1) (cl : Fin 512) (d : Fin 128), y = ix3 a cl d := ⟨y 0, y 1, y 2, eq_ix3 y⟩
  obtain rfl : a = 0 := Subsingleton.elim _ _
  have e : (((cfg0.win 2).blk t).view.emb (ix3 (0 : Fin 1) cl d) : S2x512x128.Idx) = ix3 (⟨t.val / 64, hp⟩ : Fin 2) cl d := by
    funext a
    apply Fin.ext
    match a with
    | ⟨0, _⟩ => show win0_2.index t (0 : Fin 3) * 1 + 1 * 0 = t.val / 64; rw [e0]; omega
    | ⟨1, _⟩ => show win0_2.index t (1 : Fin 3) * 512 + 1 * cl.val = cl.val; rw [e1]; omega
    | ⟨2, _⟩ => show win0_2.index t (2 : Fin 3) * 128 + 1 * d.val = d.val; rw [e2]; omega
  rw [e, (acc_after V c t.val t.isLt).1 cl d, h63]
  exact ptSum_core V c ⟨t.val / 64, hp⟩ cl d

/-- After a core's last tile the sizes block is the core's slab of that array. -/
theorem cnts_last (c : Dev nD) (t : Fin cfg0.N) (h63 : t.val % 64 = 63) (y : S1x1x512.Idx) :
    (outsAt0 V c t.val t.isLt).2 y = cntsArr V c (((cfg0.win 3).blk t).view.emb y) := by
  have hN := lt_of_lt_of_eq t.isLt N_0
  obtain ⟨-, -, -, -, -, -, -, e0, e1, e2⟩ := blockIndex t
  have hp : t.val / 64 < 2 := by omega
  obtain ⟨a, b, cl, rfl⟩ : ∃ (a : Fin 1) (b : Fin 1) (cl : Fin 512), y = ix3 a b cl := ⟨y 0, y 1, y 2, eq_ix3 y⟩
  obtain rfl : a = 0 := Subsingleton.elim _ _
  obtain rfl : b = 0 := Subsingleton.elim _ _
  have e : (((cfg0.win 3).blk t).view.emb (ix3 (0 : Fin 1) (0 : Fin 1) cl) : S2x1x512.Idx) = ix3 (⟨t.val / 64, hp⟩ : Fin 2) (0 : Fin 1) cl := by
    funext a
    apply Fin.ext
    match a with
    | ⟨0, _⟩ => show win0_3.index t (0 : Fin 3) * 1 + 1 * 0 = t.val / 64; rw [e0]; omega
    | ⟨1, _⟩ => show win0_3.index t (1 : Fin 3) * 1 + 1 * 0 = 0; rw [e1]
    | ⟨2, _⟩ => show win0_3.index t (2 : Fin 3) * 512 + 1 * cl.val = cl.val; rw [e2]; omega
  rw [e, (acc_after V c t.val t.isLt).2 cl, h63]
  exact ptCnt_core V c ⟨t.val / 64, hp⟩ cl

/-- What a core's last tile writes back to the sums array is its slab of the array. -/
theorem sums_flushed (c : Dev nD) (t : Fin cfg0.N) (hf : (cfg0.win 2).flush t = true) :
    (dat0 (F := Ideal) V c).flushed 2 t = ((cfg0.win 2).blk t).view.read (Elt Ideal) (sumsArr V c) := by
  show (cfg0.win 2).cut (grid0.coords t) ((dat0 (F := Ideal) V c).after 2 t) = _
  rw [after0_2]
  funext y
  exact sums_last V c t ((flush0_2 t).mp hf) y

/-- What a core's last tile writes back to the sizes array is its slab of the array. -/
theorem cnts_flushed (c : Dev nD) (t : Fin cfg0.N) (hf : (cfg0.win 3).flush t = true) :
    (dat0 (F := Ideal) V c).flushed 3 t = ((cfg0.win 3).blk t).view.read (Elt Ideal) (cntsArr V c) := by
  show (cfg0.win 3).cut (grid0.coords t) ((dat0 (F := Ideal) V c).after 3 t) = _
  rw [after0_3]
  funext y
  exact cnts_last V c t ((flush0_3 t).mp hf) y

/-- An index of the sums array lies in point `t`'s block when each coordinate is in the block's range. -/
theorem mem_sums_blk (t : Fin cfg0.N) (i : S2x512x128.Idx) :
    i ∈ ((cfg0.win 2).blk t).view.set ↔ ∀ a : Fin 3, win0_2.index t a * S1x512x128.size a ≤ (i a).val ∧ (i a).val < win0_2.index t a * S1x512x128.size a + S1x512x128.size a := by
  show i ∈ ((View.whole main_v1_0).slice (win0_2.rect t)).set ↔ _
  rw [View.set_slice_whole, Rect.mem_set_unit]
  exact Iff.rfl

/-- The same for the sizes array. -/
theorem mem_cnts_blk (t : Fin cfg0.N) (i : S2x1x512.Idx) :
    i ∈ ((cfg0.win 3).blk t).view.set ↔ ∀ a : Fin 3, win0_3.index t a * S1x1x512.size a ≤ (i a).val ∧ (i a).val < win0_3.index t a * S1x1x512.size a + S1x1x512.size a := by
  show i ∈ ((View.whole main_v1_1).slice (win0_3.rect t)).set ↔ _
  rw [View.set_slice_whole, Rect.mem_set_unit]
  exact Iff.rfl

/-- Slab `p` of the sums array is written back after core `p`'s last tile. -/
theorem sums_cover (i : S2x512x128.Idx) :
    ∃ t : Fin cfg0.N, (cfg0.win 2).flush t = true ∧ i ∈ ((cfg0.win 2).blk t).view.set := by
  have h0 : (i 0).val < 2 := (i 0).isLt
  have h1 : (i 1).val < 512 := (i 1).isLt
  have h2 : (i 2).val < 128 := (i 2).isLt
  have ht : (i 0).val * 64 + 63 < cfg0.N := by rw [show cfg0.N = 128 from N_0]; omega
  refine ⟨⟨(i 0).val * 64 + 63, ht⟩, (flush0_2 _).mpr (by show ((i 0).val * 64 + 63) % 64 = 63; omega), ?_⟩
  rw [mem_sums_blk]
  obtain ⟨-, -, -, -, e0, e1, e2, -⟩ := blockIndex ⟨(i 0).val * 64 + 63, ht⟩
  dsimp only at e0
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 512 ≤ (i 1).val ∧ (i 1).val < win0_2.index _ (1 : Fin 3) * 512 + 512; rw [e1]; omega
  | ⟨2, _⟩ => show win0_2.index _ (2 : Fin 3) * 128 ≤ (i 2).val ∧ (i 2).val < win0_2.index _ (2 : Fin 3) * 128 + 128; rw [e2]; omega

/-- Slab `p` of the sizes array is written back after core `p`'s last tile. -/
theorem cnts_cover (i : S2x1x512.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 512 := (i 2).isLt
  have ht : (i 0).val * 64 + 63 < cfg0.N := by rw [show cfg0.N = 128 from N_0]; omega
  refine ⟨⟨(i 0).val * 64 + 63, ht⟩, (flush0_3 _).mpr (by show ((i 0).val * 64 + 63) % 64 = 63; omega), ?_⟩
  rw [mem_cnts_blk]
  obtain ⟨-, -, -, -, -, -, -, e0, e1, e2⟩ := blockIndex ⟨(i 0).val * 64 + 63, ht⟩
  dsimp only at e0
  intro a
  match a with
  | ⟨0, _⟩ => show win0_3.index _ (0 : Fin 3) * 1 ≤ (i 0).val ∧ (i 0).val < win0_3.index _ (0 : Fin 3) * 1 + 1; rw [e0]; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 512 ≤ (i 2).val ∧ (i 2).val < win0_3.index _ (2 : Fin 3) * 512 + 512; rw [e2]; omega

/-- Slab p of the sums array after the region: core p's share of each class's sum. -/
theorem sums_final (c : Dev nD) (j : S2x512x128.Idx) :
    ((dat0 (F := Ideal) V c).arrAt 2 cfg0.N : S2x512x128.Idx → EReal) j
      = Cert.Spec.coreSum (V c main_arg0 : S262144x128.Idx → EReal) (Cert.Spec.colLab (V c main_v0 : S262144x1.Idx → BitVec 32)) (j 0) (j 1) (j 2) :=
  congrFun ((dat0 (F := Ideal) V c).arrAt_eq_of_cover 2 (sumsArr V c) (sums_flushed V c) sums_cover) j

/-- Slab p of the sizes array after the region: core p's share of each class's size. -/
theorem cnts_final (c : Dev nD) (j : S2x1x512.Idx) :
    ((dat0 (F := Ideal) V c).arrAt 3 cfg0.N : S2x1x512.Idx → EReal) j
      = Cert.Spec.coreCnt (Cert.Spec.colLab (V c main_v0 : S262144x1.Idx → BitVec 32)) (j 0) (j 2) :=
  congrFun ((dat0 (F := Ideal) V c).arrAt_eq_of_cover 3 (cntsArr V c) (cnts_flushed V c) cnts_cover) j

end Cert.KernelIdeal.Region0

end
-- ==== Proof.Payloads1.lean ====
/-
  The second kernel's arithmetic, read at an index at the extended reals. On a tile `x` of 2048 rows with label column
  `l` against a table `P` of 512 prototypes the body's one computed number is the sum over the tile's rows of the
  row's loss: the row normalised, its 512 logits the inner products with the prototypes times the named reciprocal of
  the temperature, then (max + log of the sum of shifted exponentials) minus the masked sum of the logits at the label.
  The stored accumulator is the loaded one plus that number; the one stored at a core's first tile is zero.
-/
import proofs.«425387_j45749991637604_3_alg».proof.Proof.Gen.KernelIdeal.Skeleton
import proofs.«425387_j45749991637604_3_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

set_option maxRecDepth 16384

noncomputable section

namespace Cert.KernelIdeal.Payloads

open Cert.KernelIdeal Cert.KernelIdeal.Gen
open Idealize.ShloMosaic Idealize.ShloMosaic.ValueIdx

/-- The named constant at the extended reals is the reciprocal of the temperature's word. -/
theorem inv_tau_eq : Named.named (F := Ideal) κ "inv_tau" (φ := .f32) 0x41200000#32 = Cert.Spec.invTau :=
  IdealRules.named_const.ideal_named_scalar _ _ _ _ rfl

end Cert.KernelIdeal.Payloads

namespace Cert.KernelIdeal.Payloads.LossTile

open Cert.KernelIdeal Cert.KernelIdeal.Gen
open Idealize.ShloMosaic Idealize.ShloMosaic.ValueIdx

/-! ## Entrywise operations read at an entry -/

section Entrywise
variable {s : Shape}

/-- The square root of a vector is, at an entry, the square root of the entry. -/
theorem sqrt_apply (a : FVec Ideal s .f32) (i : s.Idx) : sqrt a i = Ideal.sqrt (a i) := rfl
/-- The exponential of a vector is, at an entry, the exponential of the entry. -/
theorem exp_apply (a : FVec Ideal s .f32) (i : s.Idx) : exp a i = Ideal.exp (a i) := rfl
/-- The logarithm of a vector is, at an entry, the logarithm of the entry. -/
theorem log_apply (a : FVec Ideal s .f32) (i : s.Idx) : log a i = Ideal.log (a i) := rfl
/-- Comparing two vectors of words for equality is, at an entry, comparing the entries. -/
theorem cmpi_apply {w : ℕ} (p : CmpIPredicate) (a b : IVec s w) (i : s.Idx) : cmpi p a b i = IntOp.cmpi p (a i) (b i) := rfl
/-- The word of zero denotes zero. -/
theorem zero_word : Scalar.ofBits (F := Ideal) .f32 0x00000000#32 = (0 : EReal) := Ideal.ofBits_zero_f32

/-- Choosing by the one-bit answer to "are these two words equal" is choosing by their equality. -/
theorem choose_by_equality {α : Type} {w : ℕ} (a b : BitVec w) (A B : α) :
    Scalar.select (IntOp.cmpi .eq a b) A B = if a = b then A else B := by
  unfold Scalar.select IntOp.cmpi
  by_cases h : a = b
  · simp [h]
  · have hb : (a == b) = false := beq_eq_false_iff_ne.mpr h
    simp [h, hb]

end Entrywise

end Cert.KernelIdeal.Payloads.LossTile

namespace Cert.KernelIdeal.Payloads.LossTile

open Cert.KernelIdeal Cert.KernelIdeal.Gen
open Idealize.ShloMosaic Idealize.ShloMosaic.ValueIdx

/-! ## Columns: a vector stood up as a column, a column spread along rows -/

section Columns
variable {α : Type}

/-- A vector of `a` entries stood up as an `a × 1` column reads, at `(i, u)`, its entry `i`. -/
theorem column_of_vector_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread over `b` columns reads, at `(p, c)`, the column's entry `p`. -/
theorem spread_column_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## Sums and maxima along an axis of a matrix -/

/-- The sum along the second axis of an `a × b` matrix is, at row `r`, the sum of that row's entries. -/
theorem sum_along_row {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ v 0x00000000#32 h hφ hacc (ix1 r) = ∑ c : Fin b, v (ix2 r c) := by
  refine (Ideal.multiReduction_add_single v _ h hφ hacc (ix1 r)).trans ?_
  refine Finset.sum_congr rfl fun c _ => congrArg v ?_
  funext ax
  match ax with
  | ⟨0, _⟩ => exact Fin.ext rfl
  | ⟨1, _⟩ => exact Fin.ext rfl

/-- The maximum along the second axis of an `a × b` matrix is, at row `r`, the fold of `max` from the bottom element
    over that row's entries (the fold's starting word denotes the bottom element). -/
theorem max_along_row {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction (F := Ideal) .maximumf [1] ⟨1, ![a]⟩ v 0xFF800000#32 h hφ hacc (ix1 r)
      = (Finset.univ : Finset (Fin b)).fold max ⊥ (fun c => v (ix2 r c)) := by
  refine (Ideal.multiReduction_maximumf_single v _ h hφ hacc (ix1 r)).trans ?_
  have hbot : FloatOps.ofBits (F := Ideal) .f32 0xFF800000#32 = (⊥ : EReal) := by
    show Ideal.ofBits .f32 0xFF800000#32 = ⊥
    simp [Ideal.ofBits, Ideal.ieee]
  rw [hbot]
  refine congrArg (fun f : Fin b → EReal => (Finset.univ : Finset (Fin b)).fold max ⊥ f) ?_
  funext c
  refine congrArg v ?_
  funext ax
  match ax with
  | ⟨0, _⟩ => exact Fin.ext rfl
  | ⟨1, _⟩ => exact Fin.ext rfl

/-- The sum along the first axis of an `a × 1` column is the sum of the column's entries. -/
theorem sum_down_column {a : ℕ} (v : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (i : Fin 1) :
    multiReduction (F := Ideal) .add [0] ⟨1, ![1]⟩ v 0x00000000#32 h hφ hacc (ix1 i) = ∑ r : Fin a, v (ix2 r (0 : Fin 1)) := by
  refine (Ideal.multiReduction_add_single v _ h hφ hacc (ix1 i)).trans ?_
  refine Finset.sum_congr rfl fun r _ => congrArg v ?_
  funext ax
  match ax with
  | ⟨0, _⟩ => exact Fin.ext rfl
  | ⟨1, _⟩ => exact Fin.ext (by show (i : ℕ) = 0; omega)

end Cert.KernelIdeal.Payloads.LossTile

namespace Cert.KernelIdeal.Payloads.LossTile

open Cert.KernelIdeal Cert.KernelIdeal.Gen
open Idealize.ShloMosaic Idealize.ShloMosaic.ValueIdx

/-! ## The contraction of rows against prototypes -/

/-- The left operand's row is the output's row. -/
theorem lhs_axis0 (i : S2048x512.Idx) (q : dot_S2048x128_S512x128_S2048x512_1_1_0_0_n_n.contr.Idx) :
    (dot_S2048x128_S512x128_S2048x512_1_1_0_0_n_n.lhsIdx i q 0).val = (i 0).val := by
  unfold DotDims.lhsIdx
  rw [dif_neg (show ¬(0 : Fin S2048x128.rank) ∈ dot_S2048x128_S512x128_S2048x512_1_1_0_0_n_n.lhsBatch by decide), dif_pos (show (0 : Fin S2048x128.rank) ∈ dot_S2048x128_S512x128_S2048x512_1_1_0_0_n_n.lhsNonContracting by decide)]
  rfl
/-- The left operand's column is the summation index. -/
theorem lhs_axis1 (i : S2048x512.Idx) (q : dot_S2048x128_S512x128_S2048x512_1_1_0_0_n_n.contr.Idx) :
    (dot_S2048x128_S512x128_S2048x512_1_1_0_0_n_n.lhsIdx i q 1).val = (q ⟨0, by decide⟩).val :=
  dot_S2048x128_S512x128_S2048x512_1_1_0_0_n_n.lhsIdx_val_of_single rfl i q
/-- The right operand's row is the output's column. -/
theorem rhs_axis0 (i : S2048x512.Idx) (q : dot_S2048x128_S512x128_S2048x512_1_1_0_0_n_n.contr.Idx) :
    (dot_S2048x128_S512x128_S2048x512_1_1_0_0_n_n.rhsIdx i q 0).val = (i 1).val := by
  unfold DotDims.rhsIdx
  rw [dif_neg (show ¬(0 : Fin S512x128.rank) ∈ dot_S2048x128_S512x128_S2048x512_1_1_0_0_n_n.rhsBatch by decide), dif_pos (show (0 : Fin S512x128.rank) ∈ dot_S2048x128_S512x128_S2048x512_1_1_0_0_n_n.rhsNonContracting by decide)]
  rfl
/-- The right operand's column is the summation index. -/
theorem rhs_axis1 (i : S2048x512.Idx) (q : dot_S2048x128_S512x128_S2048x512_1_1_0_0_n_n.contr.Idx) :
    (dot_S2048x128_S512x128_S2048x512_1_1_0_0_n_n.rhsIdx i q 1).val = (q ⟨0, by decide⟩).val :=
  dot_S2048x128_S512x128_S2048x512_1_1_0_0_n_n.rhsIdx_val_of_single rfl i q

/-- Into a zero accumulator, the product of a 2048 × 128 matrix with the transpose of a 512 × 128 matrix is, at
    `(r, c)`, the inner product of row `r` of the first with row `c` of the second. -/
theorem inner_products_apply (A : FVec Ideal S2048x128 .bf16) (B : FVec Ideal S512x128 .bf16) (r : Fin 2048) (c : Fin 512) :
    matmul (F := Ideal) dot_S2048x128_S512x128_S2048x512_1_1_0_0_n_n none A B (constant (F := Ideal) S2048x512 .f32 0x00000000#32) (ix2 r c)
      = ∑ d : Fin 128, A (ix2 r d) * B (ix2 c d) := by
  simp only [matmul]
  rw [Ideal.matmul_constant_zero_apply, ← Equiv.sum_comp (ValueIdx.contrEquiv1 dot_S2048x128_S512x128_S2048x512_1_1_0_0_n_n 128 rfl rfl).symm]
  refine Finset.sum_congr rfl fun k _ => ?_
  have hk := ValueIdx.contrEquiv1_symm_val dot_S2048x128_S512x128_S2048x512_1_1_0_0_n_n 128 rfl rfl k
  have el : dot_S2048x128_S512x128_S2048x512_1_1_0_0_n_n.lhsIdx (ix2 r c) ((ValueIdx.contrEquiv1 dot_S2048x128_S512x128_S2048x512_1_1_0_0_n_n 128 rfl rfl).symm k) = ix2 r k := funext fun a => Fin.ext (by
    match a with
    | ⟨0, _⟩ => exact lhs_axis0 _ _
    | ⟨1, _⟩ => exact (lhs_axis1 _ _).trans hk)
  have er : dot_S2048x128_S512x128_S2048x512_1_1_0_0_n_n.rhsIdx (ix2 r c) ((ValueIdx.contrEquiv1 dot_S2048x128_S512x128_S2048x512_1_1_0_0_n_n 128 rfl rfl).symm k) = ix2 c k := funext fun a => Fin.ext (by
    match a with
    | ⟨0, _⟩ => exact rhs_axis0 _ _
    | ⟨1, _⟩ => exact (rhs_axis1 _ _).trans hk)
  rw [el, er]

end Cert.KernelIdeal.Payloads.LossTile

namespace Cert.KernelIdeal.Payloads.LossTile

open Cert.KernelIdeal Cert.KernelIdeal.Gen
open Idealize.ShloMosaic Idealize.ShloMosaic.ValueIdx

/-! ## The tile's arithmetic in pieces -/

/-- The tile's rows, each divided by the larger of its Euclidean norm and the floor. -/
def normedRows (x : Vec Ideal S2048x128 .f32) : FVec Ideal S2048x128 .bf16 :=
  truncf .bf16 (divf x (broadcastTo S2048x128
    (maximumf (sqrt (shapeCast S2048x1 (multiReduction .add [1] S2048 (mulf x x) 0x00000000#32 reduces_S2048x128_S2048 (.inl rfl) rfl) shapeCasts_S2048_S2048x1))
      (broadcast S2048x1 (Scalar.ofBits .f32 0x2B8CBCCC#32))) broadcasts_S2048x1_S2048x128)) bitsLt_bf16_f32

/-- The inner products of normalised rows with the prototypes, times the named reciprocal of the temperature. -/
def scaledProducts (xn : FVec Ideal S2048x128 .bf16) (P : Vec Ideal S512x128 .f32) : FVec Ideal S2048x512 .f32 :=
  mulf (matmul dot_S2048x128_S512x128_S2048x512_1_1_0_0_n_n none xn
      (truncf .bf16 (shapeCast S512x128 P shapeCasts_S512x128_S512x128) bitsLt_bf16_f32) (constant S2048x512 .f32 0x00000000#32))
    (broadcast S2048x512 (Named.named κ "inv_tau" 0x41200000#32))

/-- Each row's logit at its own label: the row's logits masked by "the column is the row's label", summed. -/
def ownColumn (L : FVec Ideal S2048x512 .f32) (l : Vec Ideal S2048x1 .i32) : FVec Ideal S2048x1 .f32 :=
  shapeCast S2048x1 (multiReduction .add [1] S2048
    (select (cmpi .eq (broadcastTo S2048x512 (shapeCast S2048x1 l shapeCasts_S2048x1_S2048x1) broadcasts_S2048x1_S2048x512)
        (iota .tc S2048x512 32 [1] iota_S2048x512_d1_w32)) L (broadcast S2048x512 (Scalar.ofBits .f32 0x00000000#32)))
    0x00000000#32 reduces_S2048x512_S2048 (.inl rfl) rfl) shapeCasts_S2048_S2048x1

/-- Each row's largest logit. -/
def maxColumn (L : FVec Ideal S2048x512 .f32) : FVec Ideal S2048x1 .f32 :=
  shapeCast S2048x1 (multiReduction .maximumf [1] S2048 L 0xFF800000#32 reduces_S2048x512_S2048 (.inl rfl) rfl) shapeCasts_S2048_S2048x1

/-- Each row's largest logit plus the logarithm of the sum of the exponentials of its logits less that largest. -/
def logSumColumn (L : FVec Ideal S2048x512 .f32) : FVec Ideal S2048x1 .f32 :=
  addf (maxColumn L) (log (shapeCast S2048x1 (multiReduction .add [1] S2048
    (exp (subf L (broadcastTo S2048x512 (maxColumn L) broadcasts_S2048x1_S2048x512)))
    0x00000000#32 reduces_S2048x512_S2048 (.inl rfl) rfl) shapeCasts_S2048_S2048x1))

/-- The sum over the tile's rows of (log-sum minus own logit). -/
def lossTotal (L : FVec Ideal S2048x512 .f32) (l : Vec Ideal S2048x1 .i32) : FVec Ideal S1x1 .f32 :=
  shapeCast S1x1 (multiReduction .add [0] S1 (subf (logSumColumn L) (ownColumn L l)) 0x00000000#32 reduces_S2048x1_S1 (.inl rfl) rfl) shapeCasts_S1_S1x1

/-- The body's computed number is these pieces composed. -/
theorem k1_pay3_pieces (x : Vec Ideal S2048x128 .f32) (P : Vec Ideal S512x128 .f32) (l : Vec Ideal S2048x1 .i32) :
    k1_pay3 (F := Ideal) x P l = lossTotal (scaledProducts (normedRows x) P) l := rfl

/-- The floor's word read at the extended reals is the specification's floor. -/
theorem floor_eq : Scalar.ofBits (F := Ideal) .f32 0x2B8CBCCC#32 = Cert.Spec.eps := rfl

/-- A normalised row's entry. -/
theorem normedRows_apply (x : Vec Ideal S2048x128 .f32) (r : Fin 2048) (d : Fin 128) :
    normedRows x (ix2 r d) = Cert.Spec.tHn x r d := by
  unfold normedRows Cert.Spec.tHn Cert.Spec.tRowNorm
  rw [truncf_apply, divf_apply]
  refine congrArg (Ideal.div (x (ix2 r d))) ?_
  refine (spread_column_apply _ broadcasts_S2048x1_S2048x128 r d).trans ?_
  rw [maximumf_apply, broadcast_apply, floor_eq]
  refine congrArg (fun t => max t Cert.Spec.eps) ?_
  rw [sqrt_apply]
  refine congrArg Ideal.sqrt ?_
  refine (column_of_vector_apply _ shapeCasts_S2048_S2048x1 r (0 : Fin 1)).trans ?_
  exact sum_along_row (mulf x x) reduces_S2048x128_S2048 (.inl rfl) rfl r

end Cert.KernelIdeal.Payloads.LossTile

namespace Cert.KernelIdeal.Payloads.LossTile

open Cert.KernelIdeal Cert.KernelIdeal.Gen
open Idealize.ShloMosaic Idealize.ShloMosaic.ValueIdx

/-- A logit: the inner product of a normalised row with a prototype, times the reciprocal of the temperature. -/
theorem scaledProducts_apply (xn : FVec Ideal S2048x128 .bf16) (P : Vec Ideal S512x128 .f32) (r : Fin 2048) (c : Fin 512) :
    scaledProducts xn P (ix2 r c) = (∑ d : Fin 128, xn (ix2 r d) * P (ix2 c d)) * Cert.Spec.invTau := by
  unfold scaledProducts
  rw [mulf_apply, broadcast_apply, Cert.KernelIdeal.Payloads.inv_tau_eq, inner_products_apply, shapeCast_self]
  rfl

/-- A row's largest logit. -/
theorem maxColumn_apply (L : FVec Ideal S2048x512 .f32) (r : Fin 2048) (u : Fin 1) :
    maxColumn L (ix2 r u) = (Finset.univ : Finset (Fin 512)).fold max ⊥ (fun c => L (ix2 r c)) := by
  unfold maxColumn
  refine (column_of_vector_apply _ shapeCasts_S2048_S2048x1 r u).trans ?_
  exact max_along_row L reduces_S2048x512_S2048 (.inl rfl) rfl r

/-- A row's own logit: the sum over the columns of the logit where the column is the row's label, zero elsewhere. -/
theorem ownColumn_apply (L : FVec Ideal S2048x512 .f32) (l : Vec Ideal S2048x1 .i32) (r : Fin 2048) (u : Fin 1) :
    ownColumn L l (ix2 r u) = ∑ c : Fin 512, if Cert.Spec.TIsClass l r c then L (ix2 r c) else 0 := by
  unfold ownColumn
  refine (column_of_vector_apply _ shapeCasts_S2048_S2048x1 r u).trans ?_
  refine (sum_along_row _ reduces_S2048x512_S2048 (.inl rfl) rfl r).trans ?_
  refine Finset.sum_congr rfl fun c _ => ?_
  rw [select_apply, broadcast_apply, zero_word, cmpi_apply, spread_column_apply, shapeCast_self, iota_single_apply,
    choose_by_equality]
  by_cases h : Cert.Spec.TIsClass l r c
  · rw [if_pos h]; exact if_pos h
  · rw [if_neg h]; exact if_neg h

/-- A row's largest logit plus the logarithm of its shifted exponentials' sum. -/
theorem logSumColumn_apply (L : FVec Ideal S2048x512 .f32) (r : Fin 2048) (u : Fin 1) :
    logSumColumn L (ix2 r u)
      = (Finset.univ : Finset (Fin 512)).fold max ⊥ (fun c => L (ix2 r c))
        + Ideal.log (∑ c : Fin 512, Ideal.exp (L (ix2 r c) - (Finset.univ : Finset (Fin 512)).fold max ⊥ (fun c => L (ix2 r c)))) := by
  unfold logSumColumn
  rw [addf_apply, maxColumn_apply, log_apply]
  refine congrArg (fun t => (Finset.univ : Finset (Fin 512)).fold max ⊥ (fun c => L (ix2 r c)) + Ideal.log t) ?_
  refine (column_of_vector_apply _ shapeCasts_S2048_S2048x1 r u).trans ?_
  refine (sum_along_row _ reduces_S2048x512_S2048 (.inl rfl) rfl r).trans ?_
  refine Finset.sum_congr rfl fun c _ => ?_
  rw [exp_apply, subf_apply, spread_column_apply, maxColumn_apply]

/-- The tile's number: the sum over its rows of the log-sum less the own logit. -/
theorem lossTotal_apply (L : FVec Ideal S2048x512 .f32) (l : Vec Ideal S2048x1 .i32) (y : S1x1.Idx) :
    lossTotal L l y = ∑ r : Fin 2048, (logSumColumn L (ix2 r (0 : Fin 1)) - ownColumn L l (ix2 r (0 : Fin 1))) := by
  obtain ⟨u, i, rfl⟩ : ∃ (u i : Fin 1), y = ix2 u i := ⟨y 0, y 1, eq_ix2 y⟩
  unfold lossTotal
  refine (shapeCast_a_1a_apply _ shapeCasts_S1_S1x1 u i).trans ?_
  refine (sum_down_column (a := 2048) (subf (logSumColumn L) (ownColumn L l)) reduces_S2048x1_S1 (.inl rfl) rfl i).trans ?_
  exact Finset.sum_congr rfl fun r _ => subf_apply (logSumColumn L) (ownColumn L l) (ix2 r (0 : Fin 1))

end Cert.KernelIdeal.Payloads.LossTile

namespace Cert.KernelIdeal.Payloads

open Cert.KernelIdeal Cert.KernelIdeal.Gen
open Idealize.ShloMosaic Idealize.ShloMosaic.ValueIdx

/-- The tile's computed number: the sum of its rows' losses. -/
theorem k1_pay3_apply (x : Vec Ideal S2048x128 .f32) (P : Vec Ideal S512x128 .f32) (l : Vec Ideal S2048x1 .i32) (y : S1x1.Idx) :
    k1_pay3 (F := Ideal) x P l y = Cert.Spec.tNll P x l := by
  rw [LossTile.k1_pay3_pieces, LossTile.lossTotal_apply]
  unfold Cert.Spec.tNll
  refine Finset.sum_congr rfl fun r _ => ?_
  have hL : ∀ c : Fin 512, LossTile.scaledProducts (LossTile.normedRows x) P (ix2 r c) = Cert.Spec.tLogit P x r c := fun c => by
    rw [LossTile.scaledProducts_apply]
    unfold Cert.Spec.tLogit
    simp only [LossTile.normedRows_apply]
  rw [LossTile.logSumColumn_apply, LossTile.ownColumn_apply]
  unfold Cert.Spec.tRowNll Cert.Spec.tRowMax
  simp only [hL]

/-- The accumulator a tile stores: what it loaded plus the tile's number. -/
theorem k1_pay1_apply (v : FVec Ideal S1x1 .f32) (acc : Vec Ideal S1x1x1 .f32) (j : S1x1x1.Idx) :
    k1_pay1 (F := Ideal) v acc j = acc (ix3 (0 : Fin 1) (0 : Fin 1) (0 : Fin 1)) + v (ix2 (0 : Fin 1) (0 : Fin 1)) := by
  obtain ⟨a, b, c, rfl⟩ : ∃ (a b c : Fin 1), j = ix3 a b c := ⟨j 0, j 1, j 2, eq_ix3 j⟩
  obtain rfl : b = 0 := Subsingleton.elim _ _
  obtain rfl : c = 0 := Subsingleton.elim _ _
  unfold k1_pay1
  refine (shapeCast_ab_1ab_apply _ shapeCasts_S1x1_S1x1x1 a (0 : Fin 1) (0 : Fin 1)).trans ?_
  rw [addf_apply]
  refine congrArg (fun t => t + v (ix2 (0 : Fin 1) (0 : Fin 1))) ?_
  exact shapeCast_1ab_ab_apply acc shapeCasts_S1x1x1_S1x1 (0 : Fin 1) (0 : Fin 1)

/-- A core's first tile stores a zero accumulator. -/
theorem k1_pay2_apply (j : S1x1x1.Idx) : k1_pay2 (F := Ideal) j = 0 := by
  obtain ⟨a, b, c, rfl⟩ : ∃ (a b c : Fin 1), j = ix3 a b c := ⟨j 0, j 1, j 2, eq_ix3 j⟩
  unfold k1_pay2
  refine (shapeCast_ab_1ab_apply _ shapeCasts_S1x1_S1x1x1 a b c).trans ?_
  rw [broadcast_apply]
  exact LossTile.zero_word

end Cert.KernelIdeal.Payloads

end
-- ==== Proof.Region1Value.lean ====
/-
  What the second kernel region leaves in its output array, at the extended reals, from any entry contents.
  Core p visits its 64 tiles in order, clears its one-element accumulator at the first and adds at every tile the sum
  over the tile's rows of the row's loss against the table of prototypes the region finds: the row normalised, its
  logits the scaled inner products with the prototypes, the loss (max + log of the sum of shifted exponentials) minus
  the logit at the row's label, the last as a masked sum over the classes. After the core's last tile entry p of the
  output array holds core p's total.
-/
import proofs.«425387_j45749991637604_3_alg».proof.Proof.Gen.KernelIdeal.Frame
import proofs.«425387_j45749991637604_3_alg».proof.Proof.Spec
import proofs.«425387_j45749991637604_3_alg».proof.Proof.Payloads1

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## What one grid point leaves in the accumulator

The accumulator is one number. At a core's first tile the body stores zero, reads it back and stores it plus the
tile's number; at every other tile it reads what the tile before left and stores that plus the tile's number. -/

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile: the accumulator read, plus the tile's number. -/
theorem out_B (c : Dev nD) (i : grid1.Coords) (a2 : Memref sig .tc .vmem S2048x128 .f32) (h2 : a2.IsWhole)
    (a3 : Memref sig .tc .vmem S2048x1 .i32) (h3 : a3.IsWhole) (a4 : Memref sig .tc .vmem S512x128 .f32) (h4 : a4.IsWhole)
    (a5 : Memref sig .tc .vmem S1x1x1 .f32) (h5 : a5.IsWhole) (hc : ¬cond1_0 i)
    (x0 : Vec Ideal S2048x128 .f32) (x1 : Vec Ideal S2048x1 .i32) (x2 : Vec Ideal S512x128 .f32) (xo : Vec Ideal S1x1x1 .f32) :
    out1_B_3 (F := Ideal) c i a2 h2 a3 h3 a4 h4 a5 h5 hc x0 x1 x2 xo = k1_pay1 (F := Ideal) (k1_pay3 (F := Ideal) x0 x2 x1) xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread, View.ld_unit_zero (S := S1x1x1) hz3,
    View.ld_unit_zero (S := S2048x128) hz2, View.ld_unit_zero (S := S512x128) hz2, View.ld_unit_zero (S := S2048x1) hz2]

/-- A core's first tile: the zero just stored, plus the tile's number. -/
theorem out_A (c : Dev nD) (i : grid1.Coords) (a2 : Memref sig .tc .vmem S2048x128 .f32) (h2 : a2.IsWhole)
    (a3 : Memref sig .tc .vmem S2048x1 .i32) (h3 : a3.IsWhole) (a4 : Memref sig .tc .vmem S512x128 .f32) (h4 : a4.IsWhole)
    (a5 : Memref sig .tc .vmem S1x1x1 .f32) (h5 : a5.IsWhole) (hc : cond1_0 i)
    (x0 : Vec Ideal S2048x128 .f32) (x1 : Vec Ideal S2048x1 .i32) (x2 : Vec Ideal S512x128 .f32) :
    out1_A_3 (F := Ideal) c i a2 h2 a3 h3 a4 h4 a5 h5 hc x0 x1 x2 = k1_pay1 (F := Ideal) (k1_pay3 (F := Ideal) x0 x2 x1) (k1_pay2 (F := Ideal)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) hz3]
  simp only [View.readAt_eq_ld, h2.read_unread, h3.read_unread, h4.read_unread, h5.read_unread, View.ld_unit_zero (S := S1x1x1) hz3,
    View.ld_unit_zero (S := S2048x128) hz2, View.ld_unit_zero (S := S512x128) hz2, View.ld_unit_zero (S := S2048x1) hz2,
    View.readCov_unit_zero (S := S1x1x1) _ hz3]

/-! ## The blocks a grid point sees

Point t sees rows t·2048 … t·2048 + 2047 of the embeddings and of the label column, and the whole table of
prototypes; it writes entry t / 64 of the totals. -/

/-- The point's rows of the embeddings. -/
abbrev xblk (c : Dev nD) (t : Fin cfg1.N) : Vec Ideal S2048x128 .f32 := iblk1 V c 0 t
/-- The point's rows of the label column. -/
abbrev lblk (c : Dev nD) (t : Fin cfg1.N) : Vec Ideal S2048x1 .i32 := iblk1 V c 1 t
/-- The table of prototypes, as the point sees it. -/
abbrev pblk (c : Dev nD) (t : Fin cfg1.N) : Vec Ideal S512x128 .f32 := iblk1 V c 2 t

theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = t.val / 64 ∧ win1_3.index t 1 = 0 ∧ win1_3.index t 2 = 0 :=
  (by decide +kernel : ∀ t : Fin grid1.N, win1_3.index t 0 = t.val / 64 ∧ win1_3.index t 1 = 0 ∧ win1_3.index t 2 = 0)

/-- Row r of point t's block of embeddings is row t·2048 + r of the array. -/
theorem xblk_apply (c : Dev nD) (t : Fin cfg1.N) (r : Fin 2048) (d : Fin 128) (h : t.val * 2048 + r.val < 262144) :
    xblk V c t (ix2 r d) = (V c main_arg0 : S262144x128.Idx → EReal) (ix2 ⟨t.val * 2048 + r.val, h⟩ d) := by
  show (V c main_arg0 : S262144x128.Idx → EReal) (((cfg1.win 0).blk t).view.emb (ix2 r d)) = _
  congr 1
  funext a
  apply Fin.ext
  match a with
  | ⟨0, _⟩ => show win1_0.index t 0 * 2048 + 1 * r.val = t.val * 2048 + r.val; rw [(idx1_0 t).1]; omega
  | ⟨1, _⟩ => show win1_0.index t 1 * 128 + 1 * d.val = d.val; rw [(idx1_0 t).2]; omega

/-- Row r of point t's block of labels is row t·2048 + r of the label column. -/
theorem lblk_apply (c : Dev nD) (t : Fin cfg1.N) (r : Fin 2048) (h : t.val * 2048 + r.val < 262144) :
    lblk V c t (ix2 r (0 : Fin 1)) = (V c main_v0 : S262144x1.Idx → BitVec 32) (ix2 ⟨t.val * 2048 + r.val, h⟩ (0 : Fin 1)) := by
  show (V c main_v0 : S262144x1.Idx → BitVec 32) (((cfg1.win 1).blk t).view.emb (ix2 r (0 : Fin 1))) = _
  congr 1
  funext a
  apply Fin.ext
  match a with
  | ⟨0, _⟩ => show win1_1.index t 0 * 2048 + 1 * r.val = t.val * 2048 + r.val; rw [(idx1_1 t).1]; omega
  | ⟨1, _⟩ => show win1_1.index t 1 * 1 + 1 * 0 = 0; rw [(idx1_1 t).2]

/-- Every point sees the whole table of prototypes. -/
theorem pblk_eq (c : Dev nD) (t : Fin cfg1.N) : pblk V c t = (V c main_v16 : S512x128.Idx → EReal) := by
  funext y
  show (V c main_v16 : S512x128.Idx → EReal) (((cfg1.win 2).blk t).view.emb y) = _
  congr 1
  funext a
  apply Fin.ext
  match a with
  | ⟨0, _⟩ => show win1_2.index t 0 * 512 + 1 * (y 0).val = (y 0).val; rw [(idx1_2 t).1]; omega
  | ⟨1, _⟩ => show win1_2.index t 1 * 128 + 1 * (y 1).val = (y 1).val; rw [(idx1_2 t).2]; omega

/-! ## A tile's functions are the array's functions on the tile's rows

When row r of a tile `x` is row `row r` of the array `h`, and likewise for the labels, every function of a tile's row
is the same expression of the array's row: the norm, the normalised row, the logits, their maximum, the loss. -/
section Tile
open Cert.Spec

theorem tRowNorm_eq (h : SH.Idx → EReal) (x : ST.Idx → EReal) (row : Fin 2048 → Fin 262144)
    (hx : ∀ r d, x (ix2 r d) = h (ix2 (row r) d)) (r : Fin 2048) : tRowNorm x r = rowNorm h (row r) := by
  unfold tRowNorm rowNorm rowSq
  simp only [hx]

theorem tHn_eq (h : SH.Idx → EReal) (x : ST.Idx → EReal) (row : Fin 2048 → Fin 262144)
    (hx : ∀ r d, x (ix2 r d) = h (ix2 (row r) d)) (r : Fin 2048) (d : Fin 128) : tHn x r d = hn h (row r) d := by
  unfold tHn hn
  rw [tRowNorm_eq h x row hx r, hx]

theorem tLogit_eq (P : SP.Idx → EReal) (h : SH.Idx → EReal) (x : ST.Idx → EReal) (row : Fin 2048 → Fin 262144)
    (hx : ∀ r d, x (ix2 r d) = h (ix2 (row r) d)) (r : Fin 2048) (c : Fin 512) : tLogit P x r c = logit P h (row r) c := by
  unfold tLogit logit
  simp only [tHn_eq h x row hx]

theorem tRowMax_eq (P : SP.Idx → EReal) (h : SH.Idx → EReal) (x : ST.Idx → EReal) (row : Fin 2048 → Fin 262144)
    (hx : ∀ r d, x (ix2 r d) = h (ix2 (row r) d)) (r : Fin 2048) : tRowMax P x r = rowMax P h (row r) := by
  unfold tRowMax rowMax
  simp only [tLogit_eq P h x row hx]

theorem tRowNll_eq (P : SP.Idx → EReal) (h : SH.Idx → EReal) (L : S262144x1.Idx → BitVec 32) (x : ST.Idx → EReal)
    (l : STL.Idx → BitVec 32) (row : Fin 2048 → Fin 262144)
    (hx : ∀ r d, x (ix2 r d) = h (ix2 (row r) d)) (hl : ∀ r, l (ix2 r (0 : Fin 1)) = L (ix2 (row r) (0 : Fin 1)))
    (r : Fin 2048) : tRowNll P x l r = rowNll P h (colLab L) (row r) := by
  unfold tRowNll rowNll rowDen ownLogit
  simp only [tLogit_eq P h x row hx, tRowMax_eq P h x row hx]
  congr 1
  refine Finset.sum_congr rfl fun c _ => if_congr ?_ rfl rfl
  unfold TIsClass IsClass colLab
  rw [hl r]

/-- The tile's number is the sum of the losses of the array's rows it holds. -/
theorem tNll_eq (P : SP.Idx → EReal) (h : SH.Idx → EReal) (L : S262144x1.Idx → BitVec 32) (x : ST.Idx → EReal)
    (l : STL.Idx → BitVec 32) (row : Fin 2048 → Fin 262144)
    (hx : ∀ r d, x (ix2 r d) = h (ix2 (row r) d)) (hl : ∀ r, l (ix2 r (0 : Fin 1)) = L (ix2 (row r) (0 : Fin 1))) :
    tNll P x l = ∑ r : Fin 2048, rowNll P h (colLab L) (row r) := by
  unfold tNll
  exact Finset.sum_congr rfl fun r _ => tRowNll_eq P h L x l row hx hl r

end Tile

/-! ## The accumulator after each point

After point n the accumulator holds the sum of the numbers of the points from the last multiple of 64 up to n:
addition of extended reals from zero, one tile after the other. -/

/-- The number point `n` of the grid adds: its rows' losses against the table the region finds (zero past the grid). -/
def contrib (c : Dev nD) (n : ℕ) : EReal :=
  if h : n < cfg1.N then Cert.Spec.tNll (pblk V c ⟨n, h⟩) (xblk V c ⟨n, h⟩) (lblk V c ⟨n, h⟩) else 0

/-- After a core's first tile: zero plus the tile's number. -/
theorem outs_A (c : Dev nD) (t : Fin cfg1.N) (h0 : t.val % 64 = 0) (j : S1x1x1.Idx) :
    outsAt1 V c t.val t.isLt j = 0 + Cert.Spec.tNll (pblk V c t) (xblk V c t) (lblk V c t) := by
  rw [outsAt1_A V c t h0]
  refine (congrFun (out_A c (grid1.coords t) (ms1_0 t) (hs1_0 t) (ms1_1 t) (hs1_1 t) (ms1_2 t) (hs1_2 t) (ms1_3 t) (hs1_3 t)
    ((hcond1_0 t).mpr h0) (xblk V c t) (lblk V c t) (pblk V c t)) j).trans ?_
  rw [Payloads.k1_pay1_apply, Payloads.k1_pay2_apply, Payloads.k1_pay3_apply]

/-- After any other tile: what the point before left plus the tile's number. -/
theorem outs_B (c : Dev nD) (t : Fin cfg1.N) (h0 : ¬t.val % 64 = 0) (j : S1x1x1.Idx) :
    outsAt1 V c t.val t.isLt j
      = outsAt1 V c (t.val - 1) (Nat.lt_of_le_of_lt (Nat.sub_le _ _) t.isLt) (ix3 (0 : Fin 1) (0 : Fin 1) (0 : Fin 1))
        + Cert.Spec.tNll (pblk V c t) (xblk V c t) (lblk V c t) := by
  rw [outsAt1_B V c t h0]
  refine (congrFun (out_B c (grid1.coords t) (ms1_0 t) (hs1_0 t) (ms1_1 t) (hs1_1 t) (ms1_2 t) (hs1_2 t) (ms1_3 t) (hs1_3 t)
    (fun h => h0 ((hcond1_0 t).mp h)) (xblk V c t) (lblk V c t) (pblk V c t)
    (outsAt1 V c (t.val - 1) (Nat.lt_of_le_of_lt (Nat.sub_le _ _) t.isLt))) j).trans ?_
  rw [Payloads.k1_pay1_apply, Payloads.k1_pay3_apply]

/-- The running sum, by induction on the point. -/
theorem outs_eq (c : Dev nD) : ∀ (n : ℕ) (h : n < cfg1.N) (j : S1x1x1.Idx),
    outsAt1 V c n h j = ∑ s ∈ Finset.range (n % 64 + 1), contrib V c (n - n % 64 + s)
  | 0, h, j => by
    refine (outs_A V c ⟨0, h⟩ rfl j).trans ?_
    rw [zero_add, Nat.zero_mod, Finset.sum_range_one, contrib, dif_pos h]
  | n + 1, h, j => by
    by_cases h0 : (n + 1) % 64 = 0
    · refine (outs_A V c ⟨n + 1, h⟩ h0 j).trans ?_
      rw [zero_add, h0, Finset.sum_range_one, Nat.sub_zero]
      show _ = contrib V c (n + 1)
      rw [contrib, dif_pos h]
    · refine (outs_B V c ⟨n + 1, h⟩ h0 j).trans ?_
      have e1 : (n + 1) % 64 = n % 64 + 1 := by omega
      have e2 : n + 1 - (n % 64 + 1) = n - n % 64 := by omega
      have e3 : n - n % 64 + (n % 64 + 1) = n + 1 := by omega
      rw [e1, e2, Finset.sum_range_succ _ (n % 64 + 1), e3]
      refine congrArg₂ (· + ·) (outs_eq c n (Nat.lt_of_succ_lt h) _) ?_
      rw [contrib, dif_pos h]

/-! ## The core's total

Tile s of core p is point p·64 + s, whose rows are the rows (p·64 + s)·2048 + r of the arrays. The accumulator is
written back after a core's last tile, when it holds the sum over the core's 64 tiles. -/

/-- The number of tile `s` of core `p` is the sum of the losses of its rows of the array. -/
theorem contrib_eq (c : Dev nD) (p : Fin 2) (s : Fin 64) :
    contrib V c (p.val * 64 + s.val)
      = ∑ r : Fin 2048, Cert.Spec.rowNll (V c main_v16 : S512x128.Idx → EReal) (V c main_arg0 : S262144x128.Idx → EReal)
          (Cert.Spec.colLab (V c main_v0 : S262144x1.Idx → BitVec 32)) (Cert.Spec.rowOf p s r) := by
  have hN : cfg1.N = 128 := N_1
  have h : p.val * 64 + s.val < cfg1.N := by have := p.isLt; have := s.isLt; omega
  rw [contrib, dif_pos h, pblk_eq]
  exact tNll_eq (V c main_v16 : S512x128.Idx → EReal) (V c main_arg0 : S262144x128.Idx → EReal)
    (V c main_v0 : S262144x1.Idx → BitVec 32) (xblk V c ⟨p.val * 64 + s.val, h⟩) (lblk V c ⟨p.val * 64 + s.val, h⟩)
    (Cert.Spec.rowOf p s) (fun r d => xblk_apply V c ⟨p.val * 64 + s.val, h⟩ r d (Cert.Spec.rowOf p s r).isLt)
    (fun r => lblk_apply V c ⟨p.val * 64 + s.val, h⟩ r (Cert.Spec.rowOf p s r).isLt)

/-- The totals array the region leaves: entry p is core p's share. -/
abbrev total (c : Dev nD) : Buf (Elt Ideal) ((c : Thread nD τ).loc main_v17) :=
  fun (j : S2x1x1.Idx) => Cert.Spec.coreNll (V c main_v16 : S512x128.Idx → EReal) (V c main_arg0 : S262144x128.Idx → EReal)
    (Cert.Spec.colLab (V c main_v0 : S262144x1.Idx → BitVec 32)) (j 0)

/-- What is written back after a core's last tile is that core's entry of the totals. -/
theorem flushed_eq (c : Dev nD) (t : Fin cfg1.N) (hf : (cfg1.win 3).flush t = true) :
    (dat1 V c).flushed 3 t = ((cfg1.win 3).blk t).view.read (Elt Ideal) (total V c) := by
  have hN : cfg1.N = 128 := N_1
  have h63 : t.val % 64 = 63 := (flush1_3 t).mp hf
  have hp : t.val / 64 < 2 := by have := t.isLt; omega
  show (cfg1.win 3).cut (grid1.coords t) ((dat1 V c).after 3 t) = _
  rw [after1_3]
  funext y
  show outsAt1 V c t.val t.isLt _ = total V c (((cfg1.win 3).blk t).view.emb y)
  rw [outs_eq V c t.val t.isLt, h63]
  have hy : (y 0).val < 1 := (y 0).isLt
  have he : ((cfg1.win 3).blk t).view.emb y 0 = (⟨t.val / 64, hp⟩ : Fin 2) :=
    Fin.ext (by show win1_3.index t 0 * 1 + 1 * (y 0).val = t.val / 64; rw [(idx1_3 t).1]; omega)
  show _ = Cert.Spec.coreNll _ _ _ (((cfg1.win 3).blk t).view.emb y 0)
  rw [he]
  unfold Cert.Spec.coreNll
  rw [Finset.sum_range]
  refine Finset.sum_congr rfl fun s _ => ?_
  have e : t.val - 63 + s.val = (⟨t.val / 64, hp⟩ : Fin 2).val * 64 + s.val := by show _ = t.val / 64 * 64 + s.val; omega
  rw [e]
  exact contrib_eq V c ⟨t.val / 64, hp⟩ s

/-- Entry p of the totals array after the region: core p's share of the total loss. -/
theorem nll_final (c : Dev nD) (j : S2x1x1.Idx) :
    ((dat1 (F := Ideal) V c).arrAt 3 cfg1.N : S2x1x1.Idx → EReal) j
      = Cert.Spec.coreNll (V c main_v16 : S512x128.Idx → EReal) (V c main_arg0 : S262144x128.Idx → EReal)
          (Cert.Spec.colLab (V c main_v0 : S262144x1.Idx → BitVec 32)) (j 0) := by
  have hN : cfg1.N = 128 := N_1
  -- entry i of the totals is written back after point i₀·64 + 63, core i₀'s last tile
  refine congrFun ((dat1 V c).arrAt_eq_of_cover 3 (total V c) (flushed_eq V c) fun i => ?_) j
  have hi0 : (i 0).val < 2 := (i 0).isLt
  have hi1 : (i 1).val < 1 := (i 1).isLt
  have hi2 : (i 2).val < 1 := (i 2).isLt
  have ht : (i 0).val * 64 + 63 < cfg1.N := by omega
  refine ⟨⟨(i 0).val * 64 + 63, ht⟩, (flush1_3 _).mpr (by show ((i 0).val * 64 + 63) % 64 = 63; omega), ?_⟩
  show i ∈ ((View.whole main_v17).slice (win1_3.rect ⟨(i 0).val * 64 + 63, ht⟩)).set
  rw [View.set_slice_whole, Rect.mem_set_unit]
  intro a
  have hx := idx1_3 ⟨(i 0).val * 64 + 63, ht⟩
  match a with
  | ⟨0, _⟩ =>
    show win1_3.index ⟨(i 0).val * 64 + 63, ht⟩ 0 * 1 ≤ (i 0).val ∧ (i 0).val < win1_3.index ⟨(i 0).val * 64 + 63, ht⟩ 0 * 1 + 1
    rw [hx.1]; show ((i 0).val * 64 + 63) / 64 * 1 ≤ (i 0).val ∧ (i 0).val < ((i 0).val * 64 + 63) / 64 * 1 + 1; omega
  | ⟨1, _⟩ =>
    show win1_3.index ⟨(i 0).val * 64 + 63, ht⟩ 1 * 1 ≤ (i 1).val ∧ (i 1).val < win1_3.index ⟨(i 0).val * 64 + 63, ht⟩ 1 * 1 + 1
    rw [hx.2.1]; omega
  | ⟨2, _⟩ =>
    show win1_3.index ⟨(i 0).val * 64 + 63, ht⟩ 2 * 1 ≤ (i 2).val ∧ (i 2).val < win1_3.index ⟨(i 0).val * 64 + 63, ht⟩ 2 * 1 + 1
    rw [hx.2.2]; omega

end Cert.KernelIdeal.Region1

end
-- ==== Proof.HostStages.lean ====
/-
  The host operations around the two kernel regions, read as functions of what they find, at the extended reals.
  Before the first region the labels are reshaped into a column. Between the regions the two cores' partial sums and
  sizes are added, the class means formed and normalised: the table of prototypes. After the second region the two
  cores' totals are added and scaled by 2⁻¹⁸. No host operation and no region writes an array an earlier one
  produced, so the embeddings, the label column and the prototypes reach the regions as they were made.
-/
import proofs.«425387_j45749991637604_3_alg».proof.Proof.Gen.KernelIdeal.Frame
import proofs.«425387_j45749991637604_3_alg».proof.Proof.Spec
import Idealize.ShloMosaic.Lib.IdealHost
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The first region's entry -/

/-- The first region finds the embeddings as launched … -/
theorem V1_arg0 (c : Dev nD) : (V1 m ρ c main_arg0 : S262144x128.Idx → EReal) = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))

/-- The first stretch over any contents: the label column is the label vector recast. -/
theorem labels_of (U : Valuation τ sig (Elt Ideal)) :
    (StableHlo.after hostOps0 U (Proc.devRef .tc main_v0) : S262144x1.Idx → BitVec 32)
      = shapeCast S262144x1 (U (Proc.devRef .tc main_arg1) : S262144.Idx → BitVec 32) shapeCasts_S262144_S262144x1 := by
  after_results <;> rfl

/-- … and the label column holding the labels as launched. -/
theorem V1_labels (c : Dev nD) :
    Cert.Spec.colLab (V1 m ρ c main_v0 : S262144x1.Idx → BitVec 32) = m ((c : Thread nD τ).loc main_arg1) := by
  show Cert.Spec.colLab (StableHlo.after hostOps0 (W0 m ρ c) (Proc.devRef .tc main_v0)) = _
  rw [labels_of]
  funext j
  unfold Cert.Spec.colLab
  refine (shapeCast_apply _ _ _ j ?_).trans rfl
  rw [Shape.rowMajor_val_one, Shape.rowMajor_val_two]
  show (j 0).val = (j 0).val * 1 + 0
  omega

/-! ## The second region's entry -/

/-- The second region finds the embeddings and the label column as the first did … -/
theorem V3_arg0 (c : Dev nD) : (V3 m ρ c main_arg0 : S262144x128.Idx → EReal) = V1 m ρ c main_arg0 :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
theorem V3_labels (c : Dev nD) : (V3 m ρ c main_v0 : S262144x1.Idx → BitVec 32) = V1 m ρ c main_v0 :=
  calc W3 m ρ c (Proc.devRef .tc main_v0)
    _ = W2 m ρ c (Proc.devRef .tc main_v0) := StableHlo.after_of_forall_not_mem (b := Proc.devRef .tc main_v0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W1 m ρ c (Proc.devRef .tc main_v0) := (W2_arr m ρ c 1).trans (((dat0 (V1 m ρ) c).arrAt_in 1 rfl _).trans (A_eq0 (V1 m ρ) c 1))

/-- The cores' partial sums added over the core axis, from zero. -/
def sumOf (S : FVec Ideal S2x512x128 .f32) : FVec Ideal S512x128 .f32 :=
  Host.reduceAdd (F := Ideal) S (constant (F := Ideal) S_ .f32 0x00000000#32) reducesTo_S2x512x128_S512x128_d0 h_S_

/-- The cores' partial sizes added over the core axis, from zero, turned into a column and floored at one. -/
def cntOf (C : FVec Ideal S2x1x512 .f32) : FVec Ideal S512x1 .f32 :=
  maximumf
    (transpose S512x1 [1, 0] (Host.reduceAdd (F := Ideal) C (constant (F := Ideal) S_ .f32 0x00000000#32) reducesTo_S2x1x512_S1x512_d0 h_S_)
      transposes_S1x512_S512x1_1_0)
    (broadcastInDim S512x1 ![] bcast_S_S512x1 (constant (F := Ideal) S_ .f32 0x3F800000#32))

/-- The class means: each sum over its class's floored size. -/
def rawOf (S : FVec Ideal S2x512x128 .f32) (C : FVec Ideal S2x1x512 .f32) : FVec Ideal S512x128 .f32 :=
  Host.divf (sumOf S) (broadcastInDim S512x128 ![0, 1] bcast_S512x1_S512x128_0_1 (cntOf C))

/-- A table's row norms as a column, floored. -/
def normOf (R : FVec Ideal S512x128 .f32) : FVec Ideal S512x1 .f32 :=
  maximumf
    (Host.sqrt (broadcastInDim S512x1 ![0] bcast_S512_S512x1_0
      (Host.reduceAdd (F := Ideal) (mulf R R) (constant (F := Ideal) S_ .f32 0x00000000#32) reducesTo_S512x128_S512_d1 h_S_)))
    (broadcastInDim S512x1 ![] bcast_S_S512x1 (constant (F := Ideal) S_ .f32 0x2B8CBCCC#32))

/-- A table with every row divided by its floored norm. -/
def tableOf (R : FVec Ideal S512x128 .f32) : FVec Ideal S512x128 .f32 :=
  Host.divf R (broadcastInDim S512x128 ![0, 1] bcast_S512x1_S512x128_0_1 (normOf R))

/-- The middle stretch over any contents: the normalised table of the class means. -/
theorem protos_of (U : Valuation τ sig (Elt Ideal)) :
    (StableHlo.after hostOps1 U (Proc.devRef .tc main_v16) : S512x128.Idx → EReal)
      = tableOf (rawOf (U (Proc.devRef .tc main_v1_0)) (U (Proc.devRef .tc main_v1_1))) := by
  after_results <;> rfl

/-- A column spread over the rows' entries reads the row's entry of the column. -/
theorem bcast_col_apply {α : Type} (x : S512x1.Idx → α) (c : Fin 512) (d : Fin 128) :
    broadcastInDim S512x128 ![0, 1] bcast_S512x1_S512x128_0_1 x (ix2 c d) = x (ix2 c (0 : Fin 1)) := by
  refine broadcastInDim_apply _ _ x (ix2 c d) (ix2 c (0 : Fin 1)) fun a => ?_
  match a with
  | ⟨0, _⟩ => rfl
  | ⟨1, _⟩ => rfl

/-- A vector made a column reads the vector. -/
theorem bcast_vec_apply {α : Type} (x : S512.Idx → α) (c : Fin 512) :
    broadcastInDim S512x1 ![0] bcast_S512_S512x1_0 x (ix2 c (0 : Fin 1)) = x (ix1 c) := by
  refine broadcastInDim_apply _ _ x (ix2 c (0 : Fin 1)) (ix1 c) fun a => ?_
  match a with
  | ⟨0, _⟩ => rfl

/-- The host's square root at an index. -/
theorem hostSqrt_apply {s : Shape} (x : FVec Ideal s .f32) (i : s.Idx) : Host.sqrt x i = Ideal.sqrt (x i) := rfl

/-- The added sums at a class and a coordinate. -/
theorem sumOf_apply (S : FVec Ideal S2x512x128 .f32) (c : Fin 512) (d : Fin 128) :
    sumOf S (ix2 c d) = 0 + ∑ p : Fin 2, S (ix3 p c d) := by
  unfold sumOf
  rw [hostReduceAdd_apply, Ideal.hostReduceAdd_single _ (by decide : S2x512x128.Reduces [0] S512x128), constant_apply,
    Ideal.ofBits_zero_f32]
  refine congrArg (fun x => 0 + x) (Finset.sum_congr rfl fun p _ => congrArg S (funext fun a => ?_))
  match a with
  | ⟨0, _⟩ => rfl
  | ⟨1, _⟩ => rfl
  | ⟨2, _⟩ => rfl

/-- The floored added sizes at a class. -/
theorem cntOf_apply (C : FVec Ideal S2x1x512 .f32) (c : Fin 512) :
    cntOf C (ix2 c (0 : Fin 1)) = max (0 + ∑ p : Fin 2, C (ix3 p (0 : Fin 1) c)) 1 := by
  unfold cntOf
  rw [maximumf_apply, transpose_ix2_apply, broadcastInDim_scalar_apply, hostReduceAdd_apply,
    Ideal.hostReduceAdd_single _ (by decide : S2x1x512.Reduces [0] S1x512), constant_apply, constant_apply,
    Ideal.ofBits_zero_f32, Ideal.ofBits_one_f32]
  refine congrArg (fun x => max (0 + x) 1) (Finset.sum_congr rfl fun p _ => congrArg C (funext fun a => ?_))
  match a with
  | ⟨0, _⟩ => rfl
  | ⟨1, _⟩ => rfl
  | ⟨2, _⟩ => rfl

/-- The class means at a class and a coordinate. -/
theorem rawOf_apply (S : FVec Ideal S2x512x128 .f32) (C : FVec Ideal S2x1x512 .f32) (c : Fin 512) (d : Fin 128) :
    rawOf S C (ix2 c d)
      = Ideal.div (0 + ∑ p : Fin 2, S (ix3 p c d)) (max (0 + ∑ p : Fin 2, C (ix3 p (0 : Fin 1) c)) 1) := by
  unfold rawOf
  rw [hostDivf_apply, bcast_col_apply, sumOf_apply, cntOf_apply]

/-- A table's floored row norm at a class. -/
theorem normOf_apply (R : FVec Ideal S512x128 .f32) (c : Fin 512) :
    normOf R (ix2 c (0 : Fin 1))
      = max (Ideal.sqrt (0 + ∑ d : Fin 128, R (ix2 c d) * R (ix2 c d))) Cert.Spec.eps := by
  unfold normOf
  rw [maximumf_apply, hostSqrt_apply, bcast_vec_apply, broadcastInDim_scalar_apply, hostReduceAdd_apply,
    Ideal.hostReduceAdd_single _ (by decide : S512x128.Reduces [1] S512), constant_apply, constant_apply,
    Ideal.ofBits_zero_f32]
  refine congrArg (fun x => max (Ideal.sqrt (0 + x)) Cert.Spec.eps) (Finset.sum_congr rfl fun d _ => ?_)
  rw [mulf_apply]
  have e : (by decide : S512x128.Reduces [1] S512).lift (ix1 c) d = ix2 c d := by
    funext a
    match a with
    | ⟨0, _⟩ => rfl
    | ⟨1, _⟩ => rfl
  rw [e]
  rfl

/-- The normalised table at a class and a coordinate. -/
theorem tableOf_apply (R : FVec Ideal S512x128 .f32) (c : Fin 512) (d : Fin 128) :
    tableOf R (ix2 c d)
      = Ideal.div (R (ix2 c d)) (max (Ideal.sqrt (0 + ∑ d' : Fin 128, R (ix2 c d') * R (ix2 c d'))) Cert.Spec.eps) := by
  unfold tableOf
  rw [hostDivf_apply, bcast_col_apply, normOf_apply]

/-- The middle stretch's term is the specification's table from the same sums and sizes. -/
theorem tableOf_rawOf (S : FVec Ideal S2x512x128 .f32) (C : FVec Ideal S2x1x512 .f32) :
    tableOf (rawOf S C) = Cert.Spec.protoOf S C := by
  funext j
  obtain ⟨c, d, rfl⟩ : ∃ (c : Fin 512) (d : Fin 128), j = ix2 c d := ⟨j 0, j 1, eq_ix2 j⟩
  rw [tableOf_apply]
  simp only [rawOf_apply]
  rfl

/-- … and the table of prototypes made from the first region's two output arrays. -/
theorem V3_protos (c : Dev nD) :
    (V3 m ρ c main_v16 : S512x128.Idx → EReal)
      = Cert.Spec.protoOf ((dat0 (F := Ideal) (V1 m ρ) c).arrAt 2 cfg0.N : S2x512x128.Idx → EReal)
          ((dat0 (F := Ideal) (V1 m ρ) c).arrAt 3 cfg0.N : S2x1x512.Idx → EReal) := by
  show StableHlo.after hostOps1 (W2 m ρ c) (Proc.devRef .tc main_v16) = _
  rw [protos_of]
  have e0 : (W2 m ρ c (Proc.devRef .tc main_v1_0) : S2x512x128.Idx → EReal) = (dat0 (F := Ideal) (V1 m ρ) c).arrAt 2 cfg0.N := W2_arr m ρ c 2
  have e1 : (W2 m ρ c (Proc.devRef .tc main_v1_1) : S2x1x512.Idx → EReal) = (dat0 (F := Ideal) (V1 m ρ) c).arrAt 3 cfg0.N := W2_arr m ρ c 3
  rw [e0, e1]
  exact tableOf_rawOf _ _

/-! ## The result -/

/-- The two cores' totals, summed over every index of their array, are the sum over the cores. -/
theorem sum_S2x1x1 (T : S2x1x1.Idx → EReal) : ∑ i, T i = ∑ p : Fin 2, T (ix3 p (0 : Fin 1) (0 : Fin 1)) := by
  refine (Fintype.sum_bijective (fun p : Fin 2 => (ix3 p (0 : Fin 1) (0 : Fin 1) : S2x1x1.Idx)) ⟨?_, ?_⟩ _ _ (fun _ => rfl)).symm
  · intro p q h; exact congrFun h 0
  · intro j
    have h1 : @Eq (Fin 1) (j 1) 0 := Subsingleton.elim _ _
    have h2 : @Eq (Fin 1) (j 2) 0 := Subsingleton.elim _ _
    refine ⟨j 0, ?_⟩
    funext a
    match a with
    | ⟨0, _⟩ => rfl
    | ⟨1, _⟩ => exact h1.symm
    | ⟨2, _⟩ => exact h2.symm

/-- The last stretch over any contents. -/
theorem result_of (U : Valuation τ sig (Elt Ideal)) :
    (StableHlo.after hostOps2 U (Proc.devRef .tc main_v19) : S_.Idx → EReal)
      = mulf (Host.reduceAdd (F := Ideal) (φ := .f32) (U (Proc.devRef .tc main_v17) : S2x1x1.Idx → EReal)
          (constant (F := Ideal) S_ .f32 0x00000000#32) reducesTo_S2x1x1_S_d0_1_2 h_S_) (constant (F := Ideal) S_ .f32 0x36800000#32) := by
  after_results <;> rfl

/-- The last stretch's term, read: the cores' totals added from zero, times 2⁻¹⁸. -/
theorem result_apply (T : S2x1x1.Idx → EReal) (j : S_.Idx) :
    mulf (Host.reduceAdd (F := Ideal) (φ := .f32) T
          (constant (F := Ideal) S_ .f32 0x00000000#32) reducesTo_S2x1x1_S_d0_1_2 h_S_) (constant (F := Ideal) S_ .f32 0x36800000#32) j
      = Cert.Spec.lossOf T := by
  rw [mulf_apply, hostReduceAdd_apply, Ideal.hostReduceAdd_total _ (fun b => b.elim0), constant_apply, constant_apply,
    Ideal.ofBits_zero_f32, sum_S2x1x1]
  rfl

/-- The result buffer after the last host stretch: the mean loss from the second region's output array. -/
theorem W5_result (c : Dev nD) :
    (W5 m ρ c (Proc.devRef .tc main_v19) : S_.Idx → EReal)
      = fun _ => Cert.Spec.lossOf ((dat1 (F := Ideal) (V3 m ρ) c).arrAt 3 cfg1.N : S2x1x1.Idx → EReal) := by
  show StableHlo.after hostOps2 (W4 m ρ c) (Proc.devRef .tc main_v19) = _
  rw [result_of]
  have e : (W4 m ρ c (Proc.devRef .tc main_v17) : S2x1x1.Idx → EReal) = (dat1 (F := Ideal) (V3 m ρ) c).arrAt 3 cfg1.N := W4_arr m ρ c 3
  rw [e]
  exact funext fun j => result_apply _ j

end Cert.KernelIdeal.Host

end
-- ==== Proof.SpecSums.lean ====
/-
  Regrouping. A sum over the 262144 rows is the sum over cores, tiles and rows of a tile; hence the prototypes and
  the mean loss computed from the two cores' partial results are the prototypes and the mean loss.
-/
import proofs.«425387_j45749991637604_3_alg».proof.Proof.Spec
import Mathlib.Data.Fintype.BigOperators

noncomputable section

namespace Cert.Spec

open Idealize.ShloMosaic Idealize.ShloMosaic.ValueIdx

/-- Every row is row `r` of tile `j` of core `p` for exactly one triple: the triple is read off the row's number
    by division with remainder. -/
def rowEquiv : Fin 2 × Fin 64 × Fin 2048 ≃ Fin 262144 where
  toFun x := rowOf x.1 x.2.1 x.2.2
  invFun i :=
    (⟨i.val / 131072, by have := i.isLt; omega⟩, ⟨i.val / 2048 % 64, by omega⟩, ⟨i.val % 2048, by omega⟩)
  left_inv := by
    rintro ⟨p, j, r⟩
    have hp := p.isLt
    have hj := j.isLt
    have hr := r.isLt
    refine Prod.ext (Fin.ext ?_) (Prod.ext (Fin.ext ?_) (Fin.ext ?_)) <;>
      simp only [rowOf] <;> omega
  right_inv := by
    intro i
    have hi := i.isLt
    refine Fin.ext ?_
    simp only [rowOf]
    omega

/-- A sum over all rows, regrouped by core, tile and row of the tile. -/
theorem sum_rows (f : Fin 262144 → EReal) :
    ∑ i : Fin 262144, f i = ∑ p : Fin 2, ∑ j : Fin 64, ∑ r : Fin 2048, f (rowOf p j r) := by
  rw [← Equiv.sum_comp rowEquiv f, Fintype.sum_prod_type]
  refine Finset.sum_congr rfl fun p _ => ?_
  rw [Fintype.sum_prod_type]
  rfl

/-- Tables whose sums over the cores are the class sums and the class sizes give the prototypes. -/
theorem protoOf_eq (h : SH.Idx → EReal) (lab : SL.Idx → BitVec 32)
    (S : (⟨3, ![2, 512, 128]⟩ : Shape).Idx → EReal) (C : (⟨3, ![2, 1, 512]⟩ : Shape).Idx → EReal)
    (hS : ∀ (c : Fin 512) (d : Fin 128), ∑ p : Fin 2, S (ix3 p c d) = classSum h lab c d)
    (hC : ∀ c : Fin 512, ∑ p : Fin 2, C (ix3 p (0 : Fin 1) c) = classCnt lab c) :
    protoOf S C = proto h lab := by
  funext j
  obtain ⟨c, d, rfl⟩ : ∃ (c : Fin 512) (d : Fin 128), j = ix2 c d := ⟨j 0, j 1, eq_ix2 j⟩
  show Ideal.div
      (Ideal.div (0 + ∑ p : Fin 2, S (ix3 p c d)) (max (0 + ∑ p : Fin 2, C (ix3 p (0 : Fin 1) c)) 1))
      (max (Ideal.sqrt (0 + ∑ x : Fin 128,
        Ideal.div (0 + ∑ p : Fin 2, S (ix3 p c x)) (max (0 + ∑ p : Fin 2, C (ix3 p (0 : Fin 1) c)) 1) *
        Ideal.div (0 + ∑ p : Fin 2, S (ix3 p c x)) (max (0 + ∑ p : Fin 2, C (ix3 p (0 : Fin 1) c)) 1))) eps)
    = Ideal.div (Ideal.div (classSum h lab c d) (max (classCnt lab c) 1))
      (max (Ideal.sqrt (∑ x : Fin 128, Ideal.div (classSum h lab c x) (max (classCnt lab c) 1) *
        Ideal.div (classSum h lab c x) (max (classCnt lab c) 1))) eps)
  simp only [zero_add, hS, hC]

/-- The prototypes from the cores' partial sums and sizes are the prototypes. -/
theorem protoOf_core (h : SH.Idx → EReal) (lab : SL.Idx → BitVec 32) :
    protoOf (fun j => coreSum h lab (j 0) (j 1) (j 2)) (fun j => coreCnt lab (j 0) (j 2)) = proto h lab := by
  apply protoOf_eq
  · intro c d
    show ∑ p : Fin 2, coreSum h lab p c d = classSum h lab c d
    unfold coreSum classSum
    exact (sum_rows fun i => if IsClass lab i c then hn h i d else 0).symm
  · intro c
    show ∑ p : Fin 2, coreCnt lab p c = classCnt lab c
    unfold coreCnt classCnt
    exact (sum_rows fun i => if IsClass lab i c then (1 : EReal) else 0).symm

/-- The mean loss from the cores' totals is the mean loss. -/
theorem lossOf_core (h : SH.Idx → EReal) (lab : SL.Idx → BitVec 32) :
    lossOf (fun j => coreNll (proto h lab) h lab (j 0)) = loss h lab := by
  show (0 + ∑ p : Fin 2, coreNll (proto h lab) h lab p) * invN
    = (∑ i : Fin 262144, rowNll (proto h lab) h lab i) * invN
  rw [zero_add, sum_rows]
  rfl

end Cert.Spec

end
-- ==== Proof.KernelValue.lean ====
/-
  The idealised kernel's result is the mean loss of the specification: the regions' arrays and the host stages, composed,
  and the sums over cores, tiles and rows regrouped into sums over all rows.
-/
import proofs.«425387_j45749991637604_3_alg».proof.Proof.KernelRun
import proofs.«425387_j45749991637604_3_alg».proof.Proof.Region0Value
import proofs.«425387_j45749991637604_3_alg».proof.Proof.Region1Value
import proofs.«425387_j45749991637604_3_alg».proof.Proof.HostStages
import proofs.«425387_j45749991637604_3_alg».proof.Proof.SpecSums

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The result buffer after @main's last segment holds the mean loss of the arguments as launched. -/
theorem W5_loss (c : Dev nD) :
    (W5 m ρ c (Proc.devRef .tc main_v19) : S_.Idx → EReal)
      = fun _ => Cert.Spec.loss (m ((c : Thread nD τ).loc main_arg0)) (m ((c : Thread nD τ).loc main_arg1)) := by
  -- the first region's arrays, over the launch contents
  have hs : ((dat0 (F := Ideal) (V1 m ρ) c).arrAt 2 cfg0.N : S2x512x128.Idx → EReal)
      = fun (j : S2x512x128.Idx) => Cert.Spec.coreSum (m ((c : Thread nD τ).loc main_arg0)) (m ((c : Thread nD τ).loc main_arg1)) (j 0) (j 1) (j 2) :=
    funext fun (j : S2x512x128.Idx) => by
      rw [Cert.KernelIdeal.Region0.sums_final (V1 m ρ) c j, Cert.KernelIdeal.Host.V1_arg0 m ρ c, Cert.KernelIdeal.Host.V1_labels m ρ c]
  have hc : ((dat0 (F := Ideal) (V1 m ρ) c).arrAt 3 cfg0.N : S2x1x512.Idx → EReal)
      = fun (j : S2x1x512.Idx) => Cert.Spec.coreCnt (m ((c : Thread nD τ).loc main_arg1)) (j 0) (j 2) :=
    funext fun (j : S2x1x512.Idx) => by
      rw [Cert.KernelIdeal.Region0.cnts_final (V1 m ρ) c j, Cert.KernelIdeal.Host.V1_labels m ρ c]
  -- the prototypes the second region finds
  have hp : (V3 m ρ c main_v16 : S512x128.Idx → EReal)
      = Cert.Spec.proto (m ((c : Thread nD τ).loc main_arg0)) (m ((c : Thread nD τ).loc main_arg1)) := by
    rw [Cert.KernelIdeal.Host.V3_protos m ρ c, hs, hc]
    exact Cert.Spec.protoOf_core _ _
  -- the second region's array, over the launch contents and the prototypes
  have hn : ((dat1 (F := Ideal) (V3 m ρ) c).arrAt 3 cfg1.N : S2x1x1.Idx → EReal)
      = fun (j : S2x1x1.Idx) => Cert.Spec.coreNll (Cert.Spec.proto (m ((c : Thread nD τ).loc main_arg0)) (m ((c : Thread nD τ).loc main_arg1)))
          (m ((c : Thread nD τ).loc main_arg0)) (m ((c : Thread nD τ).loc main_arg1)) (j 0) :=
    funext fun (j : S2x1x1.Idx) => by
      rw [Cert.KernelIdeal.Region1.nll_final (V3 m ρ) c j, hp, Cert.KernelIdeal.Host.V3_arg0 m ρ c, Cert.KernelIdeal.Host.V3_labels m ρ c,
        Cert.KernelIdeal.Host.V1_arg0 m ρ c, Cert.KernelIdeal.Host.V1_labels m ρ c]
  rw [Cert.KernelIdeal.Host.W5_result m ρ c, hn]
  exact funext fun _ => Cert.Spec.lossOf_core _ _

/-- Every weakly fair execution of the idealised kernel terminates with the mean loss in its result buffer and the
    arguments unchanged. -/
theorem run : θ_run defs (onTc (τ := τ) (main (F := Ideal))) ⟨m, fun _ => 0, ρ⟩ (fun r => ∀ c : Dev nD,
      r.2.mem ((c.tc : Thread nD τ).loc main_v19)
        = (fun _ => Cert.Spec.loss (m ((c.tc : Thread nD τ).loc main_arg0)) (m ((c.tc : Thread nD τ).loc main_arg1)) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (W5_loss m ρ c), (h c).2⟩) (Cert.KernelIdeal.Run.run_result m ρ)

end Cert.KernelIdeal.Value

end
-- ==== Proof.RefOps.lean ====
/-
  Three host operations read at an index, at the extended reals, on this program's shapes.
  An accumulating scatter of rows (one start index per row, read signed, a row outside the table dropped) adds to
  entry (c, k) the entries (i, k) of the rows i whose index is c; of scalars, to entry c a scalar per such row.
  A batched gather of one element per row reads row i at the start index clamped into the row.
-/
import Idealize.ShloMosaic.PureOps.Ideal
import Idealize.ShloMosaic.PureOps.Ideal.Laws
import Idealize.ShloMosaic.Lib.ValueIdx

noncomputable section

namespace Cert.RefOps

open Idealize.ShloMosaic Idealize.ShloMosaic.ValueIdx

/-! ## The row scatter

With update window axis 1, inserted window axis 0, the one start component sent to operand axis 0 and the index vector
on axis 1 of the start indices, update entry (i, k') lands on operand row (start of row i, read signed) and column k'. -/

section Rows

variable (wf : ScatterDims.WF ⟨2, ![512, 128]⟩ ⟨2, ![262144, 1]⟩ ⟨2, ![262144, 128]⟩ [1] [0] [0] 1)

/-- The row scatter's dimension numbers as a record of literals. -/
private abbrev rowsD : ScatterDims ⟨2, ![512, 128]⟩ ⟨2, ![262144, 1]⟩ ⟨2, ![262144, 128]⟩ :=
  ⟨[1], [0], [0], 1, wf⟩

/-- On the row axis the window of update entry (i, k') starts at row i's start index, read signed. -/
theorem rows_start0 (idx : IVec ⟨2, ![262144, 1]⟩ 32) (i : Fin 262144) (k' : Fin 128) :
    (rowsD wf).start (ix2 i k') idx 0 = (idx (ix2 i (0 : Fin 1))).toInt := by
  unfold ScatterDims.start
  rw [dif_pos (List.mem_singleton.mpr rfl)]
  have hsi : (rowsD wf).siIdx (ix2 i k')
      ⟨List.idxOf (0 : Fin 2) [0], List.idxOf_lt_length_iff.2 (List.mem_singleton.mpr rfl)⟩ = ix2 i (0 : Fin 1) := by
    funext b; refine Fin.ext ?_
    match b with
    | ⟨0, _⟩ => rfl
    | ⟨1, _⟩ => rfl
  show (idx ((rowsD wf).siIdx (ix2 i k')
      ⟨List.idxOf (0 : Fin 2) [0], List.idxOf_lt_length_iff.2 (List.mem_singleton.mpr rfl)⟩)).toInt = _
  rw [hsi]

/-- On the column axis, which no start component names, the window starts at 0. -/
theorem rows_start1 (idx : IVec ⟨2, ![262144, 1]⟩ 32) (i : Fin 262144) (k' : Fin 128) :
    (rowsD wf).start (ix2 i k') idx 1 = 0 := by
  unfold ScatterDims.start
  rw [dif_neg (fun h => absurd (List.mem_singleton.mp h) (by decide))]

/-- The row axis is inserted: the window coordinate there is 0. -/
theorem rows_window0 (i : Fin 262144) (k' : Fin 128) : (rowsD wf).window (ix2 i k') 0 = 0 := by
  rfl

/-- On the column axis the window coordinate is the update's column. -/
theorem rows_window1 (i : Fin 262144) (k' : Fin 128) : (rowsD wf).window (ix2 i k') 1 = k'.val := by
  rfl

/-- Update entry (i, k') lands on entry (c, k) exactly when k' = k and row i's start index, read signed, is c; a start
    outside [0, 512) lands nowhere. -/
theorem rows_resultIdx (idx : IVec ⟨2, ![262144, 1]⟩ 32) (i : Fin 262144) (k' : Fin 128) (c : Fin 512) (k : Fin 128) :
    (rowsD wf).resultIdx? (ix2 i k') idx = some (ix2 c k)
      ↔ k' = k ∧ (idx (ix2 i (0 : Fin 1))).toInt = (c.val : Int) := by
  unfold ScatterDims.resultIdx?
  constructor
  · intro h
    split at h
    · rename_i hall
      have hf := Option.some.inj h
      have h0 := congrArg (fun f => (f 0).val) hf
      have h1 := congrArg (fun f => (f 1).val) hf
      have a0 := (hall 0).1
      simp only [rows_start0, rows_start1, rows_window0, rows_window1] at h0 h1 a0
      change _ = c.val at h0
      change _ = k.val at h1
      exact ⟨Fin.ext (by omega), by omega⟩
    · exact absurd h (by simp)
  · rintro ⟨rfl, hc⟩
    have hall : ∀ a, 0 ≤ (rowsD wf).start (ix2 i k') idx a + ((rowsD wf).window (ix2 i k') a : Int) ∧
        (rowsD wf).start (ix2 i k') idx a + ((rowsD wf).window (ix2 i k') a : Int)
          < ((⟨2, ![512, 128]⟩ : Shape).size a : Int) := by
      intro a
      match a with
      | ⟨0, _⟩ =>
        show 0 ≤ (rowsD wf).start (ix2 i k') idx 0 + ((rowsD wf).window (ix2 i k') 0 : Int) ∧
          (rowsD wf).start (ix2 i k') idx 0 + ((rowsD wf).window (ix2 i k') 0 : Int) < ((512 : Nat) : Int)
        rw [rows_start0, rows_window0, hc]
        have := c.isLt
        omega
      | ⟨1, _⟩ =>
        show 0 ≤ (rowsD wf).start (ix2 i k') idx 1 + ((rowsD wf).window (ix2 i k') 1 : Int) ∧
          (rowsD wf).start (ix2 i k') idx 1 + ((rowsD wf).window (ix2 i k') 1 : Int) < ((128 : Nat) : Int)
        rw [rows_start1, rows_window1]
        have := k'.isLt
        omega
    rw [dif_pos hall]
    congr 1
    funext a
    refine Fin.ext ?_
    match a with
    | ⟨0, _⟩ =>
      show ((rowsD wf).start (ix2 i k') idx 0 + ((rowsD wf).window (ix2 i k') 0 : Int)).toNat = c.val
      rw [rows_start0, rows_window0, hc]
      omega
    | ⟨1, _⟩ =>
      show ((rowsD wf).start (ix2 i k') idx 1 + ((rowsD wf).window (ix2 i k') 1 : Int)).toNat = k'.val
      rw [rows_start1, rows_window1]
      omega

end Rows

/-- The row scatter: entry (c, k) of the table gains entry (i, k) of every row i whose start index is c. -/
theorem scatterAdd_rows (d : ScatterDims ⟨2, ![512, 128]⟩ ⟨2, ![262144, 1]⟩ ⟨2, ![262144, 128]⟩)
    (hu : d.updateWindowDims = [1]) (hi : d.insertedWindowDims = [0]) (hs : d.scatterDimsToOperandDims = [0])
    (hv : d.indexVectorDim = 1)
    (x : (⟨2, ![512, 128]⟩ : Shape).Idx → EReal) (idx : IVec ⟨2, ![262144, 1]⟩ 32)
    (upd : (⟨2, ![262144, 128]⟩ : Shape).Idx → EReal) (c : Fin 512) (k : Fin 128) :
    Host.scatterAdd (F := Ideal) (φ := .f32) d x idx upd (ix2 c k)
      = x (ix2 c k) + ∑ i : Fin 262144, if (idx (ix2 i (0 : Fin 1))).toInt = (c.val : Int) then upd (ix2 i k) else 0 := by
  -- the dimension numbers are the literals; the sum over the updates landing on (c, k) is a sum over all update
  -- entries with a condition, split into rows and columns; in row i only column k can land there
  obtain ⟨uw, iw, sd, iv, wf⟩ := d
  simp only at hu hi hs hv
  subst hu hi hs hv
  show x (ix2 c k) + ∑ j ∈ Finset.univ.filter (fun j => (rowsD wf).resultIdx? j idx = some (ix2 c k)), upd j = _
  refine congrArg (fun t => x (ix2 c k) + t) ?_
  rw [Finset.sum_filter, sum_idx2]
  refine Finset.sum_congr rfl (fun i _ => ?_)
  simp only [rows_resultIdx]
  by_cases hc : (idx (ix2 i (0 : Fin 1))).toInt = (c.val : Int)
  · simp only [hc, and_true, if_true]
    rw [Finset.sum_ite_eq' Finset.univ k]
    simp
  · simp only [hc, and_false, if_false]
    exact Finset.sum_const_zero

/-! ## The scalar scatter

No update window axis: update entry i lands on operand entry (start of row i, read signed). -/

/-- A rank-1 index set is its coordinate range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

section Scalars

variable (wf : ScatterDims.WF ⟨1, ![512]⟩ ⟨2, ![262144, 1]⟩ ⟨1, ![262144]⟩ [] [0] [0] 1)

/-- The scalar scatter's dimension numbers as a record of literals. -/
private abbrev scalD : ScatterDims ⟨1, ![512]⟩ ⟨2, ![262144, 1]⟩ ⟨1, ![262144]⟩ :=
  ⟨[], [0], [0], 1, wf⟩

/-- The window of update entry i starts at row i's start index, read signed. -/
theorem scal_start0 (idx : IVec ⟨2, ![262144, 1]⟩ 32) (i : Fin 262144) :
    (scalD wf).start (ix1 i) idx 0 = (idx (ix2 i (0 : Fin 1))).toInt := by
  unfold ScatterDims.start
  rw [dif_pos (List.mem_singleton.mpr rfl)]
  have hsi : (scalD wf).siIdx (ix1 i)
      ⟨List.idxOf (0 : Fin 1) [0], List.idxOf_lt_length_iff.2 (List.mem_singleton.mpr rfl)⟩ = ix2 i (0 : Fin 1) := by
    funext b; refine Fin.ext ?_
    match b with
    | ⟨0, _⟩ => rfl
    | ⟨1, _⟩ => rfl
  show (idx ((scalD wf).siIdx (ix1 i)
      ⟨List.idxOf (0 : Fin 1) [0], List.idxOf_lt_length_iff.2 (List.mem_singleton.mpr rfl)⟩)).toInt = _
  rw [hsi]

/-- The one operand axis is inserted: the window coordinate is 0. -/
theorem scal_window0 (i : Fin 262144) : (scalD wf).window (ix1 i) 0 = 0 := by
  rfl

/-- Update entry i lands on entry c exactly when row i's start index, read signed, is c. -/
theorem scal_resultIdx (idx : IVec ⟨2, ![262144, 1]⟩ 32) (i : Fin 262144) (c : Fin 512) :
    (scalD wf).resultIdx? (ix1 i) idx = some (ix1 c) ↔ (idx (ix2 i (0 : Fin 1))).toInt = (c.val : Int) := by
  unfold ScatterDims.resultIdx?
  constructor
  · intro h
    split at h
    · rename_i hall
      have hf := Option.some.inj h
      have h0 := congrArg (fun f => (f 0).val) hf
      have a0 := (hall 0).1
      simp only [scal_start0, scal_window0] at h0 a0
      change _ = c.val at h0
      omega
    · exact absurd h (by simp)
  · intro hc
    have hall : ∀ a, 0 ≤ (scalD wf).start (ix1 i) idx a + ((scalD wf).window (ix1 i) a : Int) ∧
        (scalD wf).start (ix1 i) idx a + ((scalD wf).window (ix1 i) a : Int)
          < ((⟨1, ![512]⟩ : Shape).size a : Int) := by
      intro a
      match a with
      | ⟨0, _⟩ =>
        show 0 ≤ (scalD wf).start (ix1 i) idx 0 + ((scalD wf).window (ix1 i) 0 : Int) ∧
          (scalD wf).start (ix1 i) idx 0 + ((scalD wf).window (ix1 i) 0 : Int) < ((512 : Nat) : Int)
        rw [scal_start0, scal_window0, hc]
        have := c.isLt
        omega
    rw [dif_pos hall]
    congr 1
    funext a
    refine Fin.ext ?_
    match a with
    | ⟨0, _⟩ =>
      show ((scalD wf).start (ix1 i) idx 0 + ((scalD wf).window (ix1 i) 0 : Int)).toNat = c.val
      rw [scal_start0, scal_window0, hc]
      omega

end Scalars

/-- The scalar scatter: entry c gains the scalar of every row i whose start index is c. -/
theorem scatterAdd_scalars (d : ScatterDims ⟨1, ![512]⟩ ⟨2, ![262144, 1]⟩ ⟨1, ![262144]⟩)
    (hu : d.updateWindowDims = []) (hi : d.insertedWindowDims = [0]) (hs : d.scatterDimsToOperandDims = [0])
    (hv : d.indexVectorDim = 1)
    (x : (⟨1, ![512]⟩ : Shape).Idx → EReal) (idx : IVec ⟨2, ![262144, 1]⟩ 32)
    (upd : (⟨1, ![262144]⟩ : Shape).Idx → EReal) (c : Fin 512) :
    Host.scatterAdd (F := Ideal) (φ := .f32) d x idx upd (ix1 c)
      = x (ix1 c) + ∑ i : Fin 262144, if (idx (ix2 i (0 : Fin 1))).toInt = (c.val : Int) then upd (ix1 i) else 0 := by
  obtain ⟨uw, iw, sd, iv, wf⟩ := d
  simp only at hu hi hs hv
  subst hu hi hs hv
  show x (ix1 c) + ∑ j ∈ Finset.univ.filter (fun j => (scalD wf).resultIdx? j idx = some (ix1 c)), upd j = _
  refine congrArg (fun t => x (ix1 c) + t) ?_
  rw [Finset.sum_filter, sum_idx1]
  refine Finset.sum_congr rfl (fun i _ => ?_)
  simp only [scal_resultIdx]

/-- The batched gather: row i read at its start index, signed, clamped into [0, 511]. -/
theorem gather_rows {α : Type} (d : GatherDims ⟨2, ![262144, 512]⟩ ⟨3, ![262144, 1, 1]⟩ ⟨2, ![262144, 1]⟩)
    (ho : d.offsetDims = []) (hc : d.collapsedSliceDims = [1]) (hob : d.operandBatchingDims = [0])
    (hsb : d.startIndicesBatchingDims = [0]) (hm : d.startIndexMap = [1]) (hv : d.indexVectorDim = 2)
    (x : (⟨2, ![262144, 512]⟩ : Shape).Idx → α) (idx : IVec ⟨3, ![262144, 1, 1]⟩ 32) (i : Fin 262144) :
    Host.gather d x idx (ix2 i (0 : Fin 1))
      = x (ix2 i ⟨min (idx (ix3 i (0 : Fin 1) (0 : Fin 1))).toInt.toNat 511, by omega⟩) := by
  -- axis 0 is the batching axis (start 0, batch coordinate i, no offset); axis 1 is collapsed, its slice of size 1,
  -- so it reads the start index clamped into [0, 512 - 1]
  obtain ⟨od, cd, ob, sb, sm, iv, ss, wf⟩ := d
  simp only at ho hc hob hsb hm hv
  subst ho hc hob hsb hm hv
  have h1 : ss 1 = 1 :=
    GatherDims.slice_collapsed ⟨[], [1], [0], [0], [1], 2, ss, wf⟩ 1 (List.mem_singleton.mpr rfl)
  unfold Host.gather
  congr 1
  funext a
  refine Fin.ext ?_
  match a with
  | ⟨0, _⟩ =>
    show GatherDims.start ⟨[], [1], [0], [0], [1], 2, ss, wf⟩ (ix2 i 0) idx 0
      + GatherDims.batchCoord ⟨[], [1], [0], [0], [1], 2, ss, wf⟩ (ix2 i 0) 0
      + GatherDims.offCoord ⟨[], [1], [0], [0], [1], 2, ss, wf⟩ (ix2 i 0) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show GatherDims.start ⟨[], [1], [0], [0], [1], 2, ss, wf⟩ (ix2 i 0) idx 1
      + GatherDims.batchCoord ⟨[], [1], [0], [0], [1], 2, ss, wf⟩ (ix2 i 0) 1
      + GatherDims.offCoord ⟨[], [1], [0], [0], [1], 2, ss, wf⟩ (ix2 i 0) 1 = min (idx (ix3 i 0 0)).toInt.toNat 511
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx ⟨[], [1], [0], [0], [1], 2, ss, wf⟩ (ix2 i (0 : Fin 1))
        ⟨List.idxOf (1 : Fin 2) [1], List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    show min (idx (GatherDims.siIdx ⟨[], [1], [0], [0], [1], 2, ss, wf⟩ (ix2 i (0 : Fin 1))
        ⟨List.idxOf (1 : Fin 2) [1], List.idxOf_lt_length_iff.2 (List.mem_singleton.mpr rfl)⟩)).toInt.toNat (512 - ss 1) = _
    rw [hsi, h1]

end Cert.RefOps

end
-- ==== Proof.RefValue.lean ====
/-
  The reference's result as a function of its two argument arrays, read off its run one operation at a time, at the
  extended reals, for labels in range: the rows normalised; the class sums and sizes by accumulating scatters; the
  prototypes; the logits by one matrix product divided by the temperature; the log-softmax; the entry at each row's
  label by a gather (the label is in range, so the gather's clamp and its out-of-range fill do nothing); the negated
  entries summed from zero and divided by the number of rows.
-/
import proofs.«425387_j45749991637604_3_alg».proof.Proof.RefRead
import proofs.«425387_j45749991637604_3_alg».proof.Proof.RefOps
import proofs.«425387_j45749991637604_3_alg».proof.Proof.Spec
import Idealize.ShloMosaic.PureOps.Reduce
import Idealize.ShloMosaic.PureOps.Ideal.Laws
import Idealize.ShloMosaic.Lib.ValueIdxRank1

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx

/-- The embeddings, as the reference takes them. -/
abbrev X0 := (⟨S262144x128, .f32⟩ : BufTy).Contents (Elt Ideal)
/-- The labels, as the reference takes them. -/
abbrev X1 := (⟨S262144, .i32⟩ : BufTy).Contents (Elt Ideal)

/-! ## Words and constants -/

/-- A word below 512 read as a signed integer is the natural number it encodes. -/
theorem lab_toInt (b : BitVec 32) (hb : b.toNat < 512) : b.toInt = (b.toNat : Int) := by
  rw [BitVec.toInt_eq_toNat_cond]; split <;> omega

/-- A label below 512, read signed, is the number of class c exactly when the label is the word of c. -/
theorem toInt_eq_iff (b : BitVec 32) (hb : b.toNat < 512) (c : Fin 512) :
    b.toInt = (c.val : Int) ↔ b = BitVec.ofNat 32 c.val := by
  have hc := c.isLt
  rw [lab_toInt b hb]
  constructor
  · intro h
    apply BitVec.eq_of_toNat_eq
    rw [BitVec.toNat_ofNat]
    omega
  · intro h
    rw [h, BitVec.toNat_ofNat]
    omega

/-- A label below 512 is not negative. -/
theorem cmp_slt_zero (b : BitVec 32) (hb : b.toNat < 512) : IntOp.cmpi .slt b 0#32 = 0#1 := by
  have h := lab_toInt b hb
  have h0 : (0#32 : BitVec 32).toInt = 0 := by decide
  have hs : b.slt 0#32 = false := by rw [BitVec.slt, h, h0]; exact decide_eq_false (by omega)
  show BitVec.ofBool (b.slt 0#32) = 0#1
  rw [hs]; rfl

/-- A label below 512 is at least zero. -/
theorem cmp_sge_zero (b : BitVec 32) (hb : b.toNat < 512) : IntOp.cmpi .sge b 0#32 = 1#1 := by
  have h := lab_toInt b hb
  have h0 : (0#32 : BitVec 32).toInt = 0 := by decide
  have hs : (0#32 : BitVec 32).sle b = true := by rw [BitVec.sle, h, h0]; exact decide_eq_true (by omega)
  show BitVec.ofBool ((0#32 : BitVec 32).sle b) = 1#1
  rw [hs]; rfl

/-- A label below 512 is at most 511. -/
theorem cmp_sle_511 (b : BitVec 32) (hb : b.toNat < 512) : IntOp.cmpi .sle b 511#32 = 1#1 := by
  have h := lab_toInt b hb
  have h0 : (511#32 : BitVec 32).toInt = 511 := by decide
  have hs : b.sle 511#32 = true := by rw [BitVec.sle, h, h0]; exact decide_eq_true (by omega)
  show BitVec.ofBool (b.sle 511#32) = 1#1
  rw [hs]; rfl

/-- The f32 word of one is the number one. -/
theorem ofBits_one_f32 : Ideal.ofBits .f32 0x3F800000#32 = 1 := by
  simp [Ideal.ofBits, Ideal.ieee, -EReal.coe_mul]; norm_num

/-- The f32 nearest to a tenth is 13421773 / 2^27. -/
theorem ofBits_tau : Ideal.ofBits .f32 0x3DCCCCCD#32 = ((13421773 / 134217728 : ℝ) : EReal) := by
  simp [Ideal.ofBits, Ideal.ieee, -EReal.coe_mul]; norm_num

/-- The f32 word of minus infinity is the least extended real. -/
theorem ofBits_ninf : Ideal.ofBits .f32 0xFF800000#32 = ⊥ := by
  simp [Ideal.ofBits, Ideal.ieee]

/-- A conjunction of ones, from one, is one. -/
theorem fold_andi_one {ι : Type} (s : Finset ι) (g : ι → BitVec 1) (hg : ∀ k, g k = 1#1) :
    s.fold IntOp.andi 1#1 g = 1#1 := by
  induction s using Finset.cons_induction with
  | empty => rfl
  | cons a s ha ih => rw [Finset.fold_cons, ih, hg]; rfl

/-! ## The normalised rows -/

/-- Entry (i, d) of the normalised input: the entry over the larger of the row's norm and the floor. -/
theorem v4_at (x0 : X0) (i : Fin 262144) (d : Fin 128) :
    val_main_v4 (F := Ideal) x0 (ix2 i d) = Cert.Spec.hn x0 i d := by
  rw [val_main_v4_apply, val_main_v3_apply, val_main_v2_apply, val_main_v0_apply, val_main_v1_apply, val_main_cst_apply,
    val_main_call0_v2_apply, val_main_call0_v1_apply, val_main_call0_cst_apply]
  have hk : ∀ k : Fin 128, idx_main_call0_v1 (idx_main_call0_v2 (idx_main_v3 (ix2 i d))) k = ix2 i k :=
    fun k => funext fun a => Fin.ext (by match a with | ⟨0, _⟩ => rfl | ⟨1, _⟩ => rfl)
  simp only [Ideal.hostDivf_def, Ideal.maximumf_def, Ideal.hostUnary_sqrt_def, Ideal.ofBits_def, Ideal.ofBits_zero_f32, zero_add,
    val_main_call0_v0_apply, Ideal.mulf_def, hk]
  rfl

/-! ## The class sums, the class sizes, the prototypes -/

/-- The row scatter into the zero table: entry (c, d) is the sum of the normalised rows of class c at d. -/
theorem v7_at (x0 : X0) (x1 : X1) (hl : Cert.Spec.InRange x1) (c : Fin 512) (d : Fin 128) :
    val_main_v7 (F := Ideal) x0 x1 (ix2 c d) = Cert.Spec.classSum x0 x1 c d := by
  unfold val_main_v7
  rw [Cert.RefOps.scatterAdd_rows _ rfl rfl rfl rfl]
  rw [val_main_v5_apply, val_main_cst_0_apply]
  simp only [Ideal.ofBits_def, Ideal.ofBits_zero_f32, zero_add]
  unfold Cert.Spec.classSum
  refine Finset.sum_congr rfl fun i _ => ?_
  rw [val_main_v6_apply, v4_at]
  have hi : idx_main_v6 (ix2 i (0 : Fin 1)) = ix1 i := funext fun a => Fin.ext (by match a with | ⟨0, _⟩ => rfl)
  rw [hi]
  exact if_congr (toInt_eq_iff _ (hl _) c) rfl rfl

/-- The scalar scatter of ones into the zero vector: entry c is the number of rows of class c. -/
theorem v11_at (x1 : X1) (hl : Cert.Spec.InRange x1) (c : Fin 512) :
    val_main_v11 (F := Ideal) x1 (ix1 c) = Cert.Spec.classCnt x1 c := by
  unfold val_main_v11
  rw [Cert.RefOps.scatterAdd_scalars _ rfl rfl rfl rfl]
  rw [val_main_v9_apply, val_main_cst_2_apply]
  simp only [Ideal.ofBits_def, Ideal.ofBits_zero_f32, zero_add]
  unfold Cert.Spec.classCnt
  refine Finset.sum_congr rfl fun i _ => ?_
  rw [val_main_v10_apply, val_main_v8_apply, val_main_cst_1_apply]
  have hi : idx_main_v10 (ix2 i (0 : Fin 1)) = ix1 i := funext fun a => Fin.ext (by match a with | ⟨0, _⟩ => rfl)
  rw [hi]
  simp only [Ideal.ofBits_def, ofBits_one_f32]
  exact if_congr (toInt_eq_iff _ (hl _) c) rfl rfl

/-- The class mean: the class sum over the class size floored at one. -/
theorem v16_at (x0 : X0) (x1 : X1) (hl : Cert.Spec.InRange x1) (c : Fin 512) (d : Fin 128) :
    val_main_v16 (F := Ideal) x0 x1 (ix2 c d) = Cert.Spec.protoRaw x0 x1 c d := by
  rw [val_main_v16_apply, v7_at x0 x1 hl, val_main_v15_apply, val_main_v14_apply, val_main_v13_apply, val_main_v12_apply,
    val_main_cst_3_apply]
  have hi : idx_main_v14 (idx_main_v15 (ix2 c d)) = ix1 c := funext fun a => Fin.ext (by match a with | ⟨0, _⟩ => rfl)
  rw [hi, v11_at x1 hl]
  simp only [Ideal.hostDivf_def, Ideal.maximumf_def, Ideal.ofBits_def, ofBits_one_f32]
  rfl

/-- The prototype: the class mean over the larger of its norm and the floor. -/
theorem v21_at (x0 : X0) (x1 : X1) (hl : Cert.Spec.InRange x1) (c : Fin 512) (d : Fin 128) :
    val_main_v21 (F := Ideal) x0 x1 (ix2 c d) = Cert.Spec.proto x0 x1 (ix2 c d) := by
  rw [val_main_v21_apply, v16_at x0 x1 hl, val_main_v20_apply, val_main_v19_apply, val_main_v17_apply, val_main_v18_apply,
    val_main_cst_4_apply, val_main_call1_v2_apply, val_main_call1_v1_apply, val_main_call1_cst_apply]
  have hk : ∀ k : Fin 128, idx_main_call1_v1 (idx_main_call1_v2 (idx_main_v20 (ix2 c d))) k = ix2 c k :=
    fun k => funext fun a => Fin.ext (by match a with | ⟨0, _⟩ => rfl | ⟨1, _⟩ => rfl)
  simp only [Ideal.hostDivf_def, Ideal.maximumf_def, Ideal.hostUnary_sqrt_def, Ideal.ofBits_def, Ideal.ofBits_zero_f32, zero_add,
    val_main_call1_v0_apply, Ideal.mulf_def, hk, v16_at x0 x1 hl]
  rfl

/-! ## The logits -/

/-- The product against the transposed prototypes, divided by the temperature: row i's inner product with
    prototype c, times the temperature's reciprocal. -/
theorem v25_at (x0 : X0) (x1 : X1) (hl : Cert.Spec.InRange x1) (i : Fin 262144) (c : Fin 512) :
    val_main_v25 (F := Ideal) x0 x1 (ix2 i c) = Cert.Spec.logit (Cert.Spec.proto x0 x1) x0 i c := by
  rw [val_main_v25_apply, val_main_v23_apply, val_main_v24_apply, val_main_cst_5_apply]
  have hL : ∀ k : Fin 128, lidx_main_v23 (ix2 i c) k = ix2 i k :=
    fun k => funext fun a => Fin.ext (by match a with | ⟨0, _⟩ => rfl | ⟨1, _⟩ => rfl)
  have hR : ∀ k : Fin 128, idx_main_v22 (ridx_main_v23 (ix2 i c) k) = ix2 c k :=
    fun k => funext fun a => Fin.ext (by match a with | ⟨0, _⟩ => rfl | ⟨1, _⟩ => rfl)
  simp only [val_main_v22_apply, hL, hR, v4_at, v21_at x0 x1 hl, Ideal.hostDivf_def, Ideal.ofBits_def, ofBits_tau]
  rw [Ideal.div_coe (by norm_num)]
  unfold Cert.Spec.logit Cert.Spec.invTau
  have hq : (1 / (13421773 / 134217728) : ℝ) = 134217728 / 13421773 := by norm_num
  rw [hq]

/-! ## The log-softmax -/

/-- Row i with class k put back on the reduced axis is the index (i, k). -/
theorem lift_row (h : S262144x512.Reduces [1] S262144) (i : Fin 262144) (k : Fin (S262144x512.size 1)) :
    h.lift (ix1 i) k = ix2 i (⟨k.val, k.isLt⟩ : Fin 512) := by
  funext c; apply Fin.ext
  fin_cases c <;> rfl

/-- The row's maximum: the fold of the maximum over the classes from minus infinity, then once more against
    minus infinity, which changes nothing. -/
theorem rowmax_at (x0 : X0) (x1 : X1) (hl : Cert.Spec.InRange x1) (i : Fin 262144) :
    val_main_call2_v2 (F := Ideal) x0 x1 (ix1 i) = Cert.Spec.rowMax (Cert.Spec.proto x0 x1) x0 i := by
  rw [val_main_call2_v2_apply, val_main_call2_v1_apply, val_main_call2_cst_0_apply]
  unfold val_main_call2_v0
  have hR : S262144x512.Reduces [1] S262144 := by decide
  rw [Host.reduce_eq_fold_single FloatOps.maximumf _ _ reducesTo_S262144x512_S262144_d1 hR h_S_, val_main_call2_cst_apply]
  simp only [Ideal.ofBits_def, ofBits_ninf, Ideal.maximumf_def, max_bot_left]
  have hf : (val_main_v25 (F := Ideal) x0 x1 ∘ hR.lift (ix1 i))
      = fun k : Fin 512 => Cert.Spec.logit (Cert.Spec.proto x0 x1) x0 i k :=
    funext fun k => (congrArg (val_main_v25 (F := Ideal) x0 x1) (lift_row hR i k)).trans (v25_at x0 x1 hl i _)
  exact congrArg (fun f => Finset.fold max (⊥ : EReal) f (Finset.univ : Finset (Fin 512))) hf

/-- The shifted logit: the logit less the row's maximum. -/
theorem v5c_at (x0 : X0) (x1 : X1) (hl : Cert.Spec.InRange x1) (i : Fin 262144) (c : Fin 512) :
    val_main_call2_v5 (F := Ideal) x0 x1 (ix2 i c)
      = Cert.Spec.logit (Cert.Spec.proto x0 x1) x0 i c - Cert.Spec.rowMax (Cert.Spec.proto x0 x1) x0 i := by
  rw [val_main_call2_v5_apply, v25_at x0 x1 hl, val_main_call2_v4_apply, val_main_call2_v3_apply]
  have hi : idx_main_call2_v3 (idx_main_call2_v4 (ix2 i c)) = ix1 i := funext fun a => Fin.ext (by match a with | ⟨0, _⟩ => rfl)
  rw [hi, rowmax_at x0 x1 hl]
  rfl

/-- The softmax denominator: the sum over the classes of the exponentials of the shifted logits. -/
theorem rowden_at (x0 : X0) (x1 : X1) (hl : Cert.Spec.InRange x1) (i : Fin 262144) :
    val_main_call2_v7 (F := Ideal) x0 x1 (ix1 i) = Cert.Spec.rowDen (Cert.Spec.proto x0 x1) x0 i := by
  rw [val_main_call2_v7_apply, val_main_call2_cst_1_apply]
  have hk : ∀ k : Fin 512, idx_main_call2_v7 (ix1 i) k = ix2 i k :=
    fun k => funext fun a => Fin.ext (by match a with | ⟨0, _⟩ => rfl | ⟨1, _⟩ => rfl)
  simp only [hk, val_main_call2_v6_apply, v5c_at x0 x1 hl, Ideal.hostUnary_exp_def, Ideal.ofBits_def, Ideal.ofBits_zero_f32, zero_add]
  rfl

/-- The log-softmax at (i, c): the shifted logit less the logarithm of the denominator. -/
theorem v26_at (x0 : X0) (x1 : X1) (hl : Cert.Spec.InRange x1) (i : Fin 262144) (c : Fin 512) :
    val_main_v26 (F := Ideal) x0 x1 (ix2 i c)
      = (Cert.Spec.logit (Cert.Spec.proto x0 x1) x0 i c - Cert.Spec.rowMax (Cert.Spec.proto x0 x1) x0 i)
        - Ideal.log (Cert.Spec.rowDen (Cert.Spec.proto x0 x1) x0 i) := by
  rw [val_main_v26_apply, v5c_at x0 x1 hl, val_main_call2_v10_apply, val_main_call2_v9_apply, val_main_call2_v8_apply]
  have hi : idx_main_call2_v8 (idx_main_call2_v10 (ix2 i c)) = ix1 i := funext fun a => Fin.ext (by match a with | ⟨0, _⟩ => rfl)
  rw [hi, rowden_at x0 x1 hl]
  rfl

/-! ## The entry at the row's label -/

/-- A label in range is not negative, so the wrap-around of negative indices keeps it. -/
theorem c3v4_at (x1 : X1) (hl : Cert.Spec.InRange x1) (i : Fin 262144) :
    val_main_call3_v4 (F := Ideal) x1 (ix2 i (0 : Fin 1)) = x1 (ix1 i) := by
  rw [val_main_call3_v4_apply, val_main_call3_v1_apply, val_main_v27_apply, val_main_call3_v0_apply, val_main_call3_c_apply]
  have hi : idx_main_v27 (ix2 i (0 : Fin 1)) = ix1 i := funext fun a => Fin.ext (by match a with | ⟨0, _⟩ => rfl)
  rw [hi, cmp_slt_zero _ (hl _), select_zero]

/-- The start index of row i is its label. -/
theorem c3v5_at (x1 : X1) (hl : Cert.Spec.InRange x1) (i : Fin 262144) :
    val_main_call3_v5 (F := Ideal) x1 (ix3 i (0 : Fin 1) (0 : Fin 1)) = x1 (ix1 i) := by
  rw [val_main_call3_v5_apply]
  have hi : idx_main_call3_v5 (ix3 i (0 : Fin 1) (0 : Fin 1)) = ix2 i (0 : Fin 1) :=
    funext fun a => Fin.ext (by
      match a with
      | ⟨0, _⟩ => show ((i.val * 1 + 0) * 1 + 0) / 1 = i.val; omega
      | ⟨1, _⟩ => rfl)
  rw [hi, c3v4_at x1 hl]

/-- The start index of row i lies between 0 and 511. -/
theorem c3v11_at (x1 : X1) (hl : Cert.Spec.InRange x1) (i : Fin 262144) :
    val_main_call3_v11 (F := Ideal) x1 (ix3 i (0 : Fin 1) (0 : Fin 1)) = 1#1 := by
  rw [val_main_call3_v11_apply, val_main_call3_v7_apply, val_main_call3_v10_apply, c3v5_at x1 hl, val_main_call3_v6_apply,
    val_main_call3_c_2_apply, val_main_call3_v9_apply, val_main_call3_v8_apply, val_main_call3_c_1_apply,
    cmp_sge_zero _ (hl _), cmp_sle_511 _ (hl _)]
  rfl

/-- Index (i, 0) with the one coordinate of the reduced unit axis put back is (i, 0, 0). -/
theorem lift_unit (h : S262144x1x1.Reduces [2] S262144x1) (i : Fin 262144) (k : Fin (S262144x1x1.size 2)) :
    h.lift (ix2 i (0 : Fin 1)) k = ix3 i (0 : Fin 1) (0 : Fin 1) := by
  have hk : k.val < 1 := k.isLt
  have hk0 : k = (⟨0, Nat.one_pos⟩ : Fin (S262144x1x1.size 2)) := Fin.ext (by show k.val = 0; omega)
  subst hk0
  funext c; apply Fin.ext
  fin_cases c <;> rfl

/-- The range test of row i, a conjunction over an axis of one element, holds. -/
theorem c3v12_at (x1 : X1) (hl : Cert.Spec.InRange x1) (i : Fin 262144) :
    val_main_call3_v12 (F := Ideal) x1 (ix2 i (0 : Fin 1)) = 1#1 := by
  unfold val_main_call3_v12
  have hR : S262144x1x1.Reduces [2] S262144x1 := by decide
  rw [Host.reduce_eq_fold_single IntOp.andi _ _ reducesTo_S262144x1x1_S262144x1_d2 hR h_S_, val_main_call3_c_3_apply]
  refine fold_andi_one _ _ fun k => ?_
  show val_main_call3_v11 (F := Ideal) x1 (hR.lift (ix2 i (0 : Fin 1)) k) = 1#1
  rw [lift_unit hR i k, c3v11_at x1 hl]

/-- For a label in range the row's class is the number the label encodes. -/
theorem labOf_val (x1 : X1) (hl : Cert.Spec.InRange x1) (i : Fin 262144) :
    (Cert.Spec.labOf x1 i).val = (x1 (ix1 i)).toNat := by
  unfold Cert.Spec.labOf
  rw [dif_pos (hl _)]

/-- The gather reads row i of the log-softmax at the row's label: the clamp into [0, 511] leaves a label in range
    where it is. -/
theorem c3v13_at (x0 : X0) (x1 : X1) (hl : Cert.Spec.InRange x1) (i : Fin 262144) :
    val_main_call3_v13 (F := Ideal) x0 x1 (ix2 i (0 : Fin 1))
      = val_main_v26 (F := Ideal) x0 x1 (ix2 i (Cert.Spec.labOf x1 i)) := by
  unfold val_main_call3_v13
  rw [Cert.RefOps.gather_rows _ rfl rfl rfl rfl rfl rfl]
  refine congrArg (val_main_v26 (F := Ideal) x0 x1) (congrArg (ix2 i) (Fin.ext ?_))
  show min (val_main_call3_v5 (F := Ideal) x1 (ix3 i (0 : Fin 1) (0 : Fin 1))).toInt.toNat 511 = (Cert.Spec.labOf x1 i).val
  have hb := hl (ix1 i)
  rw [c3v5_at x1 hl i, lab_toInt _ hb, Int.toNat_natCast, labOf_val x1 hl]
  omega

/-- The gathered entry of row i: the log-softmax at the row's label; the range test holds, so the fill is not taken. -/
theorem v28_at (x0 : X0) (x1 : X1) (hl : Cert.Spec.InRange x1) (i : Fin 262144) :
    val_main_v28 (F := Ideal) x0 x1 (ix2 i (0 : Fin 1))
      = (Cert.Spec.logit (Cert.Spec.proto x0 x1) x0 i (Cert.Spec.labOf x1 i) - Cert.Spec.rowMax (Cert.Spec.proto x0 x1) x0 i)
        - Ideal.log (Cert.Spec.rowDen (Cert.Spec.proto x0 x1) x0 i) := by
  rw [val_main_v28_apply, c3v12_at x1 hl, select_one, c3v13_at x0 x1 hl, v26_at x0 x1 hl]

/-! ## The mean -/

/-- The negated entry of row i is the row's loss in its second spelling. -/
theorem v30_at (x0 : X0) (x1 : X1) (hl : Cert.Spec.InRange x1) (i : Fin 262144) :
    val_main_v30 (F := Ideal) x0 x1 (ix1 i) = Cert.Spec.rowNll' (Cert.Spec.proto x0 x1) x0 x1 i := by
  rw [val_main_v30_apply, val_main_v29_apply]
  have hi : idx_main_v29 (ix1 i) = ix2 i (0 : Fin 1) :=
    funext fun a => Fin.ext (by
      match a with
      | ⟨0, _⟩ => show i.val / 1 = i.val; omega
      | ⟨1, _⟩ => rfl)
  rw [hi, v28_at x0 x1 hl]
  rfl

/-- With every label a class, the reference's last stage is the mean loss in its second spelling. -/
theorem ref_loss (x0 : (⟨S262144x128, .f32⟩ : BufTy).Contents (Elt Ideal)) (x1 : (⟨S262144, .i32⟩ : BufTy).Contents (Elt Ideal))
    (hl : Cert.Spec.InRange x1) :
    val_main_v32 (F := Ideal) x0 x1 = fun _ => Cert.Spec.loss' x0 x1 := by
  funext j
  rw [val_main_v32_apply, val_main_v31_apply, val_main_cst_6_apply, val_main_cst_7_apply]
  have hs : ∑ j : S262144.Idx, val_main_v30 (F := Ideal) x0 x1 j
      = ∑ i : Fin 262144, Cert.Spec.rowNll' (Cert.Spec.proto x0 x1) x0 x1 i := by
    rw [← Equiv.sum_comp (idxEquiv1 (n := 262144)).symm (val_main_v30 (F := Ideal) x0 x1)]
    exact Finset.sum_congr rfl fun i _ => v30_at x0 x1 hl i
  rw [hs]
  simp only [Ideal.hostDivf_def, Ideal.ofBits_def, Ideal.ofBits_zero_f32]
  rfl

end Cert.ReferenceIdeal.RefValue

end
-- ==== Proof.RefStages.lean ====
/-
  The reference program's 85 host operations, folded over any contents of the buffers, leave in the result buffer the
  last stage of the operation-by-operation reading, applied to the contents of the two argument buffers. The fold is
  cut into five stretches at the points where few values are still needed — the normalised rows; the class means; the
  logits; the log-softmax; the result — and each stretch is read against the stages of its own operations only, the
  values it inherits rewritten to the stages already established.
-/
import proofs.«425387_j45749991637604_3_alg».proof.Proof.RefRead

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## A typed reference over a literal buffer reads and writes the contents as they are

For a typed reference `x` over a buffer whose type is the value's type by computation, `x.ofBuf` and `x.toBuf` are
transports along an equation between equal types: the identity. -/

/-- Reading a typed reference's contents back at the value's type undoes writing them at the buffer's type. -/
theorem ofBuf_toBuf {T : BufTy} (x : TRef sig T) (v : T.Contents (Elt F)) : x.ofBuf (x.toBuf v) = v := by
  obtain ⟨r, rfl, _, _⟩ := x
  rfl

theorem ofBuf_main_v25 (h1 h2 h3) (v : (⟨S262144x512, .f32⟩ : BufTy).Contents (Elt F)) :
    (TRef.of (T := ⟨S262144x512, .f32⟩) main_v25 h1 h2 h3).ofBuf v = v := rfl

theorem toBuf_main_v26 (h1 h2 h3) (v : (⟨S262144x512, .f32⟩ : BufTy).Contents (Elt F)) :
    (TRef.of (T := ⟨S262144x512, .f32⟩) main_v26 h1 h2 h3).toBuf v = v := rfl

theorem ofBuf_main_v27 (h1 h2 h3) (v : (⟨S262144x1, .i32⟩ : BufTy).Contents (Elt F)) :
    (TRef.of (T := ⟨S262144x1, .i32⟩) main_v27 h1 h2 h3).ofBuf v = v := rfl

theorem ofBuf_main_call3_v5 (h1 h2 h3) (v : (⟨S262144x1x1, .i32⟩ : BufTy).Contents (Elt F)) :
    (TRef.of (T := ⟨S262144x1x1, .i32⟩) main_call3_v5 h1 h2 h3).ofBuf v = v := rfl

theorem ofBuf_main_v26 (h1 h2 h3) (v : (⟨S262144x512, .f32⟩ : BufTy).Contents (Elt F)) :
    (TRef.of (T := ⟨S262144x512, .f32⟩) main_v26 h1 h2 h3).ofBuf v = v := rfl

theorem toBuf_main_v28 (h1 h2 h3) (v : (⟨S262144x1, .f32⟩ : BufTy).Contents (Elt F)) :
    (TRef.of (T := ⟨S262144x1, .f32⟩) main_v28 h1 h2 h3).toBuf v = v := rfl

theorem toBuf_main_call3_v4 (h1 h2 h3) (v : (⟨S262144x1, .i32⟩ : BufTy).Contents (Elt F)) :
    (TRef.of (T := ⟨S262144x1, .i32⟩) main_call3_v4 h1 h2 h3).toBuf v = v := rfl

/-! ## The five stretches of the operation list -/

/-- The operations up to the normalised rows. -/
abbrev opsA : List (HloOp τ sig (Elt F)) :=
  [ TRef.binary (TRef.of (T := ⟨S262144x128, .f32⟩) main_arg0) (TRef.of (T := ⟨S262144x128, .f32⟩) main_arg0) (TRef.of (T := ⟨S262144x128, .f32⟩) main_call0_v0) mulf,
    TRef.nullary (TRef.of (T := ⟨S_, .f32⟩) main_call0_cst) (constant S_ .f32 0x00000000#32),
    TRef.binary (TRef.of (T := ⟨S262144x128, .f32⟩) main_call0_v0) (TRef.of (T := ⟨S_, .f32⟩) main_call0_cst) (TRef.of (T := ⟨S262144, .f32⟩) main_call0_v1) (fun x v => Host.reduceAdd x v reducesTo_S262144x128_S262144_d1 h_S_),
    TRef.unary (TRef.of (T := ⟨S262144, .f32⟩) main_call0_v1) (TRef.of (T := ⟨S262144x1, .f32⟩) main_call0_v2) (broadcastInDim S262144x1 ![0] bcast_S262144_S262144x1_0),
    TRef.unary (TRef.of (T := ⟨S262144x1, .f32⟩) main_call0_v2) (TRef.of (T := ⟨S262144x1, .f32⟩) main_v0) Host.sqrt,
    nullary main_cst (constant S_ .f32 0x2B8CBCCC#32),
    unary main_cst main_v1 (broadcastInDim S262144x1 ![] bcast_S_S262144x1 : (⟨S_, .f32⟩ : BufTy).Contents (Elt F) → (⟨S262144x1, .f32⟩ : BufTy).Contents (Elt F)),
    binary main_v0 main_v1 main_v2 (maximumf : (⟨S262144x1, .f32⟩ : BufTy).Contents (Elt F) → (⟨S262144x1, .f32⟩ : BufTy).Contents (Elt F) → (⟨S262144x1, .f32⟩ : BufTy).Contents (Elt F)),
    unary main_v2 main_v3 (broadcastInDim S262144x128 ![0, 1] bcast_S262144x1_S262144x128_0_1 : (⟨S262144x1, .f32⟩ : BufTy).Contents (Elt F) → (⟨S262144x128, .f32⟩ : BufTy).Contents (Elt F)),
    binary main_arg0 main_v3 main_v4 (Host.divf : (⟨S262144x128, .f32⟩ : BufTy).Contents (Elt F) → (⟨S262144x128, .f32⟩ : BufTy).Contents (Elt F) → (⟨S262144x128, .f32⟩ : BufTy).Contents (Elt F)) ]

/-- The operations from there up to the class means. -/
abbrev opsB : List (HloOp τ sig (Elt F)) :=
  [ nullary main_cst_0 (constant S_ .f32 0x00000000#32),
    unary main_cst_0 main_v5 (broadcastInDim S512x128 ![] bcast_S_S512x128 : (⟨S_, .f32⟩ : BufTy).Contents (Elt F) → (⟨S512x128, .f32⟩ : BufTy).Contents (Elt F)),
    unary main_arg1 main_v6 (broadcastInDim S262144x1 ![0] bcast_S262144_S262144x1_0 : (⟨S262144, .i32⟩ : BufTy).Contents (Elt F) → (⟨S262144x1, .i32⟩ : BufTy).Contents (Elt F)),
    ternary main_v5 main_v6 main_v4 main_v7 ((fun x i u => Host.scatterAdd scatter_S512x128_S262144x1_S262144x128_1_0_0_1 x i u) : (⟨S512x128, .f32⟩ : BufTy).Contents (Elt F) → (⟨S262144x1, .i32⟩ : BufTy).Contents (Elt F) → (⟨S262144x128, .f32⟩ : BufTy).Contents (Elt F) → (⟨S512x128, .f32⟩ : BufTy).Contents (Elt F)),
    nullary main_cst_1 (constant S_ .f32 0x3F800000#32),
    unary main_cst_1 main_v8 (broadcastInDim S262144 ![] bcast_S_S262144 : (⟨S_, .f32⟩ : BufTy).Contents (Elt F) → (⟨S262144, .f32⟩ : BufTy).Contents (Elt F)),
    nullary main_cst_2 (constant S_ .f32 0x00000000#32),
    unary main_cst_2 main_v9 (broadcastInDim S512 ![] bcast_S_S512 : (⟨S_, .f32⟩ : BufTy).Contents (Elt F) → (⟨S512, .f32⟩ : BufTy).Contents (Elt F)),
    unary main_arg1 main_v10 (broadcastInDim S262144x1 ![0] bcast_S262144_S262144x1_0 : (⟨S262144, .i32⟩ : BufTy).Contents (Elt F) → (⟨S262144x1, .i32⟩ : BufTy).Contents (Elt F)),
    ternary main_v9 main_v10 main_v8 main_v11 ((fun x i u => Host.scatterAdd scatter_S512_S262144x1_S262144_n_0_0_1 x i u) : (⟨S512, .f32⟩ : BufTy).Contents (Elt F) → (⟨S262144x1, .i32⟩ : BufTy).Contents (Elt F) → (⟨S262144, .f32⟩ : BufTy).Contents (Elt F) → (⟨S512, .f32⟩ : BufTy).Contents (Elt F)),
    nullary main_cst_3 (constant S_ .f32 0x3F800000#32),
    unary main_cst_3 main_v12 (broadcastInDim S512 ![] bcast_S_S512 : (⟨S_, .f32⟩ : BufTy).Contents (Elt F) → (⟨S512, .f32⟩ : BufTy).Contents (Elt F)),
    binary main_v11 main_v12 main_v13 (maximumf : (⟨S512, .f32⟩ : BufTy).Contents (Elt F) → (⟨S512, .f32⟩ : BufTy).Contents (Elt F) → (⟨S512, .f32⟩ : BufTy).Contents (Elt F)),
    unary main_v13 main_v14 (broadcastInDim S512x1 ![0] bcast_S512_S512x1_0 : (⟨S512, .f32⟩ : BufTy).Contents (Elt F) → (⟨S512x1, .f32⟩ : BufTy).Contents (Elt F)),
    unary main_v14 main_v15 (broadcastInDim S512x128 ![0, 1] bcast_S512x1_S512x128_0_1 : (⟨S512x1, .f32⟩ : BufTy).Contents (Elt F) → (⟨S512x128, .f32⟩ : BufTy).Contents (Elt F)),
    binary main_v7 main_v15 main_v16 (Host.divf : (⟨S512x128, .f32⟩ : BufTy).Contents (Elt F) → (⟨S512x128, .f32⟩ : BufTy).Contents (Elt F) → (⟨S512x128, .f32⟩ : BufTy).Contents (Elt F)) ]

/-- The operations from there up to the logits. -/
abbrev opsC : List (HloOp τ sig (Elt F)) :=
  [ TRef.binary (TRef.of (T := ⟨S512x128, .f32⟩) main_v16) (TRef.of (T := ⟨S512x128, .f32⟩) main_v16) (TRef.of (T := ⟨S512x128, .f32⟩) main_call1_v0) mulf,
    TRef.nullary (TRef.of (T := ⟨S_, .f32⟩) main_call1_cst) (constant S_ .f32 0x00000000#32),
    TRef.binary (TRef.of (T := ⟨S512x128, .f32⟩) main_call1_v0) (TRef.of (T := ⟨S_, .f32⟩) main_call1_cst) (TRef.of (T := ⟨S512, .f32⟩) main_call1_v1) (fun x v => Host.reduceAdd x v reducesTo_S512x128_S512_d1 h_S_),
    TRef.unary (TRef.of (T := ⟨S512, .f32⟩) main_call1_v1) (TRef.of (T := ⟨S512x1, .f32⟩) main_call1_v2) (broadcastInDim S512x1 ![0] bcast_S512_S512x1_0),
    TRef.unary (TRef.of (T := ⟨S512x1, .f32⟩) main_call1_v2) (TRef.of (T := ⟨S512x1, .f32⟩) main_v17) Host.sqrt,
    nullary main_cst_4 (constant S_ .f32 0x2B8CBCCC#32),
    unary main_cst_4 main_v18 (broadcastInDim S512x1 ![] bcast_S_S512x1 : (⟨S_, .f32⟩ : BufTy).Contents (Elt F) → (⟨S512x1, .f32⟩ : BufTy).Contents (Elt F)),
    binary main_v17 main_v18 main_v19 (maximumf : (⟨S512x1, .f32⟩ : BufTy).Contents (Elt F) → (⟨S512x1, .f32⟩ : BufTy).Contents (Elt F) → (⟨S512x1, .f32⟩ : BufTy).Contents (Elt F)),
    unary main_v19 main_v20 (broadcastInDim S512x128 ![0, 1] bcast_S512x1_S512x128_0_1 : (⟨S512x1, .f32⟩ : BufTy).Contents (Elt F) → (⟨S512x128, .f32⟩ : BufTy).Contents (Elt F)),
    binary main_v16 main_v20 main_v21 (Host.divf : (⟨S512x128, .f32⟩ : BufTy).Contents (Elt F) → (⟨S512x128, .f32⟩ : BufTy).Contents (Elt F) → (⟨S512x128, .f32⟩ : BufTy).Contents (Elt F)),
    unary main_v21 main_v22 ((transpose S128x512 [1, 0] · transposes_S512x128_S128x512_1_0) : (⟨S512x128, .f32⟩ : BufTy).Contents (Elt F) → (⟨S128x512, .f32⟩ : BufTy).Contents (Elt F)),
    binary main_v4 main_v22 main_v23 ((fun l r => Host.dotGeneral dot_S262144x128_S128x512_S262144x512_1_0_0_1_n_n none l r) : (⟨S262144x128, .f32⟩ : BufTy).Contents (Elt F) → (⟨S128x512, .f32⟩ : BufTy).Contents (Elt F) → (⟨S262144x512, .f32⟩ : BufTy).Contents (Elt F)),
    nullary main_cst_5 (constant S_ .f32 0x3DCCCCCD#32),
    unary main_cst_5 main_v24 (broadcastInDim S262144x512 ![] bcast_S_S262144x512 : (⟨S_, .f32⟩ : BufTy).Contents (Elt F) → (⟨S262144x512, .f32⟩ : BufTy).Contents (Elt F)),
    binary main_v23 main_v24 main_v25 (Host.divf : (⟨S262144x512, .f32⟩ : BufTy).Contents (Elt F) → (⟨S262144x512, .f32⟩ : BufTy).Contents (Elt F) → (⟨S262144x512, .f32⟩ : BufTy).Contents (Elt F)) ]

/-- The operations of the log-softmax. -/
abbrev opsD : List (HloOp τ sig (Elt F)) :=
  [ TRef.nullary (TRef.of (T := ⟨S_, .f32⟩) main_call2_cst) (constant S_ .f32 0xFF800000#32),
    TRef.binary (TRef.of (T := ⟨S262144x512, .f32⟩) main_v25) (TRef.of (T := ⟨S_, .f32⟩) main_call2_cst) (TRef.of (T := ⟨S262144, .f32⟩) main_call2_v0) (fun x v => Host.reduce FloatOps.maximumf x v reducesTo_S262144x512_S262144_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S262144, .f32⟩) main_call2_v1) (broadcastInDim S262144 ![] bcast_S_S262144),
    TRef.binary (TRef.of (T := ⟨S262144, .f32⟩) main_call2_v1) (TRef.of (T := ⟨S262144, .f32⟩) main_call2_v0) (TRef.of (T := ⟨S262144, .f32⟩) main_call2_v2) maximumf,
    TRef.unary (TRef.of (T := ⟨S262144, .f32⟩) main_call2_v2) (TRef.of (T := ⟨S262144x1, .f32⟩) main_call2_v3) (broadcastInDim S262144x1 ![0] bcast_S262144_S262144x1_0),
    TRef.unary (TRef.of (T := ⟨S262144x1, .f32⟩) main_call2_v3) (TRef.of (T := ⟨S262144x512, .f32⟩) main_call2_v4) (broadcastInDim S262144x512 ![0, 1] bcast_S262144x1_S262144x512_0_1),
    TRef.binary (TRef.of (T := ⟨S262144x512, .f32⟩) main_v25) (TRef.of (T := ⟨S262144x512, .f32⟩) main_call2_v4) (TRef.of (T := ⟨S262144x512, .f32⟩) main_call2_v5) subf,
    TRef.unary (TRef.of (T := ⟨S262144x512, .f32⟩) main_call2_v5) (TRef.of (T := ⟨S262144x512, .f32⟩) main_call2_v6) Host.exp,
    TRef.nullary (TRef.of (T := ⟨S_, .f32⟩) main_call2_cst_1) (constant S_ .f32 0x00000000#32),
    TRef.binary (TRef.of (T := ⟨S262144x512, .f32⟩) main_call2_v6) (TRef.of (T := ⟨S_, .f32⟩) main_call2_cst_1) (TRef.of (T := ⟨S262144, .f32⟩) main_call2_v7) (fun x v => Host.reduceAdd x v reducesTo_S262144x512_S262144_d1 h_S_),
    TRef.unary (TRef.of (T := ⟨S262144, .f32⟩) main_call2_v7) (TRef.of (T := ⟨S262144x1, .f32⟩) main_call2_v8) (broadcastInDim S262144x1 ![0] bcast_S262144_S262144x1_0),
    TRef.unary (TRef.of (T := ⟨S262144x1, .f32⟩) main_call2_v8) (TRef.of (T := ⟨S262144x1, .f32⟩) main_call2_v9) Host.log,
    TRef.unary (TRef.of (T := ⟨S262144x1, .f32⟩) main_call2_v9) (TRef.of (T := ⟨S262144x512, .f32⟩) main_call2_v10) (broadcastInDim S262144x512 ![0, 1] bcast_S262144x1_S262144x512_0_1),
    TRef.binary (TRef.of (T := ⟨S262144x512, .f32⟩) main_call2_v5) (TRef.of (T := ⟨S262144x512, .f32⟩) main_call2_v10) (TRef.of (T := ⟨S262144x512, .f32⟩) main_v26) subf ]

/-- The remaining operations, up to the result. -/
abbrev opsE : List (HloOp τ sig (Elt F)) :=
  [ unary main_arg1 main_v27 (broadcastInDim S262144x1 ![0] bcast_S262144_S262144x1_0 : (⟨S262144, .i32⟩ : BufTy).Contents (Elt F) → (⟨S262144x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S262144x1, .i32⟩) main_call3_v0) (broadcastInDim S262144x1 ![] bcast_S_S262144x1),
    TRef.binary (TRef.of (T := ⟨S262144x1, .i32⟩) main_v27) (TRef.of (T := ⟨S262144x1, .i32⟩) main_call3_v0) (TRef.of (T := ⟨S262144x1, .i1⟩) main_call3_v1) (cmpi .slt),
    TRef.nullary (TRef.of (T := ⟨S_, .i32⟩) main_call3_c_0) (constantI S_ 32 512#32),
    TRef.unary (TRef.of (T := ⟨S_, .i32⟩) main_call3_c_0) (TRef.of (T := ⟨S262144x1, .i32⟩) main_call3_v2) (broadcastInDim S262144x1 ![] bcast_S_S262144x1),
    TRef.binary (TRef.of (T := ⟨S262144x1, .i32⟩) main_v27) (TRef.of (T := ⟨S262144x1, .i32⟩) main_call3_v2) (TRef.of (T := ⟨S262144x1, .i32⟩) main_call3_v3) addi,
    TRef.ternary (TRef.of (T := ⟨S262144x1, .i1⟩) main_call3_v1) (TRef.of (T := ⟨S262144x1, .i32⟩) main_call3_v3) (TRef.of (T := ⟨S262144x1, .i32⟩) main_v27) (TRef.of (T := ⟨S262144x1, .i32⟩) main_call3_v4) select,
    TRef.reshape (TRef.of (T := ⟨S262144x1, .i32⟩) main_call3_v4) (TRef.of (T := ⟨S262144x1x1, .i32⟩) main_call3_v5) rfl shapeCasts_S262144x1_S262144x1x1,
    TRef.nullary (TRef.of (T := ⟨S1, .i32⟩) main_call3_c_1) (constantI S1 32 511#32),
    TRef.nullary (TRef.of (T := ⟨S_, .i32⟩) main_call3_c_2) (constantI S_ 32 0#32),
    TRef.unary (TRef.of (T := ⟨S_, .i32⟩) main_call3_c_2) (TRef.of (T := ⟨S262144x1x1, .i32⟩) main_call3_v6) (broadcastInDim S262144x1x1 ![] bcast_S_S262144x1x1),
    TRef.binary (TRef.of (T := ⟨S262144x1x1, .i32⟩) main_call3_v5) (TRef.of (T := ⟨S262144x1x1, .i32⟩) main_call3_v6) (TRef.of (T := ⟨S262144x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S262144x1x1, .i32⟩) main_call3_v9) (broadcastInDim S262144x1x1 ![0, 1, 2] bcast_S1x1x1_S262144x1x1_0_1_2),
    TRef.binary (TRef.of (T := ⟨S262144x1x1, .i32⟩) main_call3_v5) (TRef.of (T := ⟨S262144x1x1, .i32⟩) main_call3_v9) (TRef.of (T := ⟨S262144x1x1, .i1⟩) main_call3_v10) (cmpi .sle),
    TRef.binary (TRef.of (T := ⟨S262144x1x1, .i1⟩) main_call3_v7) (TRef.of (T := ⟨S262144x1x1, .i1⟩) main_call3_v10) (TRef.of (T := ⟨S262144x1x1, .i1⟩) main_call3_v11) andi,
    TRef.nullary (TRef.of (T := ⟨S_, .i1⟩) main_call3_c_3) (constantI S_ 1 1#1),
    TRef.binary (TRef.of (T := ⟨S262144x1x1, .i1⟩) main_call3_v11) (TRef.of (T := ⟨S_, .i1⟩) main_call3_c_3) (TRef.of (T := ⟨S262144x1, .i1⟩) main_call3_v12) (fun x v => Host.reduce IntOp.andi x v reducesTo_S262144x1x1_S262144x1_d2 h_S_),
    TRef.binary (TRef.of (T := ⟨S262144x512, .f32⟩) main_v26) (TRef.of (T := ⟨S262144x1x1, .i32⟩) main_call3_v5) (TRef.of (T := ⟨S262144x1, .f32⟩) main_call3_v13) (fun x i => Host.gather gather_S262144x512_S262144x1x1_S262144x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S262144x1, .f32⟩) main_call3_v14) (broadcastInDim S262144x1 ![] bcast_S_S262144x1),
    TRef.ternary (TRef.of (T := ⟨S262144x1, .i1⟩) main_call3_v12) (TRef.of (T := ⟨S262144x1, .f32⟩) main_call3_v13) (TRef.of (T := ⟨S262144x1, .f32⟩) main_call3_v14) (TRef.of (T := ⟨S262144x1, .f32⟩) main_v28) select,
    reshape main_v28 main_v29 rfl shapeCasts_S262144x1_S262144,
    unary main_v29 main_v30 (Host.negf : (⟨S262144, .f32⟩ : BufTy).Contents (Elt F) → (⟨S262144, .f32⟩ : BufTy).Contents (Elt F)),
    nullary main_cst_6 (constant S_ .f32 0x00000000#32),
    binary main_v30 main_cst_6 main_v31 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_cst_7 (constant S_ .f32 0x48800000#32),
    binary main_v31 main_cst_7 main_v32 (Host.divf : (⟨S_, .f32⟩ : BufTy).Contents (Elt F) → (⟨S_, .f32⟩ : BufTy).Contents (Elt F) → (⟨S_, .f32⟩ : BufTy).Contents (Elt F)) ]

/-- The operation list is the five stretches in a row. -/
theorem ops_split : (ops : List (HloOp τ sig (Elt F))) = opsA ++ (opsB ++ (opsC ++ (opsD ++ opsE))) := rfl

/-! ## Each stretch over any contents, the inherited values given as the stages already established -/

/-- From the arguments, the first stretch leaves the normalised rows' stage and keeps the labels. -/
theorem stretchA (U : Valuation τ sig (Elt F)) (x0 : (⟨S262144x128, .f32⟩ : BufTy).Contents (Elt F)) (x1 : (⟨S262144, .i32⟩ : BufTy).Contents (Elt F))
    (ha0 : U (Proc.devRef .tc main_arg0) = x0) (ha1 : U (Proc.devRef .tc main_arg1) = x1) :
    after (opsA (F := F)) U (Proc.devRef .tc main_v4) = val_main_v4 (F := F) x0
      ∧ after (opsA (F := F)) U (Proc.devRef .tc main_arg1) = x1 := by
  constructor
  · after_results_simp
    rw [ha0]
    (try simp only [TRef.ofBuf, TRef.toBuf, cast_eq])
    rfl
  · after_results_simp
    exact ha1

/-- From the normalised rows and the labels, the second stretch leaves the class means' stage and keeps both. -/
theorem stretchB (U : Valuation τ sig (Elt F)) (x0 : (⟨S262144x128, .f32⟩ : BufTy).Contents (Elt F)) (x1 : (⟨S262144, .i32⟩ : BufTy).Contents (Elt F))
    (h4 : U (Proc.devRef .tc main_v4) = val_main_v4 (F := F) x0) (ha1 : U (Proc.devRef .tc main_arg1) = x1) :
    after (opsB (F := F)) U (Proc.devRef .tc main_v16) = val_main_v16 (F := F) x0 x1
      ∧ after (opsB (F := F)) U (Proc.devRef .tc main_v4) = val_main_v4 (F := F) x0
      ∧ after (opsB (F := F)) U (Proc.devRef .tc main_arg1) = x1 := by
  refine ⟨?_, ?_, ?_⟩
  · after_results_simp
    rw [h4, ha1]
    (try simp only [TRef.ofBuf, TRef.toBuf, cast_eq])
    rfl
  · after_results_simp
    exact h4
  · after_results_simp
    exact ha1

/-- From the class means and the normalised rows, the third stretch leaves the logits' stage and keeps the labels. -/
theorem stretchC (U : Valuation τ sig (Elt F)) (x0 : (⟨S262144x128, .f32⟩ : BufTy).Contents (Elt F)) (x1 : (⟨S262144, .i32⟩ : BufTy).Contents (Elt F))
    (h16 : U (Proc.devRef .tc main_v16) = val_main_v16 (F := F) x0 x1)
    (h4 : U (Proc.devRef .tc main_v4) = val_main_v4 (F := F) x0) (ha1 : U (Proc.devRef .tc main_arg1) = x1) :
    after (opsC (F := F)) U (Proc.devRef .tc main_v25) = val_main_v25 (F := F) x0 x1
      ∧ after (opsC (F := F)) U (Proc.devRef .tc main_arg1) = x1 := by
  constructor
  · after_results_simp
    rw [h16, h4]
    (try simp only [TRef.ofBuf, TRef.toBuf, cast_eq])
    rfl
  · after_results_simp
    exact ha1

/-- From the logits, the fourth stretch leaves the log-softmax's stage and keeps the labels. -/
theorem stretchD (U : Valuation τ sig (Elt F)) (x0 : (⟨S262144x128, .f32⟩ : BufTy).Contents (Elt F)) (x1 : (⟨S262144, .i32⟩ : BufTy).Contents (Elt F))
    (h25 : U (Proc.devRef .tc main_v25) = val_main_v25 (F := F) x0 x1) (ha1 : U (Proc.devRef .tc main_arg1) = x1) :
    after (opsD (F := F)) U (Proc.devRef .tc main_v26) = val_main_v26 (F := F) x0 x1
      ∧ after (opsD (F := F)) U (Proc.devRef .tc main_arg1) = x1 := by
  constructor
  · after_results_simp
    simp only [ofBuf_toBuf]
    rw [h25]
    simp only [ofBuf_main_v25, toBuf_main_v26]
    simp only [val_main_call2_cst, val_main_call2_v0, val_main_call2_cst_0, val_main_call2_v1, val_main_call2_v2, val_main_call2_v3, val_main_call2_v4, val_main_call2_v5, val_main_call2_v6, val_main_call2_cst_1, val_main_call2_v7, val_main_call2_v8, val_main_call2_v9, val_main_call2_v10, val_main_v26]
  · after_results_simp
    exact ha1

/-- From the log-softmax and the labels, the last stretch leaves the result's stage. -/
theorem stretchE (U : Valuation τ sig (Elt F)) (x0 : (⟨S262144x128, .f32⟩ : BufTy).Contents (Elt F)) (x1 : (⟨S262144, .i32⟩ : BufTy).Contents (Elt F))
    (h26 : U (Proc.devRef .tc main_v26) = val_main_v26 (F := F) x0 x1) (ha1 : U (Proc.devRef .tc main_arg1) = x1) :
    after (opsE (F := F)) U (Proc.devRef .tc main_v32) = val_main_v32 (F := F) x0 x1 := by
  after_results_simp
  simp only [ofBuf_toBuf]
  rw [h26, ha1]
  simp only [ofBuf_main_v27, ofBuf_main_call3_v5, ofBuf_main_v26, toBuf_main_v28, toBuf_main_call3_v4]
  simp only [val_main_v27, val_main_call3_c, val_main_call3_v0, val_main_call3_v1, val_main_call3_c_0, val_main_call3_v2, val_main_call3_v3, val_main_call3_v4, val_main_call3_v5, val_main_call3_c_1, val_main_call3_c_2, val_main_call3_v6, val_main_call3_v7, val_main_call3_v8, val_main_call3_v9, val_main_call3_v10, val_main_call3_v11, val_main_call3_c_3, val_main_call3_v12, val_main_call3_v13, val_main_call3_cst, val_main_call3_v14, val_main_v28, val_main_v29, val_main_v30, val_main_cst_6, val_main_v31, val_main_cst_7, val_main_v32]
  rfl

/-- The fold of @main's operations at the result buffer is the last stage of the two arguments' contents. -/
theorem after_ops_result (V : Valuation τ sig (Elt F)) :
    after (ops (F := F)) V (Proc.devRef .tc main_v32)
      = val_main_v32 (F := F) (V (Proc.devRef .tc main_arg0)) (V (Proc.devRef .tc main_arg1)) := by
  rw [ops_split, after_append, after_append, after_append, after_append]
  obtain ⟨a4, a1⟩ := stretchA V _ _ rfl rfl
  obtain ⟨b16, b4, b1⟩ := stretchB (after opsA V) _ _ a4 a1
  obtain ⟨c25, c1⟩ := stretchC (after opsB (after opsA V)) _ _ b16 b4 b1
  obtain ⟨d26, d1⟩ := stretchD (after opsC (after opsB (after opsA V))) _ _ c25 c1
  exact stretchE (after opsD (after opsC (after opsB (after opsA V)))) _ _ d26 d1

end Cert.ReferenceIdeal.Stages

end
-- ==== Proof.Reals.lean ====
/-
  On finite input every quantity of the specification is a real number: a row's floored norm is a positive real,
  so the normalised row is real; sums, quotients by positive reals, square roots of non-negative reals, maxima,
  exponentials, and the logarithm of a sum of exponentials that contains exp 0 = 1 are real.
-/
import proofs.«425387_j45749991637604_3_alg».proof.Proof.Spec

noncomputable section

namespace Cert.Spec

open Idealize.ShloMosaic Idealize.ShloMosaic.ValueIdx

/-! ## The three literals

A pattern with sign 0, exponent field E (neither 0 nor 255) and fraction field T denotes (2²³ + T) · 2^(E − 150).
The floor has E = 87: a positive multiple of 2⁻⁶³. The reciprocal of the row count has E = 109, T = 0: 2²³ · 2⁻⁴¹ = 2⁻¹⁸.
The row count has E = 145, T = 0: 2²³ · 2⁻⁵ = 2¹⁸. -/

/-- The floor under the norms is a positive real. -/
theorem eps_pos : ∃ r : ℝ, 0 < r ∧ eps = (r : EReal) := by
  unfold eps
  simp [Ideal.ofBits, Ideal.ieee, -EReal.coe_mul]

/-- 2⁻¹⁸ as a real. -/
theorem invN_eq : invN = (((1 : ℝ) / 262144 : ℝ) : EReal) := by
  unfold invN
  simp [Ideal.ofBits, Ideal.ieee, -EReal.coe_mul]
  norm_num

/-- The f32 262144.0 as a real. -/
theorem ofBits_n : Ideal.ofBits .f32 0x48800000#32 = ((262144 : ℝ) : EReal) := by
  simp [Ideal.ofBits, Ideal.ieee, -EReal.coe_mul]
  norm_num

namespace Reals

/-! ## Being a real number, and what preserves it -/

/-- An extended real that is neither infinity. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The embedding of the reals is monotone, so it carries the larger of two to the larger of their images. -/
theorem coe_max (a b : ℝ) : ((max a b : ℝ) : EReal) = max (a : EReal) (b : EReal) :=
  EReal.coe_strictMono.monotone.map_max

theorem isReal_max {x y : EReal} (hx : IsReal x) (hy : IsReal y) : IsReal (max x y) := by
  obtain ⟨a, rfl⟩ := hx
  obtain ⟨b, rfl⟩ := hy
  exact ⟨max a b, (coe_max a b).symm⟩

theorem isReal_ite {p : Prop} [Decidable p] {x y : EReal} (hx : IsReal x) (hy : IsReal y) :
    IsReal (if p then x else y) := by
  split
  · exact hx
  · exact hy

/-- A finite sum of real numbers, read in the extended reals, is the real sum. -/
theorem sum_coe {ι : Type*} (s : Finset ι) (g : ι → ℝ) :
    ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact isReal_add (hf a (Finset.mem_insert_self a s)) (ih fun i hi => hf i (Finset.mem_insert_of_mem hi))

/-- The quotient of a real by a nonzero real is real. -/
theorem isReal_div {x : EReal} (hx : IsReal x) {y : ℝ} (hy : y ≠ 0) : IsReal (Ideal.div x (y : EReal)) := by
  rw [Ideal.div_coe hy]
  exact isReal_mul hx (isReal_coe _)

/-- The exponential of a real is a positive real. -/
theorem exp_real_pos {x : EReal} (hx : IsReal x) : ∃ r : ℝ, 0 < r ∧ Ideal.exp x = (r : EReal) := by
  obtain ⟨a, rfl⟩ := hx
  exact ⟨Real.exp a, Real.exp_pos a, rfl⟩

/-- The logarithm of a positive real is real. -/
theorem isReal_log {r : ℝ} (hr : 0 < r) : IsReal (Ideal.log (r : EReal)) := by
  refine ⟨Real.log r, ?_⟩
  rw [Ideal.log_coe, if_neg (not_le.mpr hr)]

/-- The largest of a nonempty finite family of reals, folded from the bottom, is real: the larger of one real and
    the bottom is that real, and the larger of two reals is real. -/
theorem isReal_fold_max {ι : Type*} (s : Finset ι) (hs : s.Nonempty) (f : ι → EReal) (hf : ∀ i ∈ s, IsReal (f i)) :
    IsReal (s.fold max ⊥ f) := by
  classical
  induction hs using Finset.Nonempty.cons_induction with
  | singleton a =>
    rw [Finset.fold_singleton, max_bot_right]
    exact hf a (Finset.mem_singleton_self a)
  | cons a s ha _ ih =>
    rw [Finset.fold_cons]
    exact isReal_max (hf a (Finset.mem_cons_self a s)) (ih fun i hi => hf i (Finset.mem_cons.mpr (Or.inr hi)))

/-! ## Normalising a vector -/

/-- The floored Euclidean norm of a real vector is a positive real: the sum of squares is a non-negative real, its
    root a real, and the larger of that root and the positive floor is at least the floor. -/
theorem floorNorm_pos {n : ℕ} (f : Fin n → EReal) (hf : ∀ d, IsReal (f d)) :
    ∃ r : ℝ, 0 < r ∧ max (Ideal.sqrt (∑ d : Fin n, f d * f d)) eps = (r : EReal) := by
  choose g hg using hf
  obtain ⟨e, he, hee⟩ := eps_pos
  have hsum : ∑ d : Fin n, f d * f d = ((∑ d : Fin n, g d * g d : ℝ) : EReal) := by
    rw [← sum_coe]
    refine Finset.sum_congr rfl fun d _ => ?_
    rw [hg d, EReal.coe_mul]
  have hnn : ¬ (∑ d : Fin n, g d * g d) < 0 :=
    not_lt.mpr (Finset.sum_nonneg fun d _ => mul_self_nonneg (g d))
  refine ⟨max (Real.sqrt (∑ d : Fin n, g d * g d)) e, lt_max_of_lt_right he, ?_⟩
  rw [hsum, Ideal.sqrt_coe, if_neg hnn, hee, coe_max]

/-- A real vector divided by its floored norm is real. -/
theorem normalised_real {n : ℕ} (f : Fin n → EReal) (hf : ∀ d, IsReal (f d)) (d : Fin n) :
    IsReal (Ideal.div (f d) (max (Ideal.sqrt (∑ d : Fin n, f d * f d)) eps)) := by
  obtain ⟨r, hr, hre⟩ := floorNorm_pos f hf
  rw [hre]
  exact isReal_div (hf d) hr.ne'

end Reals

open Reals

/-! ## The quantities of the specification -/

/-- A normalised row of finite input is real. -/
theorem hn_real (h : SH.Idx → EReal) (hf : Finite h) (i : Fin 262144) (d : Fin 128) : ∃ r : ℝ, hn h i d = (r : EReal) :=
  normalised_real (fun d => h (ix2 i d)) (fun d => hf (ix2 i d)) d

/-- The sum of a class's normalised rows is real. -/
theorem Reals.classSum_real (h : SH.Idx → EReal) (lab : SL.Idx → BitVec 32) (hf : Finite h) (c : Fin 512) (d : Fin 128) :
    IsReal (classSum h lab c d) :=
  isReal_sum _ _ fun i _ => isReal_ite (hn_real h hf i d) isReal_zero

/-- A class's size, floored at one, is a positive real. -/
theorem Reals.classCnt_floor_pos (lab : SL.Idx → BitVec 32) (c : Fin 512) :
    ∃ r : ℝ, 0 < r ∧ max (classCnt lab c) 1 = (r : EReal) := by
  obtain ⟨a, ha⟩ : IsReal (classCnt lab c) := isReal_sum _ _ fun i _ => isReal_ite isReal_one isReal_zero
  refine ⟨max a 1, lt_max_of_lt_right one_pos, ?_⟩
  rw [ha, coe_max, EReal.coe_one]

/-- The class mean is real. -/
theorem Reals.protoRaw_real (h : SH.Idx → EReal) (lab : SL.Idx → BitVec 32) (hf : Finite h) (c : Fin 512) (d : Fin 128) :
    IsReal (protoRaw h lab c d) := by
  obtain ⟨r, hr, hre⟩ := classCnt_floor_pos lab c
  unfold protoRaw
  rw [hre]
  exact isReal_div (classSum_real h lab hf c d) hr.ne'

/-- The prototypes of finite input are real. -/
theorem proto_real (h : SH.Idx → EReal) (lab : SL.Idx → BitVec 32) (hf : Finite h) (j : SP.Idx) :
    ∃ r : ℝ, proto h lab j = (r : EReal) :=
  normalised_real (fun d => protoRaw h lab (j 0) d) (fun d => protoRaw_real h lab hf (j 0) d) (j 1)

/-- Against a real table the logits of finite input are real. -/
theorem logit_real (P : SP.Idx → EReal) (hP : ∀ j, ∃ r : ℝ, P j = (r : EReal)) (h : SH.Idx → EReal) (hf : Finite h)
    (i : Fin 262144) (c : Fin 512) : ∃ r : ℝ, logit P h i c = (r : EReal) :=
  isReal_mul (isReal_sum _ _ fun d _ => isReal_mul (hn_real h hf i d) (hP (ix2 c d))) (isReal_coe _)

/-- … so is their maximum … -/
theorem rowMax_real (P : SP.Idx → EReal) (hP : ∀ j, ∃ r : ℝ, P j = (r : EReal)) (h : SH.Idx → EReal) (hf : Finite h)
    (i : Fin 262144) : ∃ r : ℝ, rowMax P h i = (r : EReal) :=
  isReal_fold_max _ Finset.univ_nonempty _ fun c _ => logit_real P hP h hf i c

/-- The softmax denominator is a positive real: a nonempty sum of exponentials of reals. -/
theorem Reals.rowDen_pos (P : SP.Idx → EReal) (hP : ∀ j, ∃ r : ℝ, P j = (r : EReal)) (h : SH.Idx → EReal) (hf : Finite h)
    (i : Fin 262144) : ∃ r : ℝ, 0 < r ∧ rowDen P h i = (r : EReal) := by
  have hterm : ∀ c : Fin 512, ∃ r : ℝ, 0 < r ∧ Ideal.exp (logit P h i c - rowMax P h i) = (r : EReal) :=
    fun c => exp_real_pos (isReal_sub (logit_real P hP h hf i c) (rowMax_real P hP h hf i))
  choose g hg0 hg using hterm
  refine ⟨∑ c : Fin 512, g c, Finset.sum_pos (fun c _ => hg0 c) Finset.univ_nonempty, ?_⟩
  unfold rowDen
  rw [← sum_coe]
  exact Finset.sum_congr rfl fun c _ => hg c

/-- … and the logarithm of the softmax denominator. -/
theorem logDen_real (P : SP.Idx → EReal) (hP : ∀ j, ∃ r : ℝ, P j = (r : EReal)) (h : SH.Idx → EReal) (hf : Finite h)
    (i : Fin 262144) : ∃ r : ℝ, Ideal.log (rowDen P h i) = (r : EReal) := by
  obtain ⟨r, hr, hre⟩ := rowDen_pos P hP h hf i
  rw [hre]
  exact isReal_log hr

end Cert.Spec

end
-- ==== Proof.Bridge.lean ====
/-
  The two spellings of the mean loss agree on finite input with labels in range: the masked sum over the classes
  picks the logit at the label; on real numbers (m + L) - a = -((a - m) - L); the sum from zero divided by 262144 is
  the sum times 2⁻¹⁸.
-/
import proofs.«425387_j45749991637604_3_alg».proof.Proof.Reals

noncomputable section

namespace Cert.Spec

open Idealize.ShloMosaic Idealize.ShloMosaic.ValueIdx

/-- With every label below 512, row `i` carries label `c` exactly when `c` is the row's label read as a class:
    a number below 512 is its own residue modulo 2³², and a 32-bit word is determined by its number. -/
theorem isClass_iff (lab : SL.Idx → BitVec 32) (hl : InRange lab) (i : Fin 262144) (c : Fin 512) :
    IsClass lab i c ↔ c = labOf lab i := by
  have hlt : (lab (ix1 i)).toNat < 512 := hl (ix1 i)
  have hc : c.val < 512 := c.isLt
  unfold IsClass labOf
  rw [dif_pos hlt]
  constructor
  · intro hEq
    apply Fin.ext
    show c.val = (lab (ix1 i)).toNat
    rw [hEq, BitVec.toNat_ofNat]
    exact (Nat.mod_eq_of_lt (by omega)).symm
  · intro hEq
    apply BitVec.eq_of_toNat_eq
    rw [BitVec.toNat_ofNat, hEq]
    show (lab (ix1 i)).toNat = (lab (ix1 i)).toNat % 2 ^ 32
    exact (Nat.mod_eq_of_lt (by omega)).symm

/-- With the label a class, the masked sum over the classes is the logit at the label. -/
theorem ownLogit_eq (P : SP.Idx → EReal) (h : SH.Idx → EReal) (lab : SL.Idx → BitVec 32) (hl : InRange lab) (i : Fin 262144) :
    ownLogit P h lab i = logit P h i (labOf lab i) := by
  unfold ownLogit
  rw [Finset.sum_eq_single (labOf lab i)]
  · rw [if_pos ((isClass_iff lab hl i (labOf lab i)).2 rfl)]
  · intro c _ hne
    rw [if_neg (fun hc => hne ((isClass_iff lab hl i c).1 hc))]
  · intro hnot
    exact absurd (Finset.mem_univ _) hnot

/-- A row's loss, either way. -/
theorem rowNll_eq (P : SP.Idx → EReal) (hP : ∀ j, ∃ r : ℝ, P j = (r : EReal)) (h : SH.Idx → EReal) (hf : Finite h)
    (lab : SL.Idx → BitVec 32) (hl : InRange lab) (i : Fin 262144) : rowNll P h lab i = rowNll' P h lab i := by
  obtain ⟨a, ha⟩ := logit_real P hP h hf i (labOf lab i)
  obtain ⟨m, hm⟩ := rowMax_real P hP h hf i
  obtain ⟨L, hL⟩ := logDen_real P hP h hf i
  unfold rowNll rowNll'
  rw [ownLogit_eq P h lab hl i, ha, hm, hL]
  -- all three quantities are real: both sides are coercions of real expressions, equal by ring arithmetic
  rw [← EReal.coe_add, ← EReal.coe_sub, ← EReal.coe_sub, ← EReal.coe_sub, ← EReal.coe_neg]
  congr 1
  ring

/-- The mean loss, either way. -/
theorem loss_eq (h : SH.Idx → EReal) (lab : SL.Idx → BitVec 32) (hf : Finite h) (hl : InRange lab) :
    loss h lab = loss' h lab := by
  have hs : (∑ i : Fin 262144, rowNll (proto h lab) h lab i) = ∑ i : Fin 262144, rowNll' (proto h lab) h lab i :=
    Finset.sum_congr rfl (fun i _ => rowNll_eq (proto h lab) (proto_real h lab hf) h hf lab hl i)
  unfold loss loss'
  rw [hs, zero_add, ofBits_n, Ideal.div_coe (by norm_num : (262144 : ℝ) ≠ 0), invN_eq]

end Cert.Spec

end
-- ==== Proof.PreFacts.lean ====
/-
  What the precondition says of the two inputs: it is the conjunction of two tests, each true at every element —
  |h| < +∞ at every entry of the embeddings, so every entry is a real number, and 0 ≤ label < 512, signed, at every
  label, so every label is a class.
-/
import proofs.«425387_j45749991637604_3_alg».proof.Proof.Gen.Pre_finite_inputs
import proofs.«425387_j45749991637604_3_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.Pre_finite_inputs Cert.Pre_finite_inputs.Gen

/-- The shape with no axis has one index. -/
instance : Subsingleton S_.Idx := ⟨fun a b => funext fun d => d.elim0⟩

/-- The pattern 0x7F800000 denotes +∞. -/
theorem inf_eq_top : Ideal.ofBits .f32 0x7F800000#32 = ⊤ := by simp [Ideal.ofBits, Ideal.ieee]

/-- An extended real whose absolute value, max x (−x), is below +∞ is a real number: at either infinity the
    absolute value is +∞. -/
theorem real_of_abs_lt_top (x : EReal)
    (h : Ideal.cmp .olt (max x (-x)) (Ideal.ofBits .f32 0x7F800000#32) = 1#1) : ∃ r : ℝ, x = (r : EReal) := by
  rw [inf_eq_top] at h
  unfold Ideal.cmp at h
  induction x using EReal.rec with
  | bot => simp at h
  | coe r => exact ⟨r, rfl⟩
  | top => simp at h

/-- A 32-bit word that is at least 0 and below 512 as a signed number is below 512 as an unsigned one. -/
theorem toNat_lt_512 (w : BitVec 32) (h0 : IntOp.cmpi .sge w 0#32 = 1#1) (h1 : IntOp.cmpi .slt w 512#32 = 1#1) :
    w.toNat < 512 := by
  unfold IntOp.cmpi at h0 h1
  rw [StableHlo.Predicate.ofBool_eq_one_iff] at h0 h1
  simp only [BitVec.slt, BitVec.sle, decide_eq_true_eq] at h0 h1
  have h32 := w.isLt
  have e0 : (0#32 : BitVec 32).toInt = 0 := by decide
  have e1 : (512#32 : BitVec 32).toInt = 512 := by decide
  rw [e0] at h0
  rw [e1] at h1
  rw [BitVec.toInt_eq_toNat_cond] at h0 h1
  split at h0 <;> omega

/-- Where the precondition is all ones the embeddings are finite and the labels are classes. -/
theorem of_pre (x0 : FVec Ideal S262144x128 .f32) (x1 : IVec S262144 32)
    (h : Cert.Pre_finite_inputs.fn (F := Ideal) x0 x1 = fun _ => 1#1) :
    Cert.Spec.Finite x0 ∧ Cert.Spec.InRange x1 := by
  have e := congrFun h ValueIdx.ix0
  dsimp only [fn] at e
  obtain ⟨ef, el⟩ := IntOp.andi_eq_one.1 e
  constructor
  · intro j
    have ej := Host.reduce_andi_all _ _ _ _ _ ef j
    exact real_of_abs_lt_top (x0 j) ej
  · intro j
    have ej := Host.reduce_andi_all _ _ _ _ _ el j
    obtain ⟨h0, h1⟩ := IntOp.andi_eq_one.1 ej
    exact toNat_lt_512 (x1 j) h0 h1

end Cert.PreFacts

end
-- ==== Proof.lean ====
/-
  The five claims.

  Frames. The kernel as printed and its idealisation run to the end with their arguments unchanged: each @main is two
  pipelined kernel regions among three stretches of host operations, and the frame of that shape is generated. The
  reference is host operations only; its frame is its run with the result dropped.

  The idealisation is sanctioned: its one rewrite names the kernel's literal 10.0 — the source's `1.0 / TAU`, folded —
  as the reciprocal of the reference's own f32 word for TAU = 0.1, which is 13421773/134217728.

  Equal results at the extended reals, under the precondition (every embedding entry finite, every label in [0, 512)).
  Both programs compute a mean, over 262144 rows, of the row's cross-entropy against 512 class prototypes: rows and
  class means are normalised by their floored Euclidean norms, the logits are inner products over the temperature.
    * The kernel accumulates class sums and sizes tile by tile on two cores (a one-hot matrix product and a column
      sum), normalises on the host, then accumulates the rows' losses tile by tile, each row's as
      `(max + log Σ exp(logit − max)) − (logit at the label, a masked sum)`, and scales the two cores' totals by 2⁻¹⁸.
      Regrouped over all rows this is `Spec.loss`.
    * The reference scatters the normalised rows and ones into the class sums and sizes, divides the logits by the
      temperature, takes a log-softmax, gathers at the labels, negates, sums and divides by 262144: `Spec.loss'`.
  The two spellings agree because every quantity is a real number on finite input (so `(m + L) − a = −((a − m) − L)`),
  a label in range picks exactly one class, multiplying by the named reciprocal is dividing by the temperature's word,
  and multiplying by 2⁻¹⁸ is dividing by 262144.
-/
import proofs.«425387_j45749991637604_3_alg».proof.Defs
import proofs.«425387_j45749991637604_3_alg».proof.Proof.Gen.Kernel
import proofs.«425387_j45749991637604_3_alg».proof.Proof.Gen.Kernel.Frame
import proofs.«425387_j45749991637604_3_alg».proof.Proof.Gen.KernelIdeal
import proofs.«425387_j45749991637604_3_alg».proof.Proof.Gen.KernelIdeal.Frame
import proofs.«425387_j45749991637604_3_alg».proof.Proof.Gen.ReferenceIdeal
import proofs.«425387_j45749991637604_3_alg».proof.Proof.Gen.Pre_finite_inputs
import proofs.«425387_j45749991637604_3_alg».proof.Proof.KernelValue
import proofs.«425387_j45749991637604_3_alg».proof.Proof.RefValue
import proofs.«425387_j45749991637604_3_alg».proof.Proof.RefStages
import proofs.«425387_j45749991637604_3_alg».proof.Proof.Bridge
import proofs.«425387_j45749991637604_3_alg».proof.Proof.PreFacts
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The named constant is the value the table gives its name. -/
theorem preserves : Cert.preserves_Kernel_KernelIdeal :=
  IdealRules.named_const.statement Cert.KernelIdeal.κ "inv_tau" .f32 0x41200000#32 ((134217728 / 13421773 : ℝ) : EReal) rfl

/-- Both idealised programs end with the mean loss of the arguments in their result buffers. -/
theorem algebraic : Cert.algebraic_KernelIdeal_ReferenceIdeal := by
  intro m ρ m' ρ' hpre hagree
  refine ⟨fun c => (fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) : Cert.KernelIdeal.S_.Idx → EReal),
    Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  obtain ⟨hf, hl⟩ := Cert.PreFacts.of_pre _ _ (hpre c)
  -- the fold of the reference's operations is its last stage, of the arguments as launched, which are the kernel's
  rw [Cert.ReferenceIdeal.Stages.after_ops_result]
  show Cert.ReferenceIdeal.ReadP.val_main_v32 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2, Cert.ReferenceIdeal.RefValue.ref_loss _ _ hl, ← Cert.Spec.loss_eq _ _ hf hl]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
